-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S4096x4096 : Shape := ⟨2, ![4096, 4096]⟩
abbrev S4096x32 : Shape := ⟨2, ![4096, 32]⟩
abbrev S32x4096 : Shape := ⟨2, ![32, 4096]⟩
abbrev S4096 : Shape := ⟨1, ![4096]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S4096x32 : S_.BroadcastsInDim S4096x32 (![] : Fin 0 → Fin S4096x32.rank)
  reducesTo_S4096x32_S_d0_1 : S4096x32.ReducesTo [0, 1] S_
  bcast_S_S32x4096 : S_.BroadcastsInDim S32x4096 (![] : Fin 0 → Fin S32x4096.rank)
  reducesTo_S32x4096_S_d0_1 : S32x4096.ReducesTo [0, 1] S_
  bcast_S_S4096 : S_.BroadcastsInDim S4096 (![] : Fin 0 → Fin S4096.rank)
  reducesTo_S4096_S_d0 : S4096.ReducesTo [0] S_

variable [Facts]

def fn_part1 {F : FTy → Type} [FloatOps F] (main_arg5 : FVec F S4096 .f32) (main_v13 : IVec S_ 1) (main_v16 : IVec S32x4096 1) : IVec S_ 1 :=
  let main_c_5 : IVec S_ 1 := constantI S_ 1 1#1
  let main_v17 : IVec S_ 1 := (fun x v => Host.reduce IntOp.andi x v reducesTo_S32x4096_S_d0_1 h_S_) main_v16 main_c_5
  let main_v18 : IVec S_ 1 := andi main_v13 main_v17
  let main_v19 : FVec F S4096 .f32 := Host.absf main_arg5
  let main_cst_6 : FVec F S_ .f32 := constant S_ .f32 0x7F800000#32
  let main_v20 : FVec F S4096 .f32 := broadcastInDim S4096 ![] bcast_S_S4096 main_cst_6
  let main_v21 : IVec S4096 1 := cmpf .olt main_v19 main_v20
  let main_c_7 : IVec S_ 1 := constantI S_ 1 1#1
  let main_v22 : IVec S_ 1 := (fun x v => Host.reduce IntOp.andi x v reducesTo_S4096_S_d0 h_S_) main_v21 main_c_7
  let main_v23 : IVec S_ 1 := andi main_v18 main_v22
  main_v23

def fn {F : FTy → Type} [FloatOps F] (main_arg0 : FVec F S4x2048x4096 .f32) (main_arg1 : IVec S4096x4096 32) (main_arg2 : FVec F S4096x32 .f32) (main_arg3 : FVec F S4096x32 .f32) (main_arg4 : FVec F S32x4096 .f32) (main_arg5 : FVec F S4096 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S4096x32 .f32 := Host.absf main_arg2
  let main_cst_0 : FVec F S_ .f32 := constant S_ .f32 0x7F800000#32
  let main_v5 : FVec F S4096x32 .f32 := broadcastInDim S4096x32 ![] bcast_S_S4096x32 main_cst_0
  let main_v6 : IVec S4096x32 1 := cmpf .olt main_v4 main_v5
  let main_c_1 : IVec S_ 1 := constantI S_ 1 1#1
  let main_v7 : IVec S_ 1 := (fun x v => Host.reduce IntOp.andi x v reducesTo_S4096x32_S_d0_1 h_S_) main_v6 main_c_1
  let main_v8 : IVec S_ 1 := andi main_v3 main_v7
  let main_v9 : FVec F S4096x32 .f32 := Host.absf main_arg3
  let main_cst_2 : FVec F S_ .f32 := constant S_ .f32 0x7F800000#32
  let main_v10 : FVec F S4096x32 .f32 := broadcastInDim S4096x32 ![] bcast_S_S4096x32 main_cst_2
  let main_v11 : IVec S4096x32 1 := cmpf .olt main_v9 main_v10
  let main_c_3 : IVec S_ 1 := constantI S_ 1 1#1
  let main_v12 : IVec S_ 1 := (fun x v => Host.reduce IntOp.andi x v reducesTo_S4096x32_S_d0_1 h_S_) main_v11 main_c_3
  let main_v13 : IVec S_ 1 := andi main_v8 main_v12
  let main_v14 : FVec F S32x4096 .f32 := Host.absf main_arg4
  let main_cst_4 : FVec F S_ .f32 := constant S_ .f32 0x7F800000#32
  let main_v15 : FVec F S32x4096 .f32 := broadcastInDim S32x4096 ![] bcast_S_S32x4096 main_cst_4
  let main_v16 : IVec S32x4096 1 := cmpf .olt main_v14 main_v15
  fn_part1 (F := F) main_arg5 main_v13 main_v16
-- ==== Kernel.lean ====
abbrev S4x2048x4096 : Shape := ⟨3, ![4, 2048, 4096]⟩
abbrev S4096x4096 : Shape := ⟨2, ![4096, 4096]⟩
abbrev S4096x32 : Shape := ⟨2, ![4096, 32]⟩
abbrev S32x4096 : Shape := ⟨2, ![32, 4096]⟩
abbrev S4096 : Shape := ⟨1, ![4096]⟩
abbrev S128x4096 : Shape := ⟨2, ![128, 4096]⟩
abbrev S128x32 : Shape := ⟨2, ![128, 32]⟩
abbrev S128x32x128 : Shape := ⟨3, ![128, 32, 128]⟩
abbrev S128x32x1 : Shape := ⟨3, ![128, 32, 1]⟩
abbrev S8192x4096 : Shape := ⟨2, ![8192, 4096]⟩
abbrev S1x4096 : Shape := ⟨2, ![1, 4096]⟩
abbrev S1024x1024 : Shape := ⟨2, ![1024, 1024]⟩
abbrev S1x1024 : Shape := ⟨2, ![1, 1024]⟩

abbrev nBuf : Space → Nat
  | .hbm => 11
  | .vmem => 18
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .i32⟩
  | .hbm, ⟨2, _⟩ => ⟨S4096x32, .f32⟩
  | .hbm, ⟨3, _⟩ => ⟨S4096x32, .f32⟩
  | .hbm, ⟨4, _⟩ => ⟨S32x4096, .f32⟩
  | .hbm, ⟨5, _⟩ => ⟨S4096, .f32⟩
  | .hbm, ⟨6, _⟩ => ⟨S4096x4096, .bf16⟩
  | .hbm, ⟨7, _⟩ => ⟨S8192x4096, .f32⟩
  | .hbm, ⟨8, _⟩ => ⟨S1x4096, .f32⟩
  | .hbm, ⟨9, _⟩ => ⟨S8192x4096, .f32⟩
  | .hbm, ⟨10, _⟩ => ⟨S4x2048x4096, .f32⟩
  | .local _ .vmem, ⟨0, _⟩ => ⟨S128x4096, .i32⟩
  | .local _ .vmem, ⟨1, _⟩ => ⟨S128x4096, .i32⟩
  | .local _ .vmem, ⟨2, _⟩ => ⟨S128x32, .f32⟩
  | .local _ .vmem, ⟨3, _⟩ => ⟨S128x32, .f32⟩
  | .local _ .vmem, ⟨4, _⟩ => ⟨S128x32, .f32⟩
  | .local _ .vmem, ⟨5, _⟩ => ⟨S128x32, .f32⟩
  | .local _ .vmem, ⟨6, _⟩ => ⟨S32x4096, .f32⟩
  | .local _ .vmem, ⟨7, _⟩ => ⟨S128x4096, .bf16⟩
  | .local _ .vmem, ⟨8, _⟩ => ⟨S128x4096, .bf16⟩
  | .local _ .vmem, ⟨9, _⟩ => ⟨S1024x1024, .f32⟩
  | .local _ .vmem, ⟨10, _⟩ => ⟨S1024x1024, .f32⟩
  | .local _ .vmem, ⟨11, _⟩ => ⟨S1024x1024, .bf16⟩
  | .local _ .vmem, ⟨12, _⟩ => ⟨S1024x1024, .bf16⟩
  | .local _ .vmem, ⟨13, _⟩ => ⟨S1x1024, .f32⟩
  | .local _ .vmem, ⟨14, _⟩ => ⟨S1x1024, .f32⟩
  | .local _ .vmem, ⟨15, _⟩ => ⟨S1024x1024, .f32⟩
  | .local _ .vmem, ⟨16, _⟩ => ⟨S1024x1024, .f32⟩
  | .local _ .vmem, ⟨17, _⟩ => ⟨S1024x1024, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg3_1 : Ref sig .tc := ⟨.vmem, 16, rfl⟩
abbrev cc1_scratch0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem2_1 : DmaSem sig := 14
abbrev cc1_sem3_0 : DmaSem sig := 15
abbrev cc1_sem3_1 : DmaSem sig := 16

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x4096 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S32x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S128x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨3, ![8, 4, 4], ![false, false, false]⟩

def k1_cond2 (i : grid1.Coords) : BitVec 1 :=
  let arg2 : BitVec 32 := BitVec.ofNat 32 (i 2).val
  let c3_i32 : BitVec 32 := 3#32
  let v14 : BitVec 1 := Scalar.cmpi .eq arg2 c3_i32
  let v15 : BitVec 32 := Scalar.extui v14
  let c0_i32_8 : BitVec 32 := 0#32
  let v16 : BitVec 1 := Scalar.cmpi .ne v15 c0_i32_8
  v16

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1024x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S1024x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true, false]

abbrev stage1_3 : Fin 2 → Memref sig .tc .vmem S1024x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

class Facts₀ : Prop where
  inb_S128x4096_S128x4096_0_0 : ∀ a, (![0, 0] : Fin 2 → Nat) a + S128x4096.size a ≤ S128x4096.size a
  h_S128x4096 : 0 < S128x4096.numel
  shapeCasts_S128x4096_S128x32x128 : S128x4096.ShapeCasts S128x32x128
  inb_S128x32_S128x32_0_0 : ∀ a, (![0, 0] : Fin 2 → Nat) a + S128x32.size a ≤ S128x32.size a
  h_S128x32 : 0 < S128x32.numel
  shapeCasts_S128x32_S128x32x1 : S128x32.ShapeCasts S128x32x1
  broadcasts_S128x32x1_S128x32x128 : S128x32x1.Broadcasts S128x32x128
  shapeCasts_S128x32x128_S128x4096 : S128x32x128.ShapeCasts S128x4096
  bitsLt_bf16_f32 : FTy.bits .bf16 < FTy.bits .f32
  inb_S32x4096_S32x4096_0_0 : ∀ a, (![0, 0] : Fin 2 → Nat) a + S32x4096.size a ≤ S32x4096.size a
  h_S32x4096 : 0 < S32x4096.numel
  packedbf16_S128x4096_S128x4096_0_0 : (Rect.unit (s := S128x4096) ![0, 0] S128x4096.size inb_S128x4096_S128x4096_0_0).PackedRows (EltTy.packing .bf16)
  shapeCasts_S4x2048x4096_S8192x4096 : S4x2048x4096.ShapeCasts S8192x4096
  shapeCasts_S4096_S1x4096 : S4096.ShapeCasts S1x4096
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  shapeCasts_S8192x4096_S4x2048x4096 : S8192x4096.ShapeCasts S4x2048x4096
  dot_S128x32_S32x4096_S128x4096_1_0_0_1_n_n_wf : DotDims.WF S128x32 S32x4096 S128x4096 [1] [0] [0] [1] [] []
  dot_S1024x1024_S1024x1024_S1024x1024_1_1_0_0_n_n_wf : DotDims.WF S1024x1024 S1024x1024 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x4096.size a ≤ S4096x4096.size a
  hwx0_0 : ∀ i : grid0.Coords, EltTy.bits .i32 = 32 ∨ (Rect.block (s := S4096x4096) S128x4096.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x32.size a ≤ S4096x32.size a
  hwx0_1 : ∀ i : grid0.Coords, EltTy.bits .f32 = 32 ∨ (Rect.block (s := S4096x32) S128x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x32.size a ≤ S4096x32.size a
  hwx0_2 : ∀ i : grid0.Coords, EltTy.bits .f32 = 32 ∨ (Rect.block (s := S4096x32) S128x32.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S32x4096.size a ≤ S32x4096.size a
  hwx0_3 : ∀ i : grid0.Coords, EltTy.bits .f32 = 32 ∨ (Rect.block (s := S32x4096) S32x4096.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S128x4096.size a ≤ S4096x4096.size a
  hwx0_4 : ∀ i : grid0.Coords, EltTy.bits .bf16 = 32 ∨ (Rect.block (s := S4096x4096) S128x4096.size (cc0_transform_4 i) (hinb0_4 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x1024.size a ≤ S8192x4096.size a
  hwx1_0 : ∀ i : grid1.Coords, EltTy.bits .f32 = 32 ∨ (Rect.block (s := S8192x4096) S1024x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x1024.size a ≤ S4096x4096.size a
  hwx1_1 : ∀ i : grid1.Coords, EltTy.bits .bf16 = 32 ∨ (Rect.block (s := S4096x4096) S1024x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1024.size a ≤ S1x4096.size a
  hwx1_2 : ∀ i : grid1.Coords, EltTy.bits .f32 = 32 ∨ (Rect.block (s := S1x4096) S1x1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x1024.size a ≤ S8192x4096.size a
  hwx1_3 : ∀ i : grid1.Coords, EltTy.bits .f32 = 32 ∨ (Rect.block (s := S8192x4096) S1024x1024.size (cc1_transform_3 i) (hinb1_3 i)).WholeWords (EltTy.packing .f32)

variable [Facts₀]

def dot_S128x32_S32x4096_S128x4096_1_0_0_1_n_n : DotDims S128x32 S32x4096 S128x4096 where
  lhsContracting := [1]
  rhsContracting := [0]
  lhsNonContracting := [0]
  rhsNonContracting := [1]
  lhsBatch := []
  rhsBatch := []
  wf := dot_S128x32_S32x4096_S128x4096_1_0_0_1_n_n_wf
def dot_S1024x1024_S1024x1024_S1024x1024_1_1_0_0_n_n : DotDims S1024x1024 S1024x1024 S1024x1024 where
  lhsContracting := [1]
  rhsContracting := [1]
  lhsNonContracting := [0]
  rhsNonContracting := [0]
  lhsBatch := []
  rhsBatch := []
  wf := dot_S1024x1024_S1024x1024_S1024x1024_1_1_0_0_n_n_wf

abbrev win0_0 : Pipeline.Window sig grid0 :=
  Pipeline.Window.ofSpec (Memref.whole main_arg1) S128x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x32.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128x32.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S32x4096.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0) S128x4096.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v1) S1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S1024x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v2) S1x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v3) S1024x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

class Facts : Prop extends Facts₀ where

variable [Facts]
-- ==== ReferenceIdeal.lean ====
abbrev S4x2048x4096 : Shape := ⟨3, ![4, 2048, 4096]⟩
abbrev S4096x4096 : Shape := ⟨2, ![4096, 4096]⟩
abbrev S4096x32 : Shape := ⟨2, ![4096, 32]⟩
abbrev S32x4096 : Shape := ⟨2, ![32, 4096]⟩
abbrev S4096 : Shape := ⟨1, ![4096]⟩
abbrev S_ : Shape := ⟨0, ![]⟩
abbrev S4096x32x128 : Shape := ⟨3, ![4096, 32, 128]⟩
abbrev S4096x32x1 : Shape := ⟨3, ![4096, 32, 1]⟩
abbrev S1x1x4096 : Shape := ⟨3, ![1, 1, 4096]⟩

abbrev nBuf : Space → Nat
  | .hbm => 21
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .i32⟩
  | .hbm, ⟨2, _⟩ => ⟨S4096x32, .f32⟩
  | .hbm, ⟨3, _⟩ => ⟨S4096x32, .f32⟩
  | .hbm, ⟨4, _⟩ => ⟨S32x4096, .f32⟩
  | .hbm, ⟨5, _⟩ => ⟨S4096, .f32⟩
  | .hbm, ⟨6, _⟩ => ⟨S4096x4096, .f32⟩
  | .hbm, ⟨7, _⟩ => ⟨S_, .f32⟩
  | .hbm, ⟨8, _⟩ => ⟨S4096x4096, .f32⟩
  | .hbm, ⟨9, _⟩ => ⟨S4096x4096, .f32⟩
  | .hbm, ⟨10, _⟩ => ⟨S4096x32x128, .f32⟩
  | .hbm, ⟨11, _⟩ => ⟨S4096x32x1, .f32⟩
  | .hbm, ⟨12, _⟩ => ⟨S4096x32x128, .f32⟩
  | .hbm, ⟨13, _⟩ => ⟨S4096x32x128, .f32⟩
  | .hbm, ⟨14, _⟩ => ⟨S4096x4096, .f32⟩
  | .hbm, ⟨15, _⟩ => ⟨S4096x4096, .f32⟩
  | .hbm, ⟨16, _⟩ => ⟨S4096x4096, .f32⟩
  | .hbm, ⟨17, _⟩ => ⟨S4x2048x4096, .f32⟩
  | .hbm, ⟨18, _⟩ => ⟨S1x1x4096, .f32⟩
  | .hbm, ⟨19, _⟩ => ⟨S4x2048x4096, .f32⟩
  | .hbm, ⟨20, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩

abbrev nD : Nat := 1
abbrev τ : Topo := Topo.v7x

variable {F : FTy → Type} [FloatOps F]

class Facts₀ : Prop where
  bcast_S_S4096x4096 : S_.BroadcastsInDim S4096x4096 (![] : Fin 0 → Fin S4096x4096.rank)
  shapeCasts_S4096x4096_S4096x32x128 : S4096x4096.ShapeCasts S4096x32x128
  bcast_S4096x32_S4096x32x1_0_1 : S4096x32.BroadcastsInDim S4096x32x1 (![0, 1] : Fin 2 → Fin S4096x32x1.rank)
  bcast_S4096x32x1_S4096x32x128_0_1_2 : S4096x32x1.BroadcastsInDim S4096x32x128 (![0, 1, 2] : Fin 3 → Fin S4096x32x128.rank)
  shapeCasts_S4096x32x128_S4096x4096 : S4096x32x128.ShapeCasts S4096x4096
  bcast_S4096_S1x1x4096_2 : S4096.BroadcastsInDim S1x1x4096 (![2] : Fin 1 → Fin S1x1x4096.rank)
  bcast_S1x1x4096_S4x2048x4096_0_1_2 : S1x1x4096.BroadcastsInDim S4x2048x4096 (![0, 1, 2] : Fin 3 → Fin S4x2048x4096.rank)
  dot_S4096x32_S32x4096_S4096x4096_1_0_0_1_n_n_wf : DotDims.WF S4096x32 S32x4096 S4096x4096 [1] [0] [0] [1] [] []
  dot_S4x2048x4096_S4096x4096_S4x2048x4096_2_1_01_0_n_n_wf : DotDims.WF S4x2048x4096 S4096x4096 S4x2048x4096 [2] [1] [0, 1] [0] [] []

variable [Facts₀]

def dot_S4096x32_S32x4096_S4096x4096_1_0_0_1_n_n : DotDims S4096x32 S32x4096 S4096x4096 where
  lhsContracting := [1]
  rhsContracting := [0]
  lhsNonContracting := [0]
  rhsNonContracting := [1]
  lhsBatch := []
  rhsBatch := []
  wf := dot_S4096x32_S32x4096_S4096x4096_1_0_0_1_n_n_wf
def dot_S4x2048x4096_S4096x4096_S4x2048x4096_2_1_01_0_n_n : DotDims S4x2048x4096 S4096x4096 S4x2048x4096 where
  lhsContracting := [2]
  rhsContracting := [1]
  lhsNonContracting := [0, 1]
  rhsNonContracting := [0]
  lhsBatch := []
  rhsBatch := []
  wf := dot_S4x2048x4096_S4096x4096_S4x2048x4096_2_1_01_0_n_n_wf

class Facts : Prop extends Facts₀ where

variable [Facts]
-- ==== Proof.DequantBody.lean ====
/-
  The dequantization kernel (the first pallas_call) at one grid point, for any float instance.

  Grid point `t` of 32 handles output rows 128·t … 128·t+127: it reads the code block, the scale block and the
  low-rank row block of those rows and the whole right factor, and stores one 128 × 4096 tile of the weight.
  The body keeps nothing between points and reads nothing it wrote, so its region invariant is only the scoped
  buffers it never touches and the generator register.
-/
import proofs.«114712_j11579231830187_1_alg».proof.Proof.Gen.KernelIdeal.Launch
import proofs.«114712_j11579231830187_1_alg».proof.Proof.Gen.KernelIdeal.Skeleton
import proofs.«114712_j11579231830187_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Block `t` of window `w`'s array, the arrays being at `V` when the region is entered. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds its block whenever the body runs, fetched at that point or not: a body
    that leaves the block in place finds, where the pipeline did not fetch, the block of an index that did not move.
    One statement per input window (the block's shape is the window's own). -/
theorem held0_0_of {c : Dev nD} (dat : Dat τ (Elt F) Unit ℕ (UR sig nD τ) ℕ cfg0 c) (hA : dat.A 0 = V c (Pipeline.arrRef spec0 0))
    (hafter : ∀ t, dat.after 0 t = blk0 V c 0 t) (t : Fin cfg0.N) (d) : dat.before 0 t d = blk0 V c 0 t :=
  (dat.before_in_eq_fetched 0 rfl (fun _ => rfl) (fun _ _ _ => rfl) (fun t => by rw [hafter]; unfold Dat.blockOf blk0; rw [hA]; try rfl) t d).trans
    (by unfold Dat.fetched Dat.blockOf blk0; rw [hA]; try rfl)
theorem held0_1_of {c : Dev nD} (dat : Dat τ (Elt F) Unit ℕ (UR sig nD τ) ℕ cfg0 c) (hA : dat.A 1 = V c (Pipeline.arrRef spec0 1))
    (hafter : ∀ t, dat.after 1 t = blk0 V c 1 t) (t : Fin cfg0.N) (d) : dat.before 1 t d = blk0 V c 1 t :=
  (dat.before_in_eq_fetched 1 rfl (fun _ => rfl) (fun _ _ _ => rfl) (fun t => by rw [hafter]; unfold Dat.blockOf blk0; rw [hA]; try rfl) t d).trans
    (by unfold Dat.fetched Dat.blockOf blk0; rw [hA]; try rfl)
theorem held0_2_of {c : Dev nD} (dat : Dat τ (Elt F) Unit ℕ (UR sig nD τ) ℕ cfg0 c) (hA : dat.A 2 = V c (Pipeline.arrRef spec0 2))
    (hafter : ∀ t, dat.after 2 t = blk0 V c 2 t) (t : Fin cfg0.N) (d) : dat.before 2 t d = blk0 V c 2 t :=
  (dat.before_in_eq_fetched 2 rfl (fun _ => rfl) (fun _ _ _ => rfl) (fun t => by rw [hafter]; unfold Dat.blockOf blk0; rw [hA]; try rfl) t d).trans
    (by unfold Dat.fetched Dat.blockOf blk0; rw [hA]; try rfl)
theorem held0_3_of {c : Dev nD} (dat : Dat τ (Elt F) Unit ℕ (UR sig nD τ) ℕ cfg0 c) (hA : dat.A 3 = V c (Pipeline.arrRef spec0 3))
    (hafter : ∀ t, dat.after 3 t = blk0 V c 3 t) (t : Fin cfg0.N) (d) : dat.before 3 t d = blk0 V c 3 t :=
  (dat.before_in_eq_fetched 3 rfl (fun _ => rfl) (fun _ _ _ => rfl) (fun t => by rw [hafter]; unfold Dat.blockOf blk0; rw [hA]; try rfl) t d).trans
    (by unfold Dat.fetched Dat.blockOf blk0; rw [hA]; try rfl)

/-! ## The body's accesses: every load and the store take the whole staging buffer -/

abbrev rTile : Rect S128x4096 := Rect.unit (s := S128x4096) ![0, 0] S128x4096.size inb_S128x4096_S128x4096_0_0
abbrev rCols : Rect S128x32 := Rect.unit (s := S128x32) ![0, 0] S128x32.size inb_S128x32_S128x32_0_0
abbrev rRight : Rect S32x4096 := Rect.unit (s := S32x4096) ![0, 0] S32x4096.size inb_S32x4096_S32x4096_0_0

/-- The weight tile the body stores, from the four input blocks: its one store as the only piece. -/
def wtile (xq : Vec F S128x4096 .i32) (xs xu : Vec F S128x32 .f32) (xv : Vec F S32x4096 .f32) : Vec F S128x4096 .bf16 :=
  View.canon [⟨rTile, k0_pay1 (View.ld xq rTile) (View.ld xs rCols) (View.ld xu rCols) (View.ld xv rRight)⟩]

/-- The one store takes the whole buffer. -/
theorem wtile_cover (p0 : Vec F S128x4096 .bf16) (y : S128x4096.Idx) :
    ∃ pc ∈ ([⟨rTile, p0⟩] : List (View.Piece (Elt F) S128x4096 .bf16)), y ∈ pc.1.set :=
  View.cover_of_tiled [⟨rTile, p0⟩] S128x4096.size (by rfl) y

/-! ## The body's triple -/

set_option maxHeartbeats 2000000 in
/-- On whole staging buffers, the four inputs' at contents `xq xs xu xv` and the output's at anything, the body runs
    to its continuation with the inputs' as they were and the output's at the tile. -/
theorem dequant_triple (c : Dev nD) (E : Set ℕ) (i : grid0.Coords)
    (a1 : Memref sig .tc .vmem S128x4096 .i32) (h1 : a1.IsWhole) (a2 : Memref sig .tc .vmem S128x32 .f32) (h2 : a2.IsWhole)
    (a3 : Memref sig .tc .vmem S128x32 .f32) (h3 : a3.IsWhole) (a4 : Memref sig .tc .vmem S32x4096 .f32) (h4 : a4.IsWhole)
    (a5 : Memref sig .tc .vmem S128x4096 .bf16) (h5 : a5.IsWhole)
    (xq : Vec F S128x4096 .i32) (xs xu : Vec F S128x32 .f32) (xv : Vec F S32x4096 .f32) (K : PUnit → sProp 𝕄) :
    iprop(owns (c : Thread nD τ) a1 fullShare xq ∗ owns (c : Thread nD τ) a2 fullShare xs ∗ owns (c : Thread nD τ) a3 fullShare xu
        ∗ owns (c : Thread nD τ) a4 fullShare xv ∗ (∃ d, owns (c : Thread nD τ) a5 fullShare d)
        ∗ (iprop(owns (c : Thread nD τ) a1 fullShare xq ∗ owns (c : Thread nD τ) a2 fullShare xs ∗ owns (c : Thread nD τ) a3 fullShare xu
            ∗ owns (c : Thread nD τ) a4 fullShare xv ∗ owns (c : Thread nD τ) a5 fullShare (wtile xq xs xu xv)) -∗ K ⟨⟩))
      ⊢ wp frame (wpE (defs₀ (F := F)) Variants.none c none) E (cc0__dequant_kernel i a1 h1 a2 h2 a3 h3 a4 h4 a5 h5) K := by
  simp only [cc0__dequant_kernel_eq_skeleton]; unfold cc0__dequant_kernel_skel
  unfold owns
  iintro ⟨⟨%f1, %hf1, H1⟩, ⟨%f2, %hf2, H2⟩, ⟨%f3, %hf3, H3⟩, ⟨%f4, %hf4, H4⟩, ⟨%d5, %f5, -, H5⟩, Hk⟩
  subst hf1; subst hf2; subst hf3; subst hf4
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (wtile_cover _)

/-! ## The proof data -/

/-- Region 0's proof data on core `c`: the arrays as the region finds them; after the body at point `t` each
    input's buffer still at its block and the output's at the tile of the input blocks; the invariant only what the
    body never touches; nothing owed; full shares. -/
def dqDat (c : Dev nD) : Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => blk0 V c 2 t
    | ⟨3, _⟩ => blk0 V c 3 t
    | ⟨4, _⟩ => wtile (blk0 V c 0 t) (blk0 V c 1 t) (blk0 V c 2 t) (blk0 V c 3 t)
  Φ _ := Pipeline.ΦA spec0 c
  q _ := fullShare
  owed _ := 0

theorem dq_A (c : Dev nD) (w : Fin cfg0.W) : (dqDat V c).A w = V c (Pipeline.arrRef spec0 w) := by
  dsimp only [dqDat]

theorem dq_after0 (c : Dev nD) (t : Fin cfg0.N) : (dqDat V c).after 0 t = blk0 V c 0 t := by dsimp only [dqDat]
theorem dq_after1 (c : Dev nD) (t : Fin cfg0.N) : (dqDat V c).after 1 t = blk0 V c 1 t := by dsimp only [dqDat]
theorem dq_after2 (c : Dev nD) (t : Fin cfg0.N) : (dqDat V c).after 2 t = blk0 V c 2 t := by dsimp only [dqDat]
theorem dq_after3 (c : Dev nD) (t : Fin cfg0.N) : (dqDat V c).after 3 t = blk0 V c 3 t := by dsimp only [dqDat]
theorem dq_after4 (c : Dev nD) (t : Fin cfg0.N) :
    (dqDat V c).after 4 t = wtile (blk0 V c 0 t) (blk0 V c 1 t) (blk0 V c 2 t) (blk0 V c 3 t) := by dsimp only [dqDat]

theorem dq_held0 (c : Dev nD) (t : Fin cfg0.N) (d) : (dqDat V c).before 0 t d = blk0 V c 0 t :=
  held0_0_of V (dqDat V c) (dq_A V c 0) (dq_after0 V c) t d
theorem dq_held1 (c : Dev nD) (t : Fin cfg0.N) (d) : (dqDat V c).before 1 t d = blk0 V c 1 t :=
  held0_1_of V (dqDat V c) (dq_A V c 1) (dq_after1 V c) t d
theorem dq_held2 (c : Dev nD) (t : Fin cfg0.N) (d) : (dqDat V c).before 2 t d = blk0 V c 2 t :=
  held0_2_of V (dqDat V c) (dq_A V c 2) (dq_after2 V c) t d
theorem dq_held3 (c : Dev nD) (t : Fin cfg0.N) (d) : (dqDat V c).before 3 t d = blk0 V c 3 t :=
  held0_3_of V (dqDat V c) (dq_A V c 3) (dq_after3 V c) t d

/-! ## The body obligation -/

/-- What the body is called with at point `t`, the windows one by one, -/
def dqPre (c : Dev nD) (t : Fin cfg0.N) : sProp 𝕄 :=
  iprop((dqDat V c).Φ t.castSucc ∗ (dqDat V c).owesAt () t.castSucc
    ∗ (∃ d, owns (c : Thread nD τ) (st0_0 t) fullShare ((dqDat V c).before 0 t d))
    ∗ (∃ d, owns (c : Thread nD τ) (st0_1 t) fullShare ((dqDat V c).before 1 t d))
    ∗ (∃ d, owns (c : Thread nD τ) (st0_2 t) fullShare ((dqDat V c).before 2 t d))
    ∗ (∃ d, owns (c : Thread nD τ) (st0_3 t) fullShare ((dqDat V c).before 3 t d))
    ∗ (∃ d, owns (c : Thread nD τ) (st0_4 t) fullShare ((dqDat V c).before 4 t d)))

/-- and what it returns. -/
def dqPost (c : Dev nD) (t : Fin cfg0.N) : sProp 𝕄 :=
  iprop((dqDat V c).Φ t.succ ∗ (dqDat V c).owesAt () t.succ
    ∗ owns (c : Thread nD τ) (st0_0 t) fullShare ((dqDat V c).after 0 t)
    ∗ owns (c : Thread nD τ) (st0_1 t) fullShare ((dqDat V c).after 1 t)
    ∗ owns (c : Thread nD τ) (st0_2 t) fullShare ((dqDat V c).after 2 t)
    ∗ owns (c : Thread nD τ) (st0_3 t) fullShare ((dqDat V c).after 3 t)
    ∗ owns (c : Thread nD τ) (st0_4 t) fullShare ((dqDat V c).after 4 t))

theorem dq_body (c : Dev nD) (t : Fin cfg0.N) :
    dqPre V c t ⊢ wp frame (wpE (defs₀ (F := F)) Variants.none c none) Set.univ (bodyAt0 t) (fun _ => dqPost V c t) := by
  unfold dqPre dqPost bodyAt0
  simp only [dq_held0, dq_held1, dq_held2, dq_held3]
  rw [show (dqDat V c).Φ t.succ = (dqDat V c).Φ t.castSucc from rfl,
    show (dqDat V c).owesAt () t.succ = (dqDat V c).owesAt () t.castSucc from rfl,
    dq_after0, dq_after1, dq_after2, dq_after3, dq_after4]
  iintro ⟨HΦ, Ho, ⟨%d0, H0⟩, ⟨%d1, H1⟩, ⟨%d2, H2⟩, ⟨%d3, H3⟩, ⟨%d4, H4⟩⟩
  iapply (dequant_triple c Set.univ _ _ _ _ _ _ _ _ _ _ _ (blk0 V c 0 t) (blk0 V c 1 t) (blk0 V c 2 t) (blk0 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem dq_obligation (c : Dev nD) : BodyObligation (dqDat (F := F) V c) (defs₀ (F := F)) Variants.none () Set.univ := fun t => by
  rw [bigSep_W0, bigSep_W0]
  exact dq_body V c t

end Cert.KernelIdeal.Hand

end
-- ==== Proof.MatmulBody.lean ====
/-
  The matmul kernel (the second pallas_call) at one grid point, for any float instance.

  The grid is 8 × 4 × 4, the last axis the reduction's: point `t` (row block t / 16, column block t / 4 % 4,
  K block t % 4) multiplies a 1024 × 1024 block of the activations by a 1024 × 1024 block of the weight, both
  contracted along their second axis, into a 1024 × 1024 accumulator the kernel keeps in a scratch buffer from one
  point to the next: zeroed where t % 4 = 0, added to at every point, and where t % 4 = 3 stored, plus the bias
  row, into the output block — the only points at which the output's staging buffer is touched or written back.
  So the region's invariant names the accumulator's contents after each point, by recursion on the point.
-/
import proofs.«114712_j11579231830187_1_alg».proof.Proof.Gen.KernelIdeal.Launch
import proofs.«114712_j11579231830187_1_alg».proof.Proof.Gen.KernelIdeal.Skeleton
import proofs.«114712_j11579231830187_1_alg».proof.Proof.Gen.KernelIdeal.Points
import Idealize.ShloMosaic.Lib.Pipeline.Value
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Block `t` of window `w`'s array, the arrays being at `V` when the region is entered. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The three input blocks at a point, at their literal types: the activations', the weight's, the bias row's. -/
abbrev xblk (c : Dev nD) (t : Fin cfg1.N) : Vec F S1024x1024 .f32 := blk1 V c 0 t
abbrev wblk (c : Dev nD) (t : Fin cfg1.N) : Vec F S1024x1024 .bf16 := blk1 V c 1 t
abbrev bblk (c : Dev nD) (t : Fin cfg1.N) : Vec F S1x1024 .f32 := blk1 V c 2 t

/-- An input window's staging buffer holds its block whenever the body runs, fetched at that point or not (the bias
    row is fetched only where the column block changes). One statement per input window. -/
theorem held1_0_of {c : Dev nD} (dat : Dat τ (Elt F) Unit ℕ (UR sig nD τ) ℕ cfg1 c) (hA : dat.A 0 = V c (Pipeline.arrRef spec1 0))
    (hafter : ∀ t, dat.after 0 t = blk1 V c 0 t) (t : Fin cfg1.N) (d) : dat.before 0 t d = blk1 V c 0 t :=
  (dat.before_in_eq_fetched 0 rfl (fun _ => rfl) (fun _ _ _ => rfl) (fun t => by rw [hafter]; unfold Dat.blockOf blk1; rw [hA]; try rfl) t d).trans
    (by unfold Dat.fetched Dat.blockOf blk1; rw [hA]; try rfl)
theorem held1_1_of {c : Dev nD} (dat : Dat τ (Elt F) Unit ℕ (UR sig nD τ) ℕ cfg1 c) (hA : dat.A 1 = V c (Pipeline.arrRef spec1 1))
    (hafter : ∀ t, dat.after 1 t = blk1 V c 1 t) (t : Fin cfg1.N) (d) : dat.before 1 t d = blk1 V c 1 t :=
  (dat.before_in_eq_fetched 1 rfl (fun _ => rfl) (fun _ _ _ => rfl) (fun t => by rw [hafter]; unfold Dat.blockOf blk1; rw [hA]; try rfl) t d).trans
    (by unfold Dat.fetched Dat.blockOf blk1; rw [hA]; try rfl)
theorem held1_2_of {c : Dev nD} (dat : Dat τ (Elt F) Unit ℕ (UR sig nD τ) ℕ cfg1 c) (hA : dat.A 2 = V c (Pipeline.arrRef spec1 2))
    (hafter : ∀ t, dat.after 2 t = blk1 V c 2 t) (t : Fin cfg1.N) (d) : dat.before 2 t d = blk1 V c 2 t :=
  (dat.before_in_eq_fetched 2 rfl (fun _ => rfl) (fun _ _ _ => rfl) (fun t => by rw [hafter]; unfold Dat.blockOf blk1; rw [hA]; try rfl) t d).trans
    (by unfold Dat.fetched Dat.blockOf blk1; rw [hA]; try rfl)

/-! ## The body's accesses: every load and store takes a whole buffer -/

theorem zero_offsets : (![0, 0] : Fin 2 → Nat) = fun _ => 0 := by
  funext a; fin_cases a <;> rfl

abbrev rAcc : Rect S1024x1024 := Rect.unit (s := S1024x1024) ![0, 0] S1024x1024.size inb_S1024x1024_S1024x1024_0_0
abbrev rBias : Rect S1x1024 := Rect.unit (s := S1x1024) ![0, 0] S1x1024.size inb_S1x1024_S1x1024_0_0

/-! ## The branch conditions, decided over the grid -/

/-- The reduction starts at this point (the accumulator is zeroed): the last coordinate is 0. -/
abbrev isFirst (i : grid1.Coords) : Prop :=
  (Scalar.cmpi .ne (Scalar.extui (Scalar.cmpi .eq (BitVec.ofNat 32 (i 2).val) 0#32)) 0#32) = 1#1
/-- The reduction ends at this point (the output block is stored): the last coordinate is 3. -/
abbrev isLast (i : grid1.Coords) : Prop := k1_cond2 i = 1#1

theorem isFirst_iff : ∀ t : Fin cfg1.N, isFirst (grid1.coords t) ↔ t.val % 4 = 0 :=
  (by decide +kernel : ∀ t : Fin grid1.N, isFirst (grid1.coords t) ↔ t.val % 4 = 0)
theorem isLast_iff : ∀ t : Fin cfg1.N, isLast (grid1.coords t) ↔ t.val % 4 = 3 :=
  (by decide +kernel : ∀ t : Fin grid1.N, isLast (grid1.coords t) ↔ t.val % 4 = 3)

/-- The inputs are never idle; the output is idle, and not written back, exactly where the reduction does not end. -/
theorem in_live0 : ∀ t : Fin cfg1.N, cfg1.idle 0 (grid1.coords t) = false := by decide +kernel
theorem in_live1 : ∀ t : Fin cfg1.N, cfg1.idle 1 (grid1.coords t) = false := by decide +kernel
theorem in_live2 : ∀ t : Fin cfg1.N, cfg1.idle 2 (grid1.coords t) = false := by decide +kernel
theorem out_idle : ∀ t : Fin cfg1.N, ¬isLast (grid1.coords t) → cfg1.idle 3 (grid1.coords t) = true := by decide +kernel
theorem out_kept : ∀ t : Fin cfg1.N, ¬isLast (grid1.coords t) → (cfg1.win 3).flush t = false := by decide +kernel
theorem out_live : ∀ t : Fin cfg1.N, isLast (grid1.coords t) → cfg1.idle 3 (grid1.coords t) = false := by decide +kernel

/-! ## The body's triples, one per way through its two conditionals -/

section Triples

variable (c : Dev nD) (E : Set ℕ) (i : grid1.Coords)
  (a3 : Memref sig .tc .vmem S1024x1024 .f32) (h3 : a3.IsWhole) (a4 : Memref sig .tc .vmem S1024x1024 .bf16) (h4 : a4.IsWhole)
  (a5 : Memref sig .tc .vmem S1x1024 .f32) (h5 : a5.IsWhole) (a6 : Memref sig .tc .vmem S1024x1024 .f32) (h6 : a6.IsWhole)
  (a7 : Memref sig .tc .vmem S1024x1024 .f32) (h7 : a7.IsWhole)

set_option maxHeartbeats 4000000 in
/-- Where the reduction starts and does not end: the accumulator, whatever it held, is left at the first product
    added to zero. The bias row's and the output's buffers are not touched. -/
theorem triple_first (hc1 : isFirst i) (hc2 : ¬isLast i)
    (x : Vec F S1024x1024 .f32) (w : Vec F S1024x1024 .bf16) (K : PUnit → sProp 𝕄) :
    iprop(owns (c : Thread nD τ) a3 fullShare x ∗ owns (c : Thread nD τ) a4 fullShare w ∗ (∃ d, owns (c : Thread nD τ) a7 fullShare d)
        ∗ (iprop(owns (c : Thread nD τ) a3 fullShare x ∗ owns (c : Thread nD τ) a4 fullShare w
            ∗ owns (c : Thread nD τ) a7 fullShare (k1_pay2 x w (k1_pay1 (F := F)))) -∗ K ⟨⟩))
      ⊢ wp frame (wpE (defs₀ (F := F)) Variants.none c none) E (cc1__matmul_kernel i a3 h3 a4 h4 a5 h5 a6 h6 a7 h7) K := by
  simp only [cc1__matmul_kernel_eq_skeleton]; unfold cc1__matmul_kernel_skel
  unfold owns
  iintro ⟨⟨%f3, %hf3, H3⟩, ⟨%f4, %hf4, H4⟩, ⟨%d7, %f7, -, H7⟩, Hk⟩
  subst hf3; subst hf4
  sl_exec (disch := first | exact hc1 | exact hc2)
  sl_step
  iapply Hk
  isplitl [H3]
  · iexists f3; isplitr; · ipureintro; rfl
    iexact H3
  isplitl [H4]
  · iexists f4; isplitr; · ipureintro; rfl
    iexact H4
  iexists _; isplitr
  swap; · iexact H7
  ipureintro
  sl_unfold_run_names
  rw [View.read_writes_eq_canon _ _ _ (fun y => ⟨_, List.mem_cons_self, View.mem_set_unit_zero zero_offsets inb_S1024x1024_S1024x1024_0_0 y⟩)]
  rw [View.canon_cons_unit_zero (S := S1024x1024) zero_offsets]
  simp only [View.readAt_eq_ld, View.ld_unit_zero (S := S1024x1024) zero_offsets, View.readCov_unit_zero (S := S1024x1024) _ zero_offsets]

set_option maxHeartbeats 4000000 in
/-- Where the reduction neither starts nor ends: the accumulator at `s` is left at `s` plus this point's product. -/
theorem triple_next (hc1 : ¬isFirst i) (hc2 : ¬isLast i)
    (x : Vec F S1024x1024 .f32) (w : Vec F S1024x1024 .bf16) (s : Vec F S1024x1024 .f32) (K : PUnit → sProp 𝕄) :
    iprop(owns (c : Thread nD τ) a3 fullShare x ∗ owns (c : Thread nD τ) a4 fullShare w ∗ owns (c : Thread nD τ) a7 fullShare s
        ∗ (iprop(owns (c : Thread nD τ) a3 fullShare x ∗ owns (c : Thread nD τ) a4 fullShare w
            ∗ owns (c : Thread nD τ) a7 fullShare (k1_pay2 x w s)) -∗ K ⟨⟩))
      ⊢ wp frame (wpE (defs₀ (F := F)) Variants.none c none) E (cc1__matmul_kernel i a3 h3 a4 h4 a5 h5 a6 h6 a7 h7) K := by
  simp only [cc1__matmul_kernel_eq_skeleton]; unfold cc1__matmul_kernel_skel
  unfold owns
  iintro ⟨⟨%f3, %hf3, H3⟩, ⟨%f4, %hf4, H4⟩, ⟨%f7, %hf7, H7⟩, Hk⟩
  subst hf3; subst hf4; subst hf7
  sl_exec (disch := first | exact hc1 | exact hc2)
  sl_step
  iapply Hk
  isplitl [H3]
  · iexists f3; isplitr; · ipureintro; rfl
    iexact H3
  isplitl [H4]
  · iexists f4; isplitr; · ipureintro; rfl
    iexact H4
  iexists _; isplitr
  swap; · iexact H7
  ipureintro
  sl_unfold_run_names
  rw [View.read_writes_eq_canon _ _ _ (fun y => ⟨_, List.mem_cons_self, View.mem_set_unit_zero zero_offsets inb_S1024x1024_S1024x1024_0_0 y⟩)]
  rw [View.canon_cons_unit_zero (S := S1024x1024) zero_offsets]
  simp only [View.readAt_eq_ld, View.ld_unit_zero (S := S1024x1024) zero_offsets]

set_option maxHeartbeats 4000000 in
/-- Where the reduction ends (it does not start there): the accumulator at `s` is left at `s` plus this point's
    product, and the output's buffer, whatever it held, at that sum plus the bias row. -/
theorem triple_last (hc1 : ¬isFirst i) (hc2 : isLast i)
    (x : Vec F S1024x1024 .f32) (w : Vec F S1024x1024 .bf16) (b : Vec F S1x1024 .f32) (s : Vec F S1024x1024 .f32) (K : PUnit → sProp 𝕄) :
    iprop(owns (c : Thread nD τ) a3 fullShare x ∗ owns (c : Thread nD τ) a4 fullShare w ∗ owns (c : Thread nD τ) a5 fullShare b
        ∗ (∃ d, owns (c : Thread nD τ) a6 fullShare d) ∗ owns (c : Thread nD τ) a7 fullShare s
        ∗ (iprop(owns (c : Thread nD τ) a3 fullShare x ∗ owns (c : Thread nD τ) a4 fullShare w ∗ owns (c : Thread nD τ) a5 fullShare b
            ∗ owns (c : Thread nD τ) a6 fullShare (k1_pay3 b (k1_pay2 x w s))
            ∗ owns (c : Thread nD τ) a7 fullShare (k1_pay2 x w s)) -∗ K ⟨⟩))
      ⊢ wp frame (wpE (defs₀ (F := F)) Variants.none c none) E (cc1__matmul_kernel i a3 h3 a4 h4 a5 h5 a6 h6 a7 h7) K := by
  simp only [cc1__matmul_kernel_eq_skeleton]; unfold cc1__matmul_kernel_skel
  unfold owns
  iintro ⟨⟨%f3, %hf3, H3⟩, ⟨%f4, %hf4, H4⟩, ⟨%f5, %hf5, H5⟩, ⟨%d6, %f6, -, H6⟩, ⟨%f7, %hf7, H7⟩, Hk⟩
  subst hf3; subst hf4; subst hf5; subst hf7
  sl_exec (disch := first | exact hc1 | exact hc2)
  sl_step
  iapply Hk
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    sl_unfold_run_names
    rw [View.read_writes_eq_canon _ _ _ (fun y => ⟨_, List.mem_cons_self, View.mem_set_unit_zero zero_offsets inb_S1024x1024_S1024x1024_0_0 y⟩)]
    rw [View.canon_cons_unit_zero (S := S1024x1024) zero_offsets]
    simp only [View.readAt_eq_ld, View.ld_unit_zero (S := S1024x1024) zero_offsets, View.ld_unit_zero (S := S1x1024) zero_offsets,
      View.readCov_unit_zero (S := S1024x1024) _ zero_offsets]
  iexists _; isplitr
  swap; · iexact H7
  ipureintro
  sl_unfold_run_names
  rw [View.read_writes_eq_canon _ _ _ (fun y => ⟨_, List.mem_cons_self, View.mem_set_unit_zero zero_offsets inb_S1024x1024_S1024x1024_0_0 y⟩)]
  rw [View.canon_cons_unit_zero (S := S1024x1024) zero_offsets]
  simp only [View.readAt_eq_ld, View.ld_unit_zero (S := S1024x1024) zero_offsets]

end Triples

/-! ## The accumulator after each point -/

/-- The scratch accumulator's contents after the body at position `n`: where the reduction starts, this point's
    product added to zero; elsewhere, this point's product added to what position `n − 1` left. -/
def accAt (c : Dev nD) : (n : ℕ) → n < cfg1.N → Vec F S1024x1024 .f32
  | 0, hn => k1_pay2 (xblk V c ⟨0, hn⟩) (wblk V c ⟨0, hn⟩) (k1_pay1 (F := F))
  | n + 1, hn =>
    if (n + 1) % 4 = 0 then k1_pay2 (xblk V c ⟨n + 1, hn⟩) (wblk V c ⟨n + 1, hn⟩) (k1_pay1 (F := F))
    else k1_pay2 (xblk V c ⟨n + 1, hn⟩) (wblk V c ⟨n + 1, hn⟩) (accAt c n (Nat.lt_of_succ_lt hn))

theorem accAt_first (c : Dev nD) (t : Fin cfg1.N) (h : t.val % 4 = 0) :
    accAt V c t.val t.isLt = k1_pay2 (xblk V c t) (wblk V c t) (k1_pay1 (F := F)) := by
  obtain ⟨n, hn⟩ := t
  cases n with
  | zero => rfl
  | succ n => exact (if_pos h).trans rfl

theorem accAt_next (c : Dev nD) (t : Fin cfg1.N) (h : ¬t.val % 4 = 0) :
    accAt V c t.val t.isLt
      = k1_pay2 (xblk V c t) (wblk V c t) (accAt V c (t.val - 1) (Nat.lt_of_le_of_lt (Nat.sub_le _ _) t.isLt)) := by
  obtain ⟨n, hn⟩ := t
  cases n with
  | zero => exact absurd (Nat.zero_mod _) h
  | succ n => exact (if_neg h).trans rfl

/-- The output block the body stores where the reduction ends: the accumulator plus the bias row. (At the other
    points the output's buffer is idle and this is never consulted.) -/
def outAt (c : Dev nD) (t : Fin cfg1.N) : Vec F S1024x1024 .f32 := k1_pay3 (bblk V c t) (accAt V c t.val t.isLt)

/-! ## The region invariant -/

/-- The scratch operand: a whole scoped buffer of the kernel's own. -/
abbrev scM : Memref sig .tc .vmem S1024x1024 .f32 := Memref.whole cc1_scratch0

/-- The core's scoped buffers the region never touches (the first pallas_call's staging buffers), each at some
    contents, beside an assertion `S` about the scratch. -/
def idleWith (c : Dev nD) (S : sProp 𝕄) : sProp 𝕄 :=
  iprop((∃ f : Buf (Elt F) ((c : Thread nD τ).loc cc0_stg0_0), ((c : Thread nD τ).loc cc0_stg0_0) ↦{fullShare} f)
      ∗ (∃ f : Buf (Elt F) ((c : Thread nD τ).loc cc0_stg0_1), ((c : Thread nD τ).loc cc0_stg0_1) ↦{fullShare} f)
      ∗ (∃ f : Buf (Elt F) ((c : Thread nD τ).loc cc0_stg1_0), ((c : Thread nD τ).loc cc0_stg1_0) ↦{fullShare} f)
      ∗ (∃ f : Buf (Elt F) ((c : Thread nD τ).loc cc0_stg1_1), ((c : Thread nD τ).loc cc0_stg1_1) ↦{fullShare} f)
      ∗ (∃ f : Buf (Elt F) ((c : Thread nD τ).loc cc0_stg2_0), ((c : Thread nD τ).loc cc0_stg2_0) ↦{fullShare} f)
      ∗ (∃ f : Buf (Elt F) ((c : Thread nD τ).loc cc0_stg2_1), ((c : Thread nD τ).loc cc0_stg2_1) ↦{fullShare} f)
      ∗ (∃ f : Buf (Elt F) ((c : Thread nD τ).loc cc0_stg3_0), ((c : Thread nD τ).loc cc0_stg3_0) ↦{fullShare} f)
      ∗ (∃ f : Buf (Elt F) ((c : Thread nD τ).loc cc0_stg4_0), ((c : Thread nD τ).loc cc0_stg4_0) ↦{fullShare} f)
      ∗ (∃ f : Buf (Elt F) ((c : Thread nD τ).loc cc0_stg4_1), ((c : Thread nD τ).loc cc0_stg4_1) ↦{fullShare} f)
      ∗ S)

/-- The scratch is taken out of the idle buffers' company and anything put back in its place. -/
theorem idleWith_swap (c : Dev nD) (S S' : sProp 𝕄) : idleWith c S ⊢ iprop(S ∗ (S' -∗ idleWith c S')) := by
  unfold idleWith
  iintro ⟨I1, I2, I3, I4, I5, I6, I7, I8, I9, HS⟩
  isplitl [HS]; · iexact HS
  iintro HS'
  isplitl [I1]; · iexact I1
  isplitl [I2]; · iexact I2
  isplitl [I3]; · iexact I3
  isplitl [I4]; · iexact I4
  isplitl [I5]; · iexact I5
  isplitl [I6]; · iexact I6
  isplitl [I7]; · iexact I7
  isplitl [I8]; · iexact I8
  isplitl [I9]; · iexact I9
  iexact HS'

/-- The scratch's named contents may be forgotten. -/
theorem idleWith_forget (c : Dev nD) (X : Vec F S1024x1024 .f32) :
    idleWith c (owns (c : Thread nD τ) scM fullShare X) ⊢ idleWith c iprop(∃ d, owns (c : Thread nD τ) scM fullShare d) := by
  have h := idleWith_swap (F := F) c (owns (c : Thread nD τ) scM fullShare X) iprop(∃ d, owns (c : Thread nD τ) scM fullShare d)
  refine h.trans ?_
  iintro ⟨HS, Hback⟩
  iapply Hback; iexists _; iexact HS

/-- The class's invariant (every scoped buffer that is no staging buffer of this region at some contents, the
    generator register at some state) with the scratch singled out. -/
theorem PhiA1_eq (c : Dev nD) :
    (Pipeline.ΦA spec1 c : sProp 𝕄) = iprop(idleWith c iprop(∃ d, owns (c : Thread nD τ) scM fullShare d) ∗ (∃ r, prngReg c r)) := by
  unfold Pipeline.ΦA idleWith; rw [scopedRest1_eq]; simp only [scM, owns_whole]; try rfl

/-- The region invariant before position `n`: before the first point the class's; afterwards the same with the
    accumulator at what the point before left. -/
def PhiAcc (c : Dev nD) : (n : ℕ) → n ≤ cfg1.N → sProp 𝕄
  | 0, _ => Pipeline.ΦA spec1 c
  | n + 1, hn => iprop(idleWith c (owns (c : Thread nD τ) scM fullShare (accAt V c n hn)) ∗ (∃ r, prngReg c r))

theorem PhiAcc_zero (c : Dev nD) (n : ℕ) (h : n ≤ cfg1.N) (hz : n = 0) : PhiAcc V c n h = Pipeline.ΦA spec1 c := by
  subst hz; rfl

theorem PhiAcc_succ (c : Dev nD) (n : ℕ) (hn : n < cfg1.N) :
    PhiAcc V c (n + 1) hn = iprop(idleWith c (owns (c : Thread nD τ) scM fullShare (accAt V c n hn)) ∗ (∃ r, prngReg c r)) := rfl

theorem PhiAcc_pos (c : Dev nD) (n : ℕ) (h : n ≤ cfg1.N) (hz : n ≠ 0) :
    PhiAcc V c n h = iprop(idleWith c (owns (c : Thread nD τ) scM fullShare (accAt V c (n - 1) (by omega))) ∗ (∃ r, prngReg c r)) := by
  cases n with
  | zero => exact absurd rfl hz
  | succ n => rfl

/-! ## The proof data -/

/-- Region 1's proof data on core `c`: the arrays as the region finds them; after the body at point `t` each
    input's buffer still at its block and the output's at the accumulator plus the bias row; the invariant the
    accumulator's contents; nothing owed; full shares. -/
def mmDat (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => blk1 V c 2 t
    | ⟨3, _⟩ => outAt V c t
  Φ t := PhiAcc V c t.val (Nat.le_of_lt_succ t.isLt)
  q _ := fullShare
  owed _ := 0

theorem mm_A (c : Dev nD) (w : Fin cfg1.W) : (mmDat V c).A w = V c (Pipeline.arrRef spec1 w) := by
  dsimp only [mmDat]

theorem mm_Phi_castSucc (c : Dev nD) (t : Fin cfg1.N) :
    (mmDat V c).Φ t.castSucc = PhiAcc V c t.val (Nat.le_of_lt t.isLt) := by
  dsimp only [mmDat]; simp only [Fin.coe_castSucc]

theorem mm_after0 (c : Dev nD) (t : Fin cfg1.N) : (mmDat V c).after 0 t = blk1 V c 0 t := by dsimp only [mmDat]
theorem mm_after1 (c : Dev nD) (t : Fin cfg1.N) : (mmDat V c).after 1 t = blk1 V c 1 t := by dsimp only [mmDat]
theorem mm_after2 (c : Dev nD) (t : Fin cfg1.N) : (mmDat V c).after 2 t = blk1 V c 2 t := by dsimp only [mmDat]
theorem mm_after3 (c : Dev nD) (t : Fin cfg1.N) : (mmDat V c).after 3 t = outAt V c t := by dsimp only [mmDat]

theorem mm_held0 (c : Dev nD) (t : Fin cfg1.N) (d) : (mmDat V c).before 0 t d = blk1 V c 0 t :=
  held1_0_of V (mmDat V c) (mm_A V c 0) (mm_after0 V c) t d
theorem mm_held1 (c : Dev nD) (t : Fin cfg1.N) (d) : (mmDat V c).before 1 t d = blk1 V c 1 t :=
  held1_1_of V (mmDat V c) (mm_A V c 1) (mm_after1 V c) t d
theorem mm_held2 (c : Dev nD) (t : Fin cfg1.N) (d) : (mmDat V c).before 2 t d = blk1 V c 2 t :=
  held1_2_of V (mmDat V c) (mm_A V c 2) (mm_after2 V c) t d

/-! ## The body obligation -/

/-- What the body is called with at point `t`, the windows one by one, -/
def mmPre (c : Dev nD) (t : Fin cfg1.N) : sProp 𝕄 :=
  iprop((mmDat V c).Φ t.castSucc ∗ (mmDat V c).owesAt () t.castSucc
    ∗ (∃ d, owns (c : Thread nD τ) (st1_0 t) fullShare ((mmDat V c).before 0 t d))
    ∗ (∃ d, owns (c : Thread nD τ) (st1_1 t) fullShare ((mmDat V c).before 1 t d))
    ∗ (∃ d, owns (c : Thread nD τ) (st1_2 t) fullShare ((mmDat V c).before 2 t d))
    ∗ (∃ d, owns (c : Thread nD τ) (st1_3 t) fullShare ((mmDat V c).before 3 t d)))

/-- and what it returns. -/
def mmPost (c : Dev nD) (t : Fin cfg1.N) : sProp 𝕄 :=
  iprop((mmDat V c).Φ t.succ ∗ (mmDat V c).owesAt () t.succ
    ∗ (mmDat V c).leavesExact 0 t
    ∗ (mmDat V c).leavesExact 1 t
    ∗ (mmDat V c).leavesExact 2 t
    ∗ (mmDat V c).leavesExact 3 t)

theorem mm_leaves0 (c : Dev nD) (t : Fin cfg1.N) :
    (mmDat V c).leavesExact 0 t = owns (c : Thread nD τ) (st1_0 t) fullShare (blk1 V c 0 t) := by
  unfold Dat.leavesExact; rw [in_live0 t, mm_after0]
theorem mm_leaves1 (c : Dev nD) (t : Fin cfg1.N) :
    (mmDat V c).leavesExact 1 t = owns (c : Thread nD τ) (st1_1 t) fullShare (blk1 V c 1 t) := by
  unfold Dat.leavesExact; rw [in_live1 t, mm_after1]
theorem mm_leaves2 (c : Dev nD) (t : Fin cfg1.N) :
    (mmDat V c).leavesExact 2 t = owns (c : Thread nD τ) (st1_2 t) fullShare (blk1 V c 2 t) := by
  unfold Dat.leavesExact; rw [in_live2 t, mm_after2]
theorem mm_leaves3_last (c : Dev nD) (t : Fin cfg1.N) (h : isLast (grid1.coords t)) :
    (mmDat V c).leavesExact 3 t = owns (c : Thread nD τ) (st1_3 t) fullShare (outAt V c t) := by
  unfold Dat.leavesExact; rw [out_live t h, mm_after3]

set_option maxHeartbeats 4000000 in
theorem mm_body (c : Dev nD) (t : Fin cfg1.N) :
    mmPre V c t ⊢ wp frame (wpE (defs₀ (F := F)) Variants.none c none) Set.univ (bodyAt1 t) (fun _ => mmPost V c t) := by
  unfold mmPre mmPost bodyAt1
  simp only [mm_held0, mm_held1, mm_held2]
  rw [show (mmDat V c).owesAt () t.succ = (mmDat V c).owesAt () t.castSucc from rfl]
  rw [show (mmDat V c).Φ t.succ = PhiAcc V c (t.val + 1) t.isLt from rfl, PhiAcc_succ]
  rw [mm_leaves0, mm_leaves1, mm_leaves2, mm_Phi_castSucc]
  have hN : t.val < 128 := lt_of_lt_of_eq t.isLt (show cfg1.N = 128 from N_1)
  by_cases hl : t.val % 4 = 3
  · -- the reduction ends here
    have hf : ¬t.val % 4 = 0 := by omega
    have hz : t.val ≠ 0 := by omega
    rw [mm_leaves3_last V c t ((isLast_iff t).mpr hl), PhiAcc_pos V c _ _ hz]
    unfold outAt
    rw [accAt_next V c t hf]
    iintro ⟨⟨HI, Hg⟩, Ho, ⟨%d0, H0⟩, ⟨%d1, H1⟩, ⟨%d2, H2⟩, ⟨%d3, H3⟩⟩
    ihave HI' := (idleWith_swap c _ (owns (c : Thread nD τ) scM fullShare
      (k1_pay2 (xblk V c t) (wblk V c t) (accAt V c (t.val - 1) (Nat.lt_of_le_of_lt (Nat.sub_le _ _) t.isLt))))) $$ HI
    icases HI' with ⟨HS, Hback⟩
    iapply (triple_last c Set.univ (grid1.coords t) _ _ _ _ _ _ _ _ _ _ (fun h => hf ((isFirst_iff t).mp h)) ((isLast_iff t).mpr hl)
      (xblk V c t) (wblk V c t) (bblk V c t) (accAt V c (t.val - 1) (Nat.lt_of_le_of_lt (Nat.sub_le _ _) t.isLt)) _)
    isplitl [H0]; · iexact H0
    isplitl [H1]; · iexact H1
    isplitl [H2]; · iexact H2
    isplitl [H3]; · iexists _; iexact H3
    isplitl [HS]; · iexact HS
    iintro ⟨H0, H1, H2, H3, HS⟩
    isplitl [HS Hback Hg]
    · isplitl [HS Hback]
      · iapply Hback; iexact HS
      iexact Hg
    isplitl [Ho]; · iexact Ho
    isplitl [H0]; · iexact H0
    isplitl [H1]; · iexact H1
    isplitl [H2]; · iexact H2
    iexact H3
  · -- the output's buffer is idle here and handed back as found
    have hnl : ¬isLast (grid1.coords t) := fun h => hl ((isLast_iff t).mp h)
    rw [Dat.leavesExact_idle (mmDat V c) 3 t (out_idle t hnl) (out_kept t hnl)]
    by_cases hf : t.val % 4 = 0
    · -- the reduction starts here
      rw [accAt_first V c t hf]
      by_cases hz : t.val = 0
      · rw [PhiAcc_zero V c _ _ hz, PhiA1_eq]
        iintro ⟨⟨HI, Hg⟩, Ho, ⟨%d0, H0⟩, ⟨%d1, H1⟩, ⟨%d2, H2⟩, ⟨%d3, H3⟩⟩
        ihave HI' := (idleWith_swap c _ (owns (c : Thread nD τ) scM fullShare
          (k1_pay2 (xblk V c t) (wblk V c t) (k1_pay1 (F := F))))) $$ HI
        icases HI' with ⟨HS, Hback⟩
        iapply (triple_first c Set.univ (grid1.coords t) _ _ _ _ _ _ _ _ _ _ ((isFirst_iff t).mpr hf) hnl
          (xblk V c t) (wblk V c t) _)
        isplitl [H0]; · iexact H0
        isplitl [H1]; · iexact H1
        isplitl [HS]; · iexact HS
        iintro ⟨H0, H1, HS⟩
        isplitl [HS Hback Hg]
        · isplitl [HS Hback]
          · iapply Hback; iexact HS
          iexact Hg
        isplitl [Ho]; · iexact Ho
        isplitl [H0]; · iexact H0
        isplitl [H1]; · iexact H1
        isplitl [H2]; · iexact H2
        iexists _; iexact H3
      · rw [PhiAcc_pos V c _ _ hz]
        iintro ⟨⟨HI, Hg⟩, Ho, ⟨%d0, H0⟩, ⟨%d1, H1⟩, ⟨%d2, H2⟩, ⟨%d3, H3⟩⟩
        ihave HI' := (idleWith_swap c _ (owns (c : Thread nD τ) scM fullShare
          (k1_pay2 (xblk V c t) (wblk V c t) (k1_pay1 (F := F))))) $$ HI
        icases HI' with ⟨HS, Hback⟩
        iapply (triple_first c Set.univ (grid1.coords t) _ _ _ _ _ _ _ _ _ _ ((isFirst_iff t).mpr hf) hnl
          (xblk V c t) (wblk V c t) _)
        isplitl [H0]; · iexact H0
        isplitl [H1]; · iexact H1
        isplitl [HS]; · iexists _; iexact HS
        iintro ⟨H0, H1, HS⟩
        isplitl [HS Hback Hg]
        · isplitl [HS Hback]
          · iapply Hback; iexact HS
          iexact Hg
        isplitl [Ho]; · iexact Ho
        isplitl [H0]; · iexact H0
        isplitl [H1]; · iexact H1
        isplitl [H2]; · iexact H2
        iexists _; iexact H3
    · -- the reduction goes on
      have hz : t.val ≠ 0 := fun h => hf (by rw [h])
      rw [accAt_next V c t hf, PhiAcc_pos V c _ _ hz]
      iintro ⟨⟨HI, Hg⟩, Ho, ⟨%d0, H0⟩, ⟨%d1, H1⟩, ⟨%d2, H2⟩, ⟨%d3, H3⟩⟩
      ihave HI' := (idleWith_swap c _ (owns (c : Thread nD τ) scM fullShare
        (k1_pay2 (xblk V c t) (wblk V c t) (accAt V c (t.val - 1) (Nat.lt_of_le_of_lt (Nat.sub_le _ _) t.isLt))))) $$ HI
      icases HI' with ⟨HS, Hback⟩
      iapply (triple_next c Set.univ (grid1.coords t) _ _ _ _ _ _ _ _ _ _ (fun h => hf ((isFirst_iff t).mp h)) hnl
        (xblk V c t) (wblk V c t) (accAt V c (t.val - 1) (Nat.lt_of_le_of_lt (Nat.sub_le _ _) t.isLt)) _)
      isplitl [H0]; · iexact H0
      isplitl [H1]; · iexact H1
      isplitl [HS]; · iexact HS
      iintro ⟨H0, H1, HS⟩
      isplitl [HS Hback Hg]
      · isplitl [HS Hback]
        · iapply Hback; iexact HS
        iexact Hg
      isplitl [Ho]; · iexact Ho
      isplitl [H0]; · iexact H0
      isplitl [H1]; · iexact H1
      isplitl [H2]; · iexact H2
      iexists _; iexact H3

/-- The library's body obligation, at every point. -/
theorem mm_obligation (c : Dev nD) : BodyObligation (mmDat (F := F) V c) (defs₀ (F := F)) Variants.none () Set.univ := fun t => by
  rw [bigSep_W1, bigSep_W1]
  exact mm_body V c t

/-! ## The invariant's two ends -/

/-- What the launch hands the region is the invariant before the first point. -/
theorem mm_in (c : Dev nD) : Pipeline.ΦA spec1 c ⊢ (mmDat V c).Φ 0 := by
  rw [show (mmDat V c).Φ 0 = PhiAcc V c 0 (Nat.zero_le _) from rfl, PhiAcc_zero V c 0 _ rfl]
  try exact Idealize.SL.BI.Entails.refl _

/-- After the last point the invariant gives the class's back: the accumulator's named contents are forgotten. -/
theorem mm_out (c : Dev nD) : (mmDat V c).Φ (Fin.last cfg1.N) ⊢ Pipeline.ΦA spec1 c := by
  have hN : cfg1.N = 128 := N_1
  rw [show (mmDat V c).Φ (Fin.last cfg1.N) = PhiAcc V c (Fin.last cfg1.N).val (Nat.le_of_lt_succ (Fin.last cfg1.N).isLt) from rfl,
    PhiAcc_pos V c _ _ (by rw [Fin.val_last]; omega), PhiA1_eq]
  iintro ⟨HI, Hg⟩
  isplitl [HI]
  · iapply (idleWith_forget c _); iexact HI
  iexact Hg

end Cert.KernelIdeal.Hand

end
-- ==== Proof.Run.lean ====
/-
  The whole program's run, for any float instance: @main is the dequantization region, two host reshapes (the
  activations to 8192 × 4096, the bias to 1 × 4096), the matmul region, and one host reshape of the result back to
  4 × 2048 × 4096. Between two of these items every unscoped buffer of the core is held at contents named here, a
  fold from the launch memory: a host stretch applies its operations; a region leaves its arrays at what its
  write-backs fold to and every other buffer as it found it. The launch composes the four items; the last
  contents are read off the final state, which gives at once that the arguments end as launched and what the
  result buffer holds.
-/
import proofs.«114712_j11579231830187_1_alg».proof.Proof.Gen.KernelIdeal.Launch
import proofs.«114712_j11579231830187_1_alg».proof.Proof.Gen.KernelIdeal.Skeleton
import proofs.«114712_j11579231830187_1_alg».proof.Proof.Gen.KernelIdeal.Points
import proofs.«114712_j11579231830187_1_alg».proof.Proof.DequantBody
import proofs.«114712_j11579231830187_1_alg».proof.Proof.MatmulBody
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary of @main -/

/-- Core `c`'s buffers at launch (the first region's entry). -/
abbrev B0 : Dev nD → Valuation τ sig (Elt F) := fun c b => m (c, b)
/-- The same read at the TensorCore's references: what the first region's proof data take. -/
abbrev E0 : (c : Dev nD) → (b : Ref sig .tc) → Buf (Elt F) ((c : Thread nD τ).loc b) := fun c b => B0 m c b
/-- At the first region's exit: its arrays at what the pipeline leaves, every other buffer as entered. -/
def B1 (c : Dev nD) : Valuation τ sig (Elt F) :=
  Pipeline.withArrays spec0 c (B0 m c) fun w => (dqDat (E0 m) c).arrAt w cfg0.N
theorem B1_arr (c : Dev nD) (w : Fin cfg0.W) :
    B1 m c (Proc.devRef .tc (Pipeline.arrRef spec0 w)) = (dqDat (E0 m) c).arrAt w cfg0.N := by
  unfold B1; exact Pipeline.withArrays_arr spec0 launch0.win.arr_inj c _ _ w
theorem B1_of_ne (c : Dev nD) (b : Ref sig .tc) (hb : ∀ w, Pipeline.arrRef spec0 w ≠ b) :
    B1 m c (Proc.devRef .tc b) = B0 m c (Proc.devRef .tc b) := by
  unfold B1; exact Pipeline.withArrays_of_ne spec0 c _ _ b hb
abbrev E1 : (c : Dev nD) → (b : Ref sig .tc) → Buf (Elt F) ((c : Thread nD τ).loc b) := fun c b => B1 m c b
theorem exit0_arr (c : Dev nD) (w : Fin cfg0.W) : (dqDat (E0 m) c).arrAt w cfg0.N = E1 m c (Pipeline.arrRef spec0 w) :=
  (B1_arr m c w).symm
theorem exit0_rest (c : Dev nD) : ∀ b, b ∉ Finset.univ.image (Pipeline.arrRef spec0) → E1 m c b = E0 m c b :=
  fun b hb => B1_of_ne m c b fun w e => hb (Finset.mem_image.mpr ⟨w, Finset.mem_univ _, e⟩)

/-- After the two reshapes (the second region's entry). -/
abbrev B2 : Dev nD → Valuation τ sig (Elt F) := fun c => StableHlo.after hostOps1 (B1 m c)
abbrev E2 : (c : Dev nD) → (b : Ref sig .tc) → Buf (Elt F) ((c : Thread nD τ).loc b) := fun c b => B2 m c b
/-- At the second region's exit. -/
def B3 (c : Dev nD) : Valuation τ sig (Elt F) :=
  Pipeline.withArrays spec1 c (B2 m c) fun w => (mmDat (E2 m) c).arrAt w cfg1.N
theorem B3_arr (c : Dev nD) (w : Fin cfg1.W) :
    B3 m c (Proc.devRef .tc (Pipeline.arrRef spec1 w)) = (mmDat (E2 m) c).arrAt w cfg1.N := by
  unfold B3; exact Pipeline.withArrays_arr spec1 launch1.win.arr_inj c _ _ w
theorem B3_of_ne (c : Dev nD) (b : Ref sig .tc) (hb : ∀ w, Pipeline.arrRef spec1 w ≠ b) :
    B3 m c (Proc.devRef .tc b) = B2 m c (Proc.devRef .tc b) := by
  unfold B3; exact Pipeline.withArrays_of_ne spec1 c _ _ b hb
abbrev E3 : (c : Dev nD) → (b : Ref sig .tc) → Buf (Elt F) ((c : Thread nD τ).loc b) := fun c b => B3 m c b
theorem exit1_arr (c : Dev nD) (w : Fin cfg1.W) : (mmDat (E2 m) c).arrAt w cfg1.N = E3 m c (Pipeline.arrRef spec1 w) :=
  (B3_arr m c w).symm
theorem exit1_rest (c : Dev nD) : ∀ b, b ∉ Finset.univ.image (Pipeline.arrRef spec1) → E3 m c b = E2 m c b :=
  fun b hb => B3_of_ne m c b fun w e => hb (Finset.mem_image.mpr ⟨w, Finset.mem_univ _, e⟩)

/-- After the last reshape: the contents @main returns with. -/
abbrev B4 : Dev nD → Valuation τ sig (Elt F) := fun c => StableHlo.after hostOps2 (B3 m c)

/-! ## The arguments end as launched -/

/-- `main_arg0` ends as launched: no host operation writes it and no region may change it. -/
theorem B4_main_arg0 (c : Dev nD) : B4 m c (Proc.devRef .tc main_arg0) = m ((c : Thread nD τ).loc main_arg0) :=
  calc B4 m c (Proc.devRef .tc main_arg0)
    _ = B3 m c (Proc.devRef .tc main_arg0) := StableHlo.after_of_forall_not_mem (b := Proc.devRef .tc main_arg0) _ _ (List.forall_iff_forall_mem.mp (by
          simp only [hostOps2, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = B2 m c (Proc.devRef .tc main_arg0) := B3_of_ne m c main_arg0 (by decide)
    _ = B1 m c (Proc.devRef .tc main_arg0) := StableHlo.after_of_forall_not_mem (b := Proc.devRef .tc main_arg0) _ _ (List.forall_iff_forall_mem.mp (by
          simp only [hostOps1, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = B0 m c (Proc.devRef .tc main_arg0) := B1_of_ne m c main_arg0 (by decide)
    _ = m ((c : Thread nD τ).loc main_arg0) := rfl
/-- `main_arg1` ends as launched: no host operation writes it and no region may change it. -/
theorem B4_main_arg1 (c : Dev nD) : B4 m c (Proc.devRef .tc main_arg1) = m ((c : Thread nD τ).loc main_arg1) :=
  calc B4 m c (Proc.devRef .tc main_arg1)
    _ = B3 m c (Proc.devRef .tc main_arg1) := StableHlo.after_of_forall_not_mem (b := Proc.devRef .tc main_arg1) _ _ (List.forall_iff_forall_mem.mp (by
          simp only [hostOps2, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = B2 m c (Proc.devRef .tc main_arg1) := B3_of_ne m c main_arg1 (by decide)
    _ = B1 m c (Proc.devRef .tc main_arg1) := StableHlo.after_of_forall_not_mem (b := Proc.devRef .tc main_arg1) _ _ (List.forall_iff_forall_mem.mp (by
          simp only [hostOps1, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = B0 m c (Proc.devRef .tc main_arg1) := (B1_arr m c 0).trans (((dqDat (E0 m) c).arrAt_in 0 rfl _).trans (dq_A (E0 m) c 0))
    _ = m ((c : Thread nD τ).loc main_arg1) := rfl
/-- `main_arg2` ends as launched: no host operation writes it and no region may change it. -/
theorem B4_main_arg2 (c : Dev nD) : B4 m c (Proc.devRef .tc main_arg2) = m ((c : Thread nD τ).loc main_arg2) :=
  calc B4 m c (Proc.devRef .tc main_arg2)
    _ = B3 m c (Proc.devRef .tc main_arg2) := StableHlo.after_of_forall_not_mem (b := Proc.devRef .tc main_arg2) _ _ (List.forall_iff_forall_mem.mp (by
          simp only [hostOps2, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = B2 m c (Proc.devRef .tc main_arg2) := B3_of_ne m c main_arg2 (by decide)
    _ = B1 m c (Proc.devRef .tc main_arg2) := StableHlo.after_of_forall_not_mem (b := Proc.devRef .tc main_arg2) _ _ (List.forall_iff_forall_mem.mp (by
          simp only [hostOps1, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = B0 m c (Proc.devRef .tc main_arg2) := (B1_arr m c 1).trans (((dqDat (E0 m) c).arrAt_in 1 rfl _).trans (dq_A (E0 m) c 1))
    _ = m ((c : Thread nD τ).loc main_arg2) := rfl
/-- `main_arg3` ends as launched: no host operation writes it and no region may change it. -/
theorem B4_main_arg3 (c : Dev nD) : B4 m c (Proc.devRef .tc main_arg3) = m ((c : Thread nD τ).loc main_arg3) :=
  calc B4 m c (Proc.devRef .tc main_arg3)
    _ = B3 m c (Proc.devRef .tc main_arg3) := StableHlo.after_of_forall_not_mem (b := Proc.devRef .tc main_arg3) _ _ (List.forall_iff_forall_mem.mp (by
          simp only [hostOps2, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = B2 m c (Proc.devRef .tc main_arg3) := B3_of_ne m c main_arg3 (by decide)
    _ = B1 m c (Proc.devRef .tc main_arg3) := StableHlo.after_of_forall_not_mem (b := Proc.devRef .tc main_arg3) _ _ (List.forall_iff_forall_mem.mp (by
          simp only [hostOps1, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = B0 m c (Proc.devRef .tc main_arg3) := (B1_arr m c 2).trans (((dqDat (E0 m) c).arrAt_in 2 rfl _).trans (dq_A (E0 m) c 2))
    _ = m ((c : Thread nD τ).loc main_arg3) := rfl
/-- `main_arg4` ends as launched: no host operation writes it and no region may change it. -/
theorem B4_main_arg4 (c : Dev nD) : B4 m c (Proc.devRef .tc main_arg4) = m ((c : Thread nD τ).loc main_arg4) :=
  calc B4 m c (Proc.devRef .tc main_arg4)
    _ = B3 m c (Proc.devRef .tc main_arg4) := StableHlo.after_of_forall_not_mem (b := Proc.devRef .tc main_arg4) _ _ (List.forall_iff_forall_mem.mp (by
          simp only [hostOps2, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = B2 m c (Proc.devRef .tc main_arg4) := B3_of_ne m c main_arg4 (by decide)
    _ = B1 m c (Proc.devRef .tc main_arg4) := StableHlo.after_of_forall_not_mem (b := Proc.devRef .tc main_arg4) _ _ (List.forall_iff_forall_mem.mp (by
          simp only [hostOps1, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = B0 m c (Proc.devRef .tc main_arg4) := (B1_arr m c 3).trans (((dqDat (E0 m) c).arrAt_in 3 rfl _).trans (dq_A (E0 m) c 3))
    _ = m ((c : Thread nD τ).loc main_arg4) := rfl
/-- `main_arg5` ends as launched: no host operation writes it and no region may change it. -/
theorem B4_main_arg5 (c : Dev nD) : B4 m c (Proc.devRef .tc main_arg5) = m ((c : Thread nD τ).loc main_arg5) :=
  calc B4 m c (Proc.devRef .tc main_arg5)
    _ = B3 m c (Proc.devRef .tc main_arg5) := StableHlo.after_of_forall_not_mem (b := Proc.devRef .tc main_arg5) _ _ (List.forall_iff_forall_mem.mp (by
          simp only [hostOps2, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = B2 m c (Proc.devRef .tc main_arg5) := B3_of_ne m c main_arg5 (by decide)
    _ = B1 m c (Proc.devRef .tc main_arg5) := StableHlo.after_of_forall_not_mem (b := Proc.devRef .tc main_arg5) _ _ (List.forall_iff_forall_mem.mp (by
          simp only [hostOps1, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = B0 m c (Proc.devRef .tc main_arg5) := B1_of_ne m c main_arg5 (by decide)
    _ = m ((c : Thread nD τ).loc main_arg5) := rfl

/-! ## The proof data family and what rides beside the buffers -/

/-- No pallas_call has a prefetched table. -/
abbrev adm : (p : Fin 2) → (pcfgs (F := F) p).Adm := fun p => (cfgs p).toPCfg_adm
/-- Both pipelines' proof data, each at its region's entry contents. -/
def pdats : (p : Fin 2) → (c : Dev nD) → Dat τ (Elt F) Unit ℕ (UR sig nD τ) ℕ (Pipeline.pin (pcfgs (F := F)) adm p) c
  | ⟨0, _⟩ => fun c => dqDat (E0 m) c
  | ⟨1, _⟩ => fun c => mmDat (E2 m) c
abbrev 𝒱₀ : Variants := Variants.none
/-- No core owes another anything: no level is assigned. -/
abbrev L : GSem nD τ sig → Finset Unit := fun _ => ∅
abbrev lv : GSem nD τ sig → Unit → ℕ := fun _ _ => 0
/-- Beside the buffers, through every item: the generator register at some state and the core owing nothing. -/
abbrev Beside (c : Dev nD) : sProp 𝕄 := iprop((∃ r, prngReg c r) ∗ ∃ W, owes (c : Thread nD τ) (0 : CellTallies nD τ sig Unit) W)

/-- A host stretch as a segment over every unscoped buffer, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Beside

theorem hostOps1_fresh : (hostOps1 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The last thread state without the `owes`. -/
abbrev Tₙ (c : Dev nD) : sProp 𝕄 := iprop(StableHlo.held (c : Thread nD τ) (Pipeline.ucRefs τ sig) (B4 m c) ∗ ∃ r, prngReg c r)

/-! ## The two regions as segments -/

set_option backward.isDefEq.respectTransparency.types false in
/-- The dequantization region: entered with every unscoped buffer at the launch contents, left with its output
    array at what the write-backs leave. Its arrays are split out of the unscoped buffers and put back; the
    generator register goes into the invariant and comes out; nothing is owed. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (dq_obligation (E0 m) c).loose
  hwaits := Pipeline.hwaits_of_owed_zero _ _ _ _ L lv 0 fun _ _ => rfl
  pre c := iprop(StableHlo.held (c : Thread nD τ) (Pipeline.ucRefs τ sig) (B0 m c) ∗ Beside c)
  post c := iprop(StableHlo.held (c : Thread nD τ) (Pipeline.ucRefs τ sig) (B1 m c) ∗ Beside c)
  X c := iprop(∃ r, prngReg c r)
  Y c := iprop(∃ r, prngReg c r)
  Z c := Pipeline.unscopedRest (Ix := Unit) (Name := ℕ) (U := UR sig nD τ) (Lvl := ℕ) spec0 c (E0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E0 m c) (E1 m c) ((pdats m 0 c).arrAt · cfg0.N) (exit0_arr m c) (exit0_rest m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The matmul region: entered with every unscoped buffer at the contents after the two reshapes, left with its
    output array at what the write-backs leave. The invariant starts as the class's and ends as it
    (the accumulator's contents forgotten). -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (mm_obligation (E2 m) c).loose
  hwaits := Pipeline.hwaits_of_owed_zero _ _ _ _ L lv 1 fun _ _ => rfl
  pre c := iprop(StableHlo.held (c : Thread nD τ) (Pipeline.ucRefs τ sig) (B2 m c) ∗ Beside c)
  post c := iprop(StableHlo.held (c : Thread nD τ) (Pipeline.ucRefs τ sig) (B3 m c) ∗ Beside c)
  X c := iprop(∃ r, prngReg c r)
  Y c := iprop(∃ r, prngReg c r)
  Z c := Pipeline.unscopedRest (Ix := Unit) (Name := ℕ) (U := UR sig nD τ) (Lvl := ℕ) spec1 c (E2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (E2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none]
    have hgive : (Pipeline.ΦA spec1 c : sProp 𝕄) ⊢ iprop((∃ r, prngReg c r) ∗ BI.emp ∗ Pipeline.scopedRest spec1 c) := by
      unfold Pipeline.ΦA
      iintro ⟨Hr, Hp⟩
      isplitl [Hp]; · iexact Hp
      isplitr; · iempintro
      iexact Hr
    exact (mm_out (E2 m) c).trans hgive
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E2 m c) (E3 m c) ((pdats m 1 c).arrAt · cfg1.N) (exit1_arr m c) (exit1_rest m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as four segments, and the launch -/

abbrev segs : List (Pipeline.Seg (pcfgs (F := F)) adm (pdats m) () defs₀ 𝒱₀ L lv) :=
  [ .region (reg0 m),
    .host (hseg hostOps1 hostOps1_sub hostOps1_fresh (B1 m)),
    .region (reg1 m),
    .host (hseg hostOps2 hostOps2_sub hostOps2_fresh (B3 m)) ]

theorem main_run (c : Dev nD) : main (F := F) c = Pipeline.Seg.run (segs m) := (main_chain c).trans (by chain_rfl)

set_option backward.isDefEq.respectTransparency.types false in
/-- THE RUN. From any memory with zero counters every weakly fair execution of @main terminates, nothing
    faulting, and every unscoped buffer of every core ends at the last boundary's contents. -/
theorem run : θ_run defs (onTc (τ := τ) (main (F := F))) ⟨m, fun _ => 0, ρ⟩ (fun r => ∀ c : Dev nD,
      ∀ b ∈ Pipeline.ucRefs τ sig, r.2.mem (((c : Thread nD τ)).1, b) = B4 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m c) ∗ Beside c)) (Tₙ := Tₙ m)
    (hch := ⟨fun _ => .rfl, fun _ => .rfl, fun _ => .rfl, fun _ => .rfl, fun c => by
      show iprop(StableHlo.held (c : Thread nD τ) (Pipeline.ucRefs τ sig) (B4 m c) ∗ Beside c)
        ⊢ iprop(Tₙ m c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (B0 m c)
        from Pipeline.unscopedBufs_held c (B0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B4 m c b)
    (hfin := fun c s' => by
      iintro ⟨⟨Hh, -⟩, HSI⟩
      unfold StableHlo.held
      imodintro
      iapply (pointsTo_read_all (Pipeline.ucRefs τ sig) (fun b => (((c : Thread nD τ)).1, b)) (B4 m c) s')
      isplitl [Hh] <;> iassumption)
    (hQ := fun s h c => h c)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨(h c _ (mem_uc main_arg0 (by decide))).trans (B4_main_arg0 m c),
     (h c _ (mem_uc main_arg1 (by decide))).trans (B4_main_arg1 m c),
     (h c _ (mem_uc main_arg2 (by decide))).trans (B4_main_arg2 m c),
     (h c _ (mem_uc main_arg3 (by decide))).trans (B4_main_arg3 m c),
     (h c _ (mem_uc main_arg4 (by decide))).trans (B4_main_arg4 m c),
     (h c _ (mem_uc main_arg5 (by decide))).trans (B4_main_arg5 m c)⟩) (run m ρ)

end Cert.KernelIdeal.Hand

end
-- ==== Proof.DequantBodyBits.lean ====
/-
  The dequantization kernel (the first pallas_call) at one grid point, for any float instance.

  Grid point `t` of 32 handles output rows 128·t … 128·t+127: it reads the code block, the scale block and the
  low-rank row block of those rows and the whole right factor, and stores one 128 × 4096 tile of the weight.
  The body keeps nothing between points and reads nothing it wrote, so its region invariant is only the scoped
  buffers it never touches and the generator register.
-/
import proofs.«114712_j11579231830187_1_alg».proof.Proof.Gen.Kernel.Launch
import proofs.«114712_j11579231830187_1_alg».proof.Proof.Gen.Kernel.Skeleton
import proofs.«114712_j11579231830187_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Block `t` of window `w`'s array, the arrays being at `V` when the region is entered. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds its block whenever the body runs, fetched at that point or not: a body
    that leaves the block in place finds, where the pipeline did not fetch, the block of an index that did not move.
    One statement per input window (the block's shape is the window's own). -/
theorem held0_0_of {c : Dev nD} (dat : Dat τ (Elt F) Unit ℕ (UR sig nD τ) ℕ cfg0 c) (hA : dat.A 0 = V c (Pipeline.arrRef spec0 0))
    (hafter : ∀ t, dat.after 0 t = blk0 V c 0 t) (t : Fin cfg0.N) (d) : dat.before 0 t d = blk0 V c 0 t :=
  (dat.before_in_eq_fetched 0 rfl (fun _ => rfl) (fun _ _ _ => rfl) (fun t => by rw [hafter]; unfold Dat.blockOf blk0; rw [hA]; try rfl) t d).trans
    (by unfold Dat.fetched Dat.blockOf blk0; rw [hA]; try rfl)
theorem held0_1_of {c : Dev nD} (dat : Dat τ (Elt F) Unit ℕ (UR sig nD τ) ℕ cfg0 c) (hA : dat.A 1 = V c (Pipeline.arrRef spec0 1))
    (hafter : ∀ t, dat.after 1 t = blk0 V c 1 t) (t : Fin cfg0.N) (d) : dat.before 1 t d = blk0 V c 1 t :=
  (dat.before_in_eq_fetched 1 rfl (fun _ => rfl) (fun _ _ _ => rfl) (fun t => by rw [hafter]; unfold Dat.blockOf blk0; rw [hA]; try rfl) t d).trans
    (by unfold Dat.fetched Dat.blockOf blk0; rw [hA]; try rfl)
theorem held0_2_of {c : Dev nD} (dat : Dat τ (Elt F) Unit ℕ (UR sig nD τ) ℕ cfg0 c) (hA : dat.A 2 = V c (Pipeline.arrRef spec0 2))
    (hafter : ∀ t, dat.after 2 t = blk0 V c 2 t) (t : Fin cfg0.N) (d) : dat.before 2 t d = blk0 V c 2 t :=
  (dat.before_in_eq_fetched 2 rfl (fun _ => rfl) (fun _ _ _ => rfl) (fun t => by rw [hafter]; unfold Dat.blockOf blk0; rw [hA]; try rfl) t d).trans
    (by unfold Dat.fetched Dat.blockOf blk0; rw [hA]; try rfl)
theorem held0_3_of {c : Dev nD} (dat : Dat τ (Elt F) Unit ℕ (UR sig nD τ) ℕ cfg0 c) (hA : dat.A 3 = V c (Pipeline.arrRef spec0 3))
    (hafter : ∀ t, dat.after 3 t = blk0 V c 3 t) (t : Fin cfg0.N) (d) : dat.before 3 t d = blk0 V c 3 t :=
  (dat.before_in_eq_fetched 3 rfl (fun _ => rfl) (fun _ _ _ => rfl) (fun t => by rw [hafter]; unfold Dat.blockOf blk0; rw [hA]; try rfl) t d).trans
    (by unfold Dat.fetched Dat.blockOf blk0; rw [hA]; try rfl)

/-! ## The body's accesses: every load and the store take the whole staging buffer -/

abbrev rTile : Rect S128x4096 := Rect.unit (s := S128x4096) ![0, 0] S128x4096.size inb_S128x4096_S128x4096_0_0
abbrev rCols : Rect S128x32 := Rect.unit (s := S128x32) ![0, 0] S128x32.size inb_S128x32_S128x32_0_0
abbrev rRight : Rect S32x4096 := Rect.unit (s := S32x4096) ![0, 0] S32x4096.size inb_S32x4096_S32x4096_0_0

/-- The weight tile the body stores, from the four input blocks: its one store as the only piece. -/
def wtile (xq : Vec F S128x4096 .i32) (xs xu : Vec F S128x32 .f32) (xv : Vec F S32x4096 .f32) : Vec F S128x4096 .bf16 :=
  View.canon [⟨rTile, k0_pay1 (View.ld xq rTile) (View.ld xs rCols) (View.ld xu rCols) (View.ld xv rRight)⟩]

/-- The one store takes the whole buffer. -/
theorem wtile_cover (p0 : Vec F S128x4096 .bf16) (y : S128x4096.Idx) :
    ∃ pc ∈ ([⟨rTile, p0⟩] : List (View.Piece (Elt F) S128x4096 .bf16)), y ∈ pc.1.set :=
  View.cover_of_tiled [⟨rTile, p0⟩] S128x4096.size (by rfl) y

/-! ## The body's triple -/

set_option maxHeartbeats 2000000 in
/-- On whole staging buffers, the four inputs' at contents `xq xs xu xv` and the output's at anything, the body runs
    to its continuation with the inputs' as they were and the output's at the tile. -/
theorem dequant_triple (c : Dev nD) (E : Set ℕ) (i : grid0.Coords)
    (a1 : Memref sig .tc .vmem S128x4096 .i32) (h1 : a1.IsWhole) (a2 : Memref sig .tc .vmem S128x32 .f32) (h2 : a2.IsWhole)
    (a3 : Memref sig .tc .vmem S128x32 .f32) (h3 : a3.IsWhole) (a4 : Memref sig .tc .vmem S32x4096 .f32) (h4 : a4.IsWhole)
    (a5 : Memref sig .tc .vmem S128x4096 .bf16) (h5 : a5.IsWhole)
    (xq : Vec F S128x4096 .i32) (xs xu : Vec F S128x32 .f32) (xv : Vec F S32x4096 .f32) (K : PUnit → sProp 𝕄) :
    iprop(owns (c : Thread nD τ) a1 fullShare xq ∗ owns (c : Thread nD τ) a2 fullShare xs ∗ owns (c : Thread nD τ) a3 fullShare xu
        ∗ owns (c : Thread nD τ) a4 fullShare xv ∗ (∃ d, owns (c : Thread nD τ) a5 fullShare d)
        ∗ (iprop(owns (c : Thread nD τ) a1 fullShare xq ∗ owns (c : Thread nD τ) a2 fullShare xs ∗ owns (c : Thread nD τ) a3 fullShare xu
            ∗ owns (c : Thread nD τ) a4 fullShare xv ∗ owns (c : Thread nD τ) a5 fullShare (wtile xq xs xu xv)) -∗ K ⟨⟩))
      ⊢ wp frame (wpE (defs₀ (F := F)) Variants.none c none) E (cc0__dequant_kernel i a1 h1 a2 h2 a3 h3 a4 h4 a5 h5) K := by
  simp only [cc0__dequant_kernel_eq_skeleton]; unfold cc0__dequant_kernel_skel
  unfold owns
  iintro ⟨⟨%f1, %hf1, H1⟩, ⟨%f2, %hf2, H2⟩, ⟨%f3, %hf3, H3⟩, ⟨%f4, %hf4, H4⟩, ⟨%d5, %f5, -, H5⟩, Hk⟩
  subst hf1; subst hf2; subst hf3; subst hf4
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (wtile_cover _)

/-! ## The proof data -/

/-- Region 0's proof data on core `c`: the arrays as the region finds them; after the body at point `t` each
    input's buffer still at its block and the output's at the tile of the input blocks; the invariant only what the
    body never touches; nothing owed; full shares. -/
def dqDat (c : Dev nD) : Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => blk0 V c 2 t
    | ⟨3, _⟩ => blk0 V c 3 t
    | ⟨4, _⟩ => wtile (blk0 V c 0 t) (blk0 V c 1 t) (blk0 V c 2 t) (blk0 V c 3 t)
  Φ _ := Pipeline.ΦA spec0 c
  q _ := fullShare
  owed _ := 0

theorem dq_A (c : Dev nD) (w : Fin cfg0.W) : (dqDat V c).A w = V c (Pipeline.arrRef spec0 w) := by
  dsimp only [dqDat]

theorem dq_after0 (c : Dev nD) (t : Fin cfg0.N) : (dqDat V c).after 0 t = blk0 V c 0 t := by dsimp only [dqDat]
theorem dq_after1 (c : Dev nD) (t : Fin cfg0.N) : (dqDat V c).after 1 t = blk0 V c 1 t := by dsimp only [dqDat]
theorem dq_after2 (c : Dev nD) (t : Fin cfg0.N) : (dqDat V c).after 2 t = blk0 V c 2 t := by dsimp only [dqDat]
theorem dq_after3 (c : Dev nD) (t : Fin cfg0.N) : (dqDat V c).after 3 t = blk0 V c 3 t := by dsimp only [dqDat]
theorem dq_after4 (c : Dev nD) (t : Fin cfg0.N) :
    (dqDat V c).after 4 t = wtile (blk0 V c 0 t) (blk0 V c 1 t) (blk0 V c 2 t) (blk0 V c 3 t) := by dsimp only [dqDat]

theorem dq_held0 (c : Dev nD) (t : Fin cfg0.N) (d) : (dqDat V c).before 0 t d = blk0 V c 0 t :=
  held0_0_of V (dqDat V c) (dq_A V c 0) (dq_after0 V c) t d
theorem dq_held1 (c : Dev nD) (t : Fin cfg0.N) (d) : (dqDat V c).before 1 t d = blk0 V c 1 t :=
  held0_1_of V (dqDat V c) (dq_A V c 1) (dq_after1 V c) t d
theorem dq_held2 (c : Dev nD) (t : Fin cfg0.N) (d) : (dqDat V c).before 2 t d = blk0 V c 2 t :=
  held0_2_of V (dqDat V c) (dq_A V c 2) (dq_after2 V c) t d
theorem dq_held3 (c : Dev nD) (t : Fin cfg0.N) (d) : (dqDat V c).before 3 t d = blk0 V c 3 t :=
  held0_3_of V (dqDat V c) (dq_A V c 3) (dq_after3 V c) t d

/-! ## The body obligation -/

/-- What the body is called with at point `t`, the windows one by one, -/
def dqPre (c : Dev nD) (t : Fin cfg0.N) : sProp 𝕄 :=
  iprop((dqDat V c).Φ t.castSucc ∗ (dqDat V c).owesAt () t.castSucc
    ∗ (∃ d, owns (c : Thread nD τ) (st0_0 t) fullShare ((dqDat V c).before 0 t d))
    ∗ (∃ d, owns (c : Thread nD τ) (st0_1 t) fullShare ((dqDat V c).before 1 t d))
    ∗ (∃ d, owns (c : Thread nD τ) (st0_2 t) fullShare ((dqDat V c).before 2 t d))
    ∗ (∃ d, owns (c : Thread nD τ) (st0_3 t) fullShare ((dqDat V c).before 3 t d))
    ∗ (∃ d, owns (c : Thread nD τ) (st0_4 t) fullShare ((dqDat V c).before 4 t d)))

/-- and what it returns. -/
def dqPost (c : Dev nD) (t : Fin cfg0.N) : sProp 𝕄 :=
  iprop((dqDat V c).Φ t.succ ∗ (dqDat V c).owesAt () t.succ
    ∗ owns (c : Thread nD τ) (st0_0 t) fullShare ((dqDat V c).after 0 t)
    ∗ owns (c : Thread nD τ) (st0_1 t) fullShare ((dqDat V c).after 1 t)
    ∗ owns (c : Thread nD τ) (st0_2 t) fullShare ((dqDat V c).after 2 t)
    ∗ owns (c : Thread nD τ) (st0_3 t) fullShare ((dqDat V c).after 3 t)
    ∗ owns (c : Thread nD τ) (st0_4 t) fullShare ((dqDat V c).after 4 t))

theorem dq_body (c : Dev nD) (t : Fin cfg0.N) :
    dqPre V c t ⊢ wp frame (wpE (defs₀ (F := F)) Variants.none c none) Set.univ (bodyAt0 t) (fun _ => dqPost V c t) := by
  unfold dqPre dqPost bodyAt0
  simp only [dq_held0, dq_held1, dq_held2, dq_held3]
  rw [show (dqDat V c).Φ t.succ = (dqDat V c).Φ t.castSucc from rfl,
    show (dqDat V c).owesAt () t.succ = (dqDat V c).owesAt () t.castSucc from rfl,
    dq_after0, dq_after1, dq_after2, dq_after3, dq_after4]
  iintro ⟨HΦ, Ho, ⟨%d0, H0⟩, ⟨%d1, H1⟩, ⟨%d2, H2⟩, ⟨%d3, H3⟩, ⟨%d4, H4⟩⟩
  iapply (dequant_triple c Set.univ _ _ _ _ _ _ _ _ _ _ _ (blk0 V c 0 t) (blk0 V c 1 t) (blk0 V c 2 t) (blk0 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem dq_obligation (c : Dev nD) : BodyObligation (dqDat (F := F) V c) (defs₀ (F := F)) Variants.none () Set.univ := fun t => by
  rw [bigSep_W0, bigSep_W0]
  exact dq_body V c t

end Cert.Kernel.Hand

end
-- ==== Proof.MatmulBodyBits.lean ====
/-
  The matmul kernel (the second pallas_call) at one grid point, for any float instance.

  The grid is 8 × 4 × 4, the last axis the reduction's: point `t` (row block t / 16, column block t / 4 % 4,
  K block t % 4) multiplies a 1024 × 1024 block of the activations by a 1024 × 1024 block of the weight, both
  contracted along their second axis, into a 1024 × 1024 accumulator the kernel keeps in a scratch buffer from one
  point to the next: zeroed where t % 4 = 0, added to at every point, and where t % 4 = 3 stored, plus the bias
  row, into the output block — the only points at which the output's staging buffer is touched or written back.
  So the region's invariant names the accumulator's contents after each point, by recursion on the point.
-/
import proofs.«114712_j11579231830187_1_alg».proof.Proof.Gen.Kernel.Launch
import proofs.«114712_j11579231830187_1_alg».proof.Proof.Gen.Kernel.Skeleton
import proofs.«114712_j11579231830187_1_alg».proof.Proof.Gen.Kernel.Points
import Idealize.ShloMosaic.Lib.Pipeline.Value
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Block `t` of window `w`'s array, the arrays being at `V` when the region is entered. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The three input blocks at a point, at their literal types: the activations', the weight's, the bias row's. -/
abbrev xblk (c : Dev nD) (t : Fin cfg1.N) : Vec F S1024x1024 .f32 := blk1 V c 0 t
abbrev wblk (c : Dev nD) (t : Fin cfg1.N) : Vec F S1024x1024 .bf16 := blk1 V c 1 t
abbrev bblk (c : Dev nD) (t : Fin cfg1.N) : Vec F S1x1024 .f32 := blk1 V c 2 t

/-- An input window's staging buffer holds its block whenever the body runs, fetched at that point or not (the bias
    row is fetched only where the column block changes). One statement per input window. -/
theorem held1_0_of {c : Dev nD} (dat : Dat τ (Elt F) Unit ℕ (UR sig nD τ) ℕ cfg1 c) (hA : dat.A 0 = V c (Pipeline.arrRef spec1 0))
    (hafter : ∀ t, dat.after 0 t = blk1 V c 0 t) (t : Fin cfg1.N) (d) : dat.before 0 t d = blk1 V c 0 t :=
  (dat.before_in_eq_fetched 0 rfl (fun _ => rfl) (fun _ _ _ => rfl) (fun t => by rw [hafter]; unfold Dat.blockOf blk1; rw [hA]; try rfl) t d).trans
    (by unfold Dat.fetched Dat.blockOf blk1; rw [hA]; try rfl)
theorem held1_1_of {c : Dev nD} (dat : Dat τ (Elt F) Unit ℕ (UR sig nD τ) ℕ cfg1 c) (hA : dat.A 1 = V c (Pipeline.arrRef spec1 1))
    (hafter : ∀ t, dat.after 1 t = blk1 V c 1 t) (t : Fin cfg1.N) (d) : dat.before 1 t d = blk1 V c 1 t :=
  (dat.before_in_eq_fetched 1 rfl (fun _ => rfl) (fun _ _ _ => rfl) (fun t => by rw [hafter]; unfold Dat.blockOf blk1; rw [hA]; try rfl) t d).trans
    (by unfold Dat.fetched Dat.blockOf blk1; rw [hA]; try rfl)
theorem held1_2_of {c : Dev nD} (dat : Dat τ (Elt F) Unit ℕ (UR sig nD τ) ℕ cfg1 c) (hA : dat.A 2 = V c (Pipeline.arrRef spec1 2))
    (hafter : ∀ t, dat.after 2 t = blk1 V c 2 t) (t : Fin cfg1.N) (d) : dat.before 2 t d = blk1 V c 2 t :=
  (dat.before_in_eq_fetched 2 rfl (fun _ => rfl) (fun _ _ _ => rfl) (fun t => by rw [hafter]; unfold Dat.blockOf blk1; rw [hA]; try rfl) t d).trans
    (by unfold Dat.fetched Dat.blockOf blk1; rw [hA]; try rfl)

/-! ## The body's accesses: every load and store takes a whole buffer -/

theorem zero_offsets : (![0, 0] : Fin 2 → Nat) = fun _ => 0 := by
  funext a; fin_cases a <;> rfl

abbrev rAcc : Rect S1024x1024 := Rect.unit (s := S1024x1024) ![0, 0] S1024x1024.size inb_S1024x1024_S1024x1024_0_0
abbrev rBias : Rect S1x1024 := Rect.unit (s := S1x1024) ![0, 0] S1x1024.size inb_S1x1024_S1x1024_0_0

/-! ## The branch conditions, decided over the grid -/

/-- The reduction starts at this point (the accumulator is zeroed): the last coordinate is 0. -/
abbrev isFirst (i : grid1.Coords) : Prop :=
  (Scalar.cmpi .ne (Scalar.extui (Scalar.cmpi .eq (BitVec.ofNat 32 (i 2).val) 0#32)) 0#32) = 1#1
/-- The reduction ends at this point (the output block is stored): the last coordinate is 3. -/
abbrev isLast (i : grid1.Coords) : Prop := k1_cond2 i = 1#1

theorem isFirst_iff : ∀ t : Fin cfg1.N, isFirst (grid1.coords t) ↔ t.val % 4 = 0 :=
  (by decide +kernel : ∀ t : Fin grid1.N, isFirst (grid1.coords t) ↔ t.val % 4 = 0)
theorem isLast_iff : ∀ t : Fin cfg1.N, isLast (grid1.coords t) ↔ t.val % 4 = 3 :=
  (by decide +kernel : ∀ t : Fin grid1.N, isLast (grid1.coords t) ↔ t.val % 4 = 3)

/-- The inputs are never idle; the output is idle, and not written back, exactly where the reduction does not end. -/
theorem in_live0 : ∀ t : Fin cfg1.N, cfg1.idle 0 (grid1.coords t) = false := by decide +kernel
theorem in_live1 : ∀ t : Fin cfg1.N, cfg1.idle 1 (grid1.coords t) = false := by decide +kernel
theorem in_live2 : ∀ t : Fin cfg1.N, cfg1.idle 2 (grid1.coords t) = false := by decide +kernel
theorem out_idle : ∀ t : Fin cfg1.N, ¬isLast (grid1.coords t) → cfg1.idle 3 (grid1.coords t) = true := by decide +kernel
theorem out_kept : ∀ t : Fin cfg1.N, ¬isLast (grid1.coords t) → (cfg1.win 3).flush t = false := by decide +kernel
theorem out_live : ∀ t : Fin cfg1.N, isLast (grid1.coords t) → cfg1.idle 3 (grid1.coords t) = false := by decide +kernel

/-! ## The body's triples, one per way through its two conditionals -/

section Triples

variable (c : Dev nD) (E : Set ℕ) (i : grid1.Coords)
  (a3 : Memref sig .tc .vmem S1024x1024 .f32) (h3 : a3.IsWhole) (a4 : Memref sig .tc .vmem S1024x1024 .bf16) (h4 : a4.IsWhole)
  (a5 : Memref sig .tc .vmem S1x1024 .f32) (h5 : a5.IsWhole) (a6 : Memref sig .tc .vmem S1024x1024 .f32) (h6 : a6.IsWhole)
  (a7 : Memref sig .tc .vmem S1024x1024 .f32) (h7 : a7.IsWhole)

set_option maxHeartbeats 4000000 in
/-- Where the reduction starts and does not end: the accumulator, whatever it held, is left at the first product
    added to zero. The bias row's and the output's buffers are not touched. -/
theorem triple_first (hc1 : isFirst i) (hc2 : ¬isLast i)
    (x : Vec F S1024x1024 .f32) (w : Vec F S1024x1024 .bf16) (K : PUnit → sProp 𝕄) :
    iprop(owns (c : Thread nD τ) a3 fullShare x ∗ owns (c : Thread nD τ) a4 fullShare w ∗ (∃ d, owns (c : Thread nD τ) a7 fullShare d)
        ∗ (iprop(owns (c : Thread nD τ) a3 fullShare x ∗ owns (c : Thread nD τ) a4 fullShare w
            ∗ owns (c : Thread nD τ) a7 fullShare (k1_pay2 x w (k1_pay1 (F := F)))) -∗ K ⟨⟩))
      ⊢ wp frame (wpE (defs₀ (F := F)) Variants.none c none) E (cc1__matmul_kernel i a3 h3 a4 h4 a5 h5 a6 h6 a7 h7) K := by
  simp only [cc1__matmul_kernel_eq_skeleton]; unfold cc1__matmul_kernel_skel
  unfold owns
  iintro ⟨⟨%f3, %hf3, H3⟩, ⟨%f4, %hf4, H4⟩, ⟨%d7, %f7, -, H7⟩, Hk⟩
  subst hf3; subst hf4
  sl_exec (disch := first | exact hc1 | exact hc2)
  sl_step
  iapply Hk
  isplitl [H3]
  · iexists f3; isplitr; · ipureintro; rfl
    iexact H3
  isplitl [H4]
  · iexists f4; isplitr; · ipureintro; rfl
    iexact H4
  iexists _; isplitr
  swap; · iexact H7
  ipureintro
  sl_unfold_run_names
  rw [View.read_writes_eq_canon _ _ _ (fun y => ⟨_, List.mem_cons_self, View.mem_set_unit_zero zero_offsets inb_S1024x1024_S1024x1024_0_0 y⟩)]
  rw [View.canon_cons_unit_zero (S := S1024x1024) zero_offsets]
  simp only [View.readAt_eq_ld, View.ld_unit_zero (S := S1024x1024) zero_offsets, View.readCov_unit_zero (S := S1024x1024) _ zero_offsets]

set_option maxHeartbeats 4000000 in
/-- Where the reduction neither starts nor ends: the accumulator at `s` is left at `s` plus this point's product. -/
theorem triple_next (hc1 : ¬isFirst i) (hc2 : ¬isLast i)
    (x : Vec F S1024x1024 .f32) (w : Vec F S1024x1024 .bf16) (s : Vec F S1024x1024 .f32) (K : PUnit → sProp 𝕄) :
    iprop(owns (c : Thread nD τ) a3 fullShare x ∗ owns (c : Thread nD τ) a4 fullShare w ∗ owns (c : Thread nD τ) a7 fullShare s
        ∗ (iprop(owns (c : Thread nD τ) a3 fullShare x ∗ owns (c : Thread nD τ) a4 fullShare w
            ∗ owns (c : Thread nD τ) a7 fullShare (k1_pay2 x w s)) -∗ K ⟨⟩))
      ⊢ wp frame (wpE (defs₀ (F := F)) Variants.none c none) E (cc1__matmul_kernel i a3 h3 a4 h4 a5 h5 a6 h6 a7 h7) K := by
  simp only [cc1__matmul_kernel_eq_skeleton]; unfold cc1__matmul_kernel_skel
  unfold owns
  iintro ⟨⟨%f3, %hf3, H3⟩, ⟨%f4, %hf4, H4⟩, ⟨%f7, %hf7, H7⟩, Hk⟩
  subst hf3; subst hf4; subst hf7
  sl_exec (disch := first | exact hc1 | exact hc2)
  sl_step
  iapply Hk
  isplitl [H3]
  · iexists f3; isplitr; · ipureintro; rfl
    iexact H3
  isplitl [H4]
  · iexists f4; isplitr; · ipureintro; rfl
    iexact H4
  iexists _; isplitr
  swap; · iexact H7
  ipureintro
  sl_unfold_run_names
  rw [View.read_writes_eq_canon _ _ _ (fun y => ⟨_, List.mem_cons_self, View.mem_set_unit_zero zero_offsets inb_S1024x1024_S1024x1024_0_0 y⟩)]
  rw [View.canon_cons_unit_zero (S := S1024x1024) zero_offsets]
  simp only [View.readAt_eq_ld, View.ld_unit_zero (S := S1024x1024) zero_offsets]

set_option maxHeartbeats 4000000 in
/-- Where the reduction ends (it does not start there): the accumulator at `s` is left at `s` plus this point's
    product, and the output's buffer, whatever it held, at that sum plus the bias row. -/
theorem triple_last (hc1 : ¬isFirst i) (hc2 : isLast i)
    (x : Vec F S1024x1024 .f32) (w : Vec F S1024x1024 .bf16) (b : Vec F S1x1024 .f32) (s : Vec F S1024x1024 .f32) (K : PUnit → sProp 𝕄) :
    iprop(owns (c : Thread nD τ) a3 fullShare x ∗ owns (c : Thread nD τ) a4 fullShare w ∗ owns (c : Thread nD τ) a5 fullShare b
        ∗ (∃ d, owns (c : Thread nD τ) a6 fullShare d) ∗ owns (c : Thread nD τ) a7 fullShare s
        ∗ (iprop(owns (c : Thread nD τ) a3 fullShare x ∗ owns (c : Thread nD τ) a4 fullShare w ∗ owns (c : Thread nD τ) a5 fullShare b
            ∗ owns (c : Thread nD τ) a6 fullShare (k1_pay3 b (k1_pay2 x w s))
            ∗ owns (c : Thread nD τ) a7 fullShare (k1_pay2 x w s)) -∗ K ⟨⟩))
      ⊢ wp frame (wpE (defs₀ (F := F)) Variants.none c none) E (cc1__matmul_kernel i a3 h3 a4 h4 a5 h5 a6 h6 a7 h7) K := by
  simp only [cc1__matmul_kernel_eq_skeleton]; unfold cc1__matmul_kernel_skel
  unfold owns
  iintro ⟨⟨%f3, %hf3, H3⟩, ⟨%f4, %hf4, H4⟩, ⟨%f5, %hf5, H5⟩, ⟨%d6, %f6, -, H6⟩, ⟨%f7, %hf7, H7⟩, Hk⟩
  subst hf3; subst hf4; subst hf5; subst hf7
  sl_exec (disch := first | exact hc1 | exact hc2)
  sl_step
  iapply Hk
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    sl_unfold_run_names
    rw [View.read_writes_eq_canon _ _ _ (fun y => ⟨_, List.mem_cons_self, View.mem_set_unit_zero zero_offsets inb_S1024x1024_S1024x1024_0_0 y⟩)]
    rw [View.canon_cons_unit_zero (S := S1024x1024) zero_offsets]
    simp only [View.readAt_eq_ld, View.ld_unit_zero (S := S1024x1024) zero_offsets, View.ld_unit_zero (S := S1x1024) zero_offsets,
      View.readCov_unit_zero (S := S1024x1024) _ zero_offsets]
  iexists _; isplitr
  swap; · iexact H7
  ipureintro
  sl_unfold_run_names
  rw [View.read_writes_eq_canon _ _ _ (fun y => ⟨_, List.mem_cons_self, View.mem_set_unit_zero zero_offsets inb_S1024x1024_S1024x1024_0_0 y⟩)]
  rw [View.canon_cons_unit_zero (S := S1024x1024) zero_offsets]
  simp only [View.readAt_eq_ld, View.ld_unit_zero (S := S1024x1024) zero_offsets]

end Triples

/-! ## The accumulator after each point -/

/-- The scratch accumulator's contents after the body at position `n`: where the reduction starts, this point's
    product added to zero; elsewhere, this point's product added to what position `n − 1` left. -/
def accAt (c : Dev nD) : (n : ℕ) → n < cfg1.N → Vec F S1024x1024 .f32
  | 0, hn => k1_pay2 (xblk V c ⟨0, hn⟩) (wblk V c ⟨0, hn⟩) (k1_pay1 (F := F))
  | n + 1, hn =>
    if (n + 1) % 4 = 0 then k1_pay2 (xblk V c ⟨n + 1, hn⟩) (wblk V c ⟨n + 1, hn⟩) (k1_pay1 (F := F))
    else k1_pay2 (xblk V c ⟨n + 1, hn⟩) (wblk V c ⟨n + 1, hn⟩) (accAt c n (Nat.lt_of_succ_lt hn))

theorem accAt_first (c : Dev nD) (t : Fin cfg1.N) (h : t.val % 4 = 0) :
    accAt V c t.val t.isLt = k1_pay2 (xblk V c t) (wblk V c t) (k1_pay1 (F := F)) := by
  obtain ⟨n, hn⟩ := t
  cases n with
  | zero => rfl
  | succ n => exact (if_pos h).trans rfl

theorem accAt_next (c : Dev nD) (t : Fin cfg1.N) (h : ¬t.val % 4 = 0) :
    accAt V c t.val t.isLt
      = k1_pay2 (xblk V c t) (wblk V c t) (accAt V c (t.val - 1) (Nat.lt_of_le_of_lt (Nat.sub_le _ _) t.isLt)) := by
  obtain ⟨n, hn⟩ := t
  cases n with
  | zero => exact absurd (Nat.zero_mod _) h
  | succ n => exact (if_neg h).trans rfl

/-- The output block the body stores where the reduction ends: the accumulator plus the bias row. (At the other
    points the output's buffer is idle and this is never consulted.) -/
def outAt (c : Dev nD) (t : Fin cfg1.N) : Vec F S1024x1024 .f32 := k1_pay3 (bblk V c t) (accAt V c t.val t.isLt)

/-! ## The region invariant -/

/-- The scratch operand: a whole scoped buffer of the kernel's own. -/
abbrev scM : Memref sig .tc .vmem S1024x1024 .f32 := Memref.whole cc1_scratch0

/-- The core's scoped buffers the region never touches (the first pallas_call's staging buffers), each at some
    contents, beside an assertion `S` about the scratch. -/
def idleWith (c : Dev nD) (S : sProp 𝕄) : sProp 𝕄 :=
  iprop((∃ f : Buf (Elt F) ((c : Thread nD τ).loc cc0_stg0_0), ((c : Thread nD τ).loc cc0_stg0_0) ↦{fullShare} f)
      ∗ (∃ f : Buf (Elt F) ((c : Thread nD τ).loc cc0_stg0_1), ((c : Thread nD τ).loc cc0_stg0_1) ↦{fullShare} f)
      ∗ (∃ f : Buf (Elt F) ((c : Thread nD τ).loc cc0_stg1_0), ((c : Thread nD τ).loc cc0_stg1_0) ↦{fullShare} f)
      ∗ (∃ f : Buf (Elt F) ((c : Thread nD τ).loc cc0_stg1_1), ((c : Thread nD τ).loc cc0_stg1_1) ↦{fullShare} f)
      ∗ (∃ f : Buf (Elt F) ((c : Thread nD τ).loc cc0_stg2_0), ((c : Thread nD τ).loc cc0_stg2_0) ↦{fullShare} f)
      ∗ (∃ f : Buf (Elt F) ((c : Thread nD τ).loc cc0_stg2_1), ((c : Thread nD τ).loc cc0_stg2_1) ↦{fullShare} f)
      ∗ (∃ f : Buf (Elt F) ((c : Thread nD τ).loc cc0_stg3_0), ((c : Thread nD τ).loc cc0_stg3_0) ↦{fullShare} f)
      ∗ (∃ f : Buf (Elt F) ((c : Thread nD τ).loc cc0_stg4_0), ((c : Thread nD τ).loc cc0_stg4_0) ↦{fullShare} f)
      ∗ (∃ f : Buf (Elt F) ((c : Thread nD τ).loc cc0_stg4_1), ((c : Thread nD τ).loc cc0_stg4_1) ↦{fullShare} f)
      ∗ S)

/-- The scratch is taken out of the idle buffers' company and anything put back in its place. -/
theorem idleWith_swap (c : Dev nD) (S S' : sProp 𝕄) : idleWith c S ⊢ iprop(S ∗ (S' -∗ idleWith c S')) := by
  unfold idleWith
  iintro ⟨I1, I2, I3, I4, I5, I6, I7, I8, I9, HS⟩
  isplitl [HS]; · iexact HS
  iintro HS'
  isplitl [I1]; · iexact I1
  isplitl [I2]; · iexact I2
  isplitl [I3]; · iexact I3
  isplitl [I4]; · iexact I4
  isplitl [I5]; · iexact I5
  isplitl [I6]; · iexact I6
  isplitl [I7]; · iexact I7
  isplitl [I8]; · iexact I8
  isplitl [I9]; · iexact I9
  iexact HS'

/-- The scratch's named contents may be forgotten. -/
theorem idleWith_forget (c : Dev nD) (X : Vec F S1024x1024 .f32) :
    idleWith c (owns (c : Thread nD τ) scM fullShare X) ⊢ idleWith c iprop(∃ d, owns (c : Thread nD τ) scM fullShare d) := by
  have h := idleWith_swap (F := F) c (owns (c : Thread nD τ) scM fullShare X) iprop(∃ d, owns (c : Thread nD τ) scM fullShare d)
  refine h.trans ?_
  iintro ⟨HS, Hback⟩
  iapply Hback; iexists _; iexact HS

/-- The class's invariant (every scoped buffer that is no staging buffer of this region at some contents, the
    generator register at some state) with the scratch singled out. -/
theorem PhiA1_eq (c : Dev nD) :
    (Pipeline.ΦA spec1 c : sProp 𝕄) = iprop(idleWith c iprop(∃ d, owns (c : Thread nD τ) scM fullShare d) ∗ (∃ r, prngReg c r)) := by
  unfold Pipeline.ΦA idleWith; rw [scopedRest1_eq]; simp only [scM, owns_whole]; try rfl

/-- The region invariant before position `n`: before the first point the class's; afterwards the same with the
    accumulator at what the point before left. -/
def PhiAcc (c : Dev nD) : (n : ℕ) → n ≤ cfg1.N → sProp 𝕄
  | 0, _ => Pipeline.ΦA spec1 c
  | n + 1, hn => iprop(idleWith c (owns (c : Thread nD τ) scM fullShare (accAt V c n hn)) ∗ (∃ r, prngReg c r))

theorem PhiAcc_zero (c : Dev nD) (n : ℕ) (h : n ≤ cfg1.N) (hz : n = 0) : PhiAcc V c n h = Pipeline.ΦA spec1 c := by
  subst hz; rfl

theorem PhiAcc_succ (c : Dev nD) (n : ℕ) (hn : n < cfg1.N) :
    PhiAcc V c (n + 1) hn = iprop(idleWith c (owns (c : Thread nD τ) scM fullShare (accAt V c n hn)) ∗ (∃ r, prngReg c r)) := rfl

theorem PhiAcc_pos (c : Dev nD) (n : ℕ) (h : n ≤ cfg1.N) (hz : n ≠ 0) :
    PhiAcc V c n h = iprop(idleWith c (owns (c : Thread nD τ) scM fullShare (accAt V c (n - 1) (by omega))) ∗ (∃ r, prngReg c r)) := by
  cases n with
  | zero => exact absurd rfl hz
  | succ n => rfl

/-! ## The proof data -/

/-- Region 1's proof data on core `c`: the arrays as the region finds them; after the body at point `t` each
    input's buffer still at its block and the output's at the accumulator plus the bias row; the invariant the
    accumulator's contents; nothing owed; full shares. -/
def mmDat (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => blk1 V c 2 t
    | ⟨3, _⟩ => outAt V c t
  Φ t := PhiAcc V c t.val (Nat.le_of_lt_succ t.isLt)
  q _ := fullShare
  owed _ := 0

theorem mm_A (c : Dev nD) (w : Fin cfg1.W) : (mmDat V c).A w = V c (Pipeline.arrRef spec1 w) := by
  dsimp only [mmDat]

theorem mm_Phi_castSucc (c : Dev nD) (t : Fin cfg1.N) :
    (mmDat V c).Φ t.castSucc = PhiAcc V c t.val (Nat.le_of_lt t.isLt) := by
  dsimp only [mmDat]; simp only [Fin.coe_castSucc]

theorem mm_after0 (c : Dev nD) (t : Fin cfg1.N) : (mmDat V c).after 0 t = blk1 V c 0 t := by dsimp only [mmDat]
theorem mm_after1 (c : Dev nD) (t : Fin cfg1.N) : (mmDat V c).after 1 t = blk1 V c 1 t := by dsimp only [mmDat]
theorem mm_after2 (c : Dev nD) (t : Fin cfg1.N) : (mmDat V c).after 2 t = blk1 V c 2 t := by dsimp only [mmDat]
theorem mm_after3 (c : Dev nD) (t : Fin cfg1.N) : (mmDat V c).after 3 t = outAt V c t := by dsimp only [mmDat]

theorem mm_held0 (c : Dev nD) (t : Fin cfg1.N) (d) : (mmDat V c).before 0 t d = blk1 V c 0 t :=
  held1_0_of V (mmDat V c) (mm_A V c 0) (mm_after0 V c) t d
theorem mm_held1 (c : Dev nD) (t : Fin cfg1.N) (d) : (mmDat V c).before 1 t d = blk1 V c 1 t :=
  held1_1_of V (mmDat V c) (mm_A V c 1) (mm_after1 V c) t d
theorem mm_held2 (c : Dev nD) (t : Fin cfg1.N) (d) : (mmDat V c).before 2 t d = blk1 V c 2 t :=
  held1_2_of V (mmDat V c) (mm_A V c 2) (mm_after2 V c) t d

/-! ## The body obligation -/

/-- What the body is called with at point `t`, the windows one by one, -/
def mmPre (c : Dev nD) (t : Fin cfg1.N) : sProp 𝕄 :=
  iprop((mmDat V c).Φ t.castSucc ∗ (mmDat V c).owesAt () t.castSucc
    ∗ (∃ d, owns (c : Thread nD τ) (st1_0 t) fullShare ((mmDat V c).before 0 t d))
    ∗ (∃ d, owns (c : Thread nD τ) (st1_1 t) fullShare ((mmDat V c).before 1 t d))
    ∗ (∃ d, owns (c : Thread nD τ) (st1_2 t) fullShare ((mmDat V c).before 2 t d))
    ∗ (∃ d, owns (c : Thread nD τ) (st1_3 t) fullShare ((mmDat V c).before 3 t d)))

/-- and what it returns. -/
def mmPost (c : Dev nD) (t : Fin cfg1.N) : sProp 𝕄 :=
  iprop((mmDat V c).Φ t.succ ∗ (mmDat V c).owesAt () t.succ
    ∗ (mmDat V c).leavesExact 0 t
    ∗ (mmDat V c).leavesExact 1 t
    ∗ (mmDat V c).leavesExact 2 t
    ∗ (mmDat V c).leavesExact 3 t)

theorem mm_leaves0 (c : Dev nD) (t : Fin cfg1.N) :
    (mmDat V c).leavesExact 0 t = owns (c : Thread nD τ) (st1_0 t) fullShare (blk1 V c 0 t) := by
  unfold Dat.leavesExact; rw [in_live0 t, mm_after0]
theorem mm_leaves1 (c : Dev nD) (t : Fin cfg1.N) :
    (mmDat V c).leavesExact 1 t = owns (c : Thread nD τ) (st1_1 t) fullShare (blk1 V c 1 t) := by
  unfold Dat.leavesExact; rw [in_live1 t, mm_after1]
theorem mm_leaves2 (c : Dev nD) (t : Fin cfg1.N) :
    (mmDat V c).leavesExact 2 t = owns (c : Thread nD τ) (st1_2 t) fullShare (blk1 V c 2 t) := by
  unfold Dat.leavesExact; rw [in_live2 t, mm_after2]
theorem mm_leaves3_last (c : Dev nD) (t : Fin cfg1.N) (h : isLast (grid1.coords t)) :
    (mmDat V c).leavesExact 3 t = owns (c : Thread nD τ) (st1_3 t) fullShare (outAt V c t) := by
  unfold Dat.leavesExact; rw [out_live t h, mm_after3]

set_option maxHeartbeats 4000000 in
theorem mm_body (c : Dev nD) (t : Fin cfg1.N) :
    mmPre V c t ⊢ wp frame (wpE (defs₀ (F := F)) Variants.none c none) Set.univ (bodyAt1 t) (fun _ => mmPost V c t) := by
  unfold mmPre mmPost bodyAt1
  simp only [mm_held0, mm_held1, mm_held2]
  rw [show (mmDat V c).owesAt () t.succ = (mmDat V c).owesAt () t.castSucc from rfl]
  rw [show (mmDat V c).Φ t.succ = PhiAcc V c (t.val + 1) t.isLt from rfl, PhiAcc_succ]
  rw [mm_leaves0, mm_leaves1, mm_leaves2, mm_Phi_castSucc]
  have hN : t.val < 128 := lt_of_lt_of_eq t.isLt (show cfg1.N = 128 from N_1)
  by_cases hl : t.val % 4 = 3
  · -- the reduction ends here
    have hf : ¬t.val % 4 = 0 := by omega
    have hz : t.val ≠ 0 := by omega
    rw [mm_leaves3_last V c t ((isLast_iff t).mpr hl), PhiAcc_pos V c _ _ hz]
    unfold outAt
    rw [accAt_next V c t hf]
    iintro ⟨⟨HI, Hg⟩, Ho, ⟨%d0, H0⟩, ⟨%d1, H1⟩, ⟨%d2, H2⟩, ⟨%d3, H3⟩⟩
    ihave HI' := (idleWith_swap c _ (owns (c : Thread nD τ) scM fullShare
      (k1_pay2 (xblk V c t) (wblk V c t) (accAt V c (t.val - 1) (Nat.lt_of_le_of_lt (Nat.sub_le _ _) t.isLt))))) $$ HI
    icases HI' with ⟨HS, Hback⟩
    iapply (triple_last c Set.univ (grid1.coords t) _ _ _ _ _ _ _ _ _ _ (fun h => hf ((isFirst_iff t).mp h)) ((isLast_iff t).mpr hl)
      (xblk V c t) (wblk V c t) (bblk V c t) (accAt V c (t.val - 1) (Nat.lt_of_le_of_lt (Nat.sub_le _ _) t.isLt)) _)
    isplitl [H0]; · iexact H0
    isplitl [H1]; · iexact H1
    isplitl [H2]; · iexact H2
    isplitl [H3]; · iexists _; iexact H3
    isplitl [HS]; · iexact HS
    iintro ⟨H0, H1, H2, H3, HS⟩
    isplitl [HS Hback Hg]
    · isplitl [HS Hback]
      · iapply Hback; iexact HS
      iexact Hg
    isplitl [Ho]; · iexact Ho
    isplitl [H0]; · iexact H0
    isplitl [H1]; · iexact H1
    isplitl [H2]; · iexact H2
    iexact H3
  · -- the output's buffer is idle here and handed back as found
    have hnl : ¬isLast (grid1.coords t) := fun h => hl ((isLast_iff t).mp h)
    rw [Dat.leavesExact_idle (mmDat V c) 3 t (out_idle t hnl) (out_kept t hnl)]
    by_cases hf : t.val % 4 = 0
    · -- the reduction starts here
      rw [accAt_first V c t hf]
      by_cases hz : t.val = 0
      · rw [PhiAcc_zero V c _ _ hz, PhiA1_eq]
        iintro ⟨⟨HI, Hg⟩, Ho, ⟨%d0, H0⟩, ⟨%d1, H1⟩, ⟨%d2, H2⟩, ⟨%d3, H3⟩⟩
        ihave HI' := (idleWith_swap c _ (owns (c : Thread nD τ) scM fullShare
          (k1_pay2 (xblk V c t) (wblk V c t) (k1_pay1 (F := F))))) $$ HI
        icases HI' with ⟨HS, Hback⟩
        iapply (triple_first c Set.univ (grid1.coords t) _ _ _ _ _ _ _ _ _ _ ((isFirst_iff t).mpr hf) hnl
          (xblk V c t) (wblk V c t) _)
        isplitl [H0]; · iexact H0
        isplitl [H1]; · iexact H1
        isplitl [HS]; · iexact HS
        iintro ⟨H0, H1, HS⟩
        isplitl [HS Hback Hg]
        · isplitl [HS Hback]
          · iapply Hback; iexact HS
          iexact Hg
        isplitl [Ho]; · iexact Ho
        isplitl [H0]; · iexact H0
        isplitl [H1]; · iexact H1
        isplitl [H2]; · iexact H2
        iexists _; iexact H3
      · rw [PhiAcc_pos V c _ _ hz]
        iintro ⟨⟨HI, Hg⟩, Ho, ⟨%d0, H0⟩, ⟨%d1, H1⟩, ⟨%d2, H2⟩, ⟨%d3, H3⟩⟩
        ihave HI' := (idleWith_swap c _ (owns (c : Thread nD τ) scM fullShare
          (k1_pay2 (xblk V c t) (wblk V c t) (k1_pay1 (F := F))))) $$ HI
        icases HI' with ⟨HS, Hback⟩
        iapply (triple_first c Set.univ (grid1.coords t) _ _ _ _ _ _ _ _ _ _ ((isFirst_iff t).mpr hf) hnl
          (xblk V c t) (wblk V c t) _)
        isplitl [H0]; · iexact H0
        isplitl [H1]; · iexact H1
        isplitl [HS]; · iexists _; iexact HS
        iintro ⟨H0, H1, HS⟩
        isplitl [HS Hback Hg]
        · isplitl [HS Hback]
          · iapply Hback; iexact HS
          iexact Hg
        isplitl [Ho]; · iexact Ho
        isplitl [H0]; · iexact H0
        isplitl [H1]; · iexact H1
        isplitl [H2]; · iexact H2
        iexists _; iexact H3
    · -- the reduction goes on
      have hz : t.val ≠ 0 := fun h => hf (by rw [h])
      rw [accAt_next V c t hf, PhiAcc_pos V c _ _ hz]
      iintro ⟨⟨HI, Hg⟩, Ho, ⟨%d0, H0⟩, ⟨%d1, H1⟩, ⟨%d2, H2⟩, ⟨%d3, H3⟩⟩
      ihave HI' := (idleWith_swap c _ (owns (c : Thread nD τ) scM fullShare
        (k1_pay2 (xblk V c t) (wblk V c t) (accAt V c (t.val - 1) (Nat.lt_of_le_of_lt (Nat.sub_le _ _) t.isLt))))) $$ HI
      icases HI' with ⟨HS, Hback⟩
      iapply (triple_next c Set.univ (grid1.coords t) _ _ _ _ _ _ _ _ _ _ (fun h => hf ((isFirst_iff t).mp h)) hnl
        (xblk V c t) (wblk V c t) (accAt V c (t.val - 1) (Nat.lt_of_le_of_lt (Nat.sub_le _ _) t.isLt)) _)
      isplitl [H0]; · iexact H0
      isplitl [H1]; · iexact H1
      isplitl [HS]; · iexact HS
      iintro ⟨H0, H1, HS⟩
      isplitl [HS Hback Hg]
      · isplitl [HS Hback]
        · iapply Hback; iexact HS
        iexact Hg
      isplitl [Ho]; · iexact Ho
      isplitl [H0]; · iexact H0
      isplitl [H1]; · iexact H1
      isplitl [H2]; · iexact H2
      iexists _; iexact H3

/-- The library's body obligation, at every point. -/
theorem mm_obligation (c : Dev nD) : BodyObligation (mmDat (F := F) V c) (defs₀ (F := F)) Variants.none () Set.univ := fun t => by
  rw [bigSep_W1, bigSep_W1]
  exact mm_body V c t

/-! ## The invariant's two ends -/

/-- What the launch hands the region is the invariant before the first point. -/
theorem mm_in (c : Dev nD) : Pipeline.ΦA spec1 c ⊢ (mmDat V c).Φ 0 := by
  rw [show (mmDat V c).Φ 0 = PhiAcc V c 0 (Nat.zero_le _) from rfl, PhiAcc_zero V c 0 _ rfl]
  try exact Idealize.SL.BI.Entails.refl _

/-- After the last point the invariant gives the class's back: the accumulator's named contents are forgotten. -/
theorem mm_out (c : Dev nD) : (mmDat V c).Φ (Fin.last cfg1.N) ⊢ Pipeline.ΦA spec1 c := by
  have hN : cfg1.N = 128 := N_1
  rw [show (mmDat V c).Φ (Fin.last cfg1.N) = PhiAcc V c (Fin.last cfg1.N).val (Nat.le_of_lt_succ (Fin.last cfg1.N).isLt) from rfl,
    PhiAcc_pos V c _ _ (by rw [Fin.val_last]; omega), PhiA1_eq]
  iintro ⟨HI, Hg⟩
  isplitl [HI]
  · iapply (idleWith_forget c _); iexact HI
  iexact Hg

end Cert.Kernel.Hand

end
-- ==== Proof.RunBits.lean ====
/-
  The whole program's run, for any float instance: @main is the dequantization region, two host reshapes (the
  activations to 8192 × 4096, the bias to 1 × 4096), the matmul region, and one host reshape of the result back to
  4 × 2048 × 4096. Between two of these items every unscoped buffer of the core is held at contents named here, a
  fold from the launch memory: a host stretch applies its operations; a region leaves its arrays at what its
  write-backs fold to and every other buffer as it found it. The launch composes the four items; the last
  contents are read off the final state, which gives at once that the arguments end as launched and what the
  result buffer holds.
-/
import proofs.«114712_j11579231830187_1_alg».proof.Proof.Gen.Kernel.Launch
import proofs.«114712_j11579231830187_1_alg».proof.Proof.Gen.Kernel.Skeleton
import proofs.«114712_j11579231830187_1_alg».proof.Proof.Gen.Kernel.Points
import proofs.«114712_j11579231830187_1_alg».proof.Proof.DequantBodyBits
import proofs.«114712_j11579231830187_1_alg».proof.Proof.MatmulBodyBits
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary of @main -/

/-- Core `c`'s buffers at launch (the first region's entry). -/
abbrev B0 : Dev nD → Valuation τ sig (Elt F) := fun c b => m (c, b)
/-- The same read at the TensorCore's references: what the first region's proof data take. -/
abbrev E0 : (c : Dev nD) → (b : Ref sig .tc) → Buf (Elt F) ((c : Thread nD τ).loc b) := fun c b => B0 m c b
/-- At the first region's exit: its arrays at what the pipeline leaves, every other buffer as entered. -/
def B1 (c : Dev nD) : Valuation τ sig (Elt F) :=
  Pipeline.withArrays spec0 c (B0 m c) fun w => (dqDat (E0 m) c).arrAt w cfg0.N
theorem B1_arr (c : Dev nD) (w : Fin cfg0.W) :
    B1 m c (Proc.devRef .tc (Pipeline.arrRef spec0 w)) = (dqDat (E0 m) c).arrAt w cfg0.N := by
  unfold B1; exact Pipeline.withArrays_arr spec0 launch0.win.arr_inj c _ _ w
theorem B1_of_ne (c : Dev nD) (b : Ref sig .tc) (hb : ∀ w, Pipeline.arrRef spec0 w ≠ b) :
    B1 m c (Proc.devRef .tc b) = B0 m c (Proc.devRef .tc b) := by
  unfold B1; exact Pipeline.withArrays_of_ne spec0 c _ _ b hb
abbrev E1 : (c : Dev nD) → (b : Ref sig .tc) → Buf (Elt F) ((c : Thread nD τ).loc b) := fun c b => B1 m c b
theorem exit0_arr (c : Dev nD) (w : Fin cfg0.W) : (dqDat (E0 m) c).arrAt w cfg0.N = E1 m c (Pipeline.arrRef spec0 w) :=
  (B1_arr m c w).symm
theorem exit0_rest (c : Dev nD) : ∀ b, b ∉ Finset.univ.image (Pipeline.arrRef spec0) → E1 m c b = E0 m c b :=
  fun b hb => B1_of_ne m c b fun w e => hb (Finset.mem_image.mpr ⟨w, Finset.mem_univ _, e⟩)

/-- After the two reshapes (the second region's entry). -/
abbrev B2 : Dev nD → Valuation τ sig (Elt F) := fun c => StableHlo.after hostOps1 (B1 m c)
abbrev E2 : (c : Dev nD) → (b : Ref sig .tc) → Buf (Elt F) ((c : Thread nD τ).loc b) := fun c b => B2 m c b
/-- At the second region's exit. -/
def B3 (c : Dev nD) : Valuation τ sig (Elt F) :=
  Pipeline.withArrays spec1 c (B2 m c) fun w => (mmDat (E2 m) c).arrAt w cfg1.N
theorem B3_arr (c : Dev nD) (w : Fin cfg1.W) :
    B3 m c (Proc.devRef .tc (Pipeline.arrRef spec1 w)) = (mmDat (E2 m) c).arrAt w cfg1.N := by
  unfold B3; exact Pipeline.withArrays_arr spec1 launch1.win.arr_inj c _ _ w
theorem B3_of_ne (c : Dev nD) (b : Ref sig .tc) (hb : ∀ w, Pipeline.arrRef spec1 w ≠ b) :
    B3 m c (Proc.devRef .tc b) = B2 m c (Proc.devRef .tc b) := by
  unfold B3; exact Pipeline.withArrays_of_ne spec1 c _ _ b hb
abbrev E3 : (c : Dev nD) → (b : Ref sig .tc) → Buf (Elt F) ((c : Thread nD τ).loc b) := fun c b => B3 m c b
theorem exit1_arr (c : Dev nD) (w : Fin cfg1.W) : (mmDat (E2 m) c).arrAt w cfg1.N = E3 m c (Pipeline.arrRef spec1 w) :=
  (B3_arr m c w).symm
theorem exit1_rest (c : Dev nD) : ∀ b, b ∉ Finset.univ.image (Pipeline.arrRef spec1) → E3 m c b = E2 m c b :=
  fun b hb => B3_of_ne m c b fun w e => hb (Finset.mem_image.mpr ⟨w, Finset.mem_univ _, e⟩)

/-- After the last reshape: the contents @main returns with. -/
abbrev B4 : Dev nD → Valuation τ sig (Elt F) := fun c => StableHlo.after hostOps2 (B3 m c)

/-! ## The arguments end as launched -/

/-- `main_arg0` ends as launched: no host operation writes it and no region may change it. -/
theorem B4_main_arg0 (c : Dev nD) : B4 m c (Proc.devRef .tc main_arg0) = m ((c : Thread nD τ).loc main_arg0) :=
  calc B4 m c (Proc.devRef .tc main_arg0)
    _ = B3 m c (Proc.devRef .tc main_arg0) := StableHlo.after_of_forall_not_mem (b := Proc.devRef .tc main_arg0) _ _ (List.forall_iff_forall_mem.mp (by
          simp only [hostOps2, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = B2 m c (Proc.devRef .tc main_arg0) := B3_of_ne m c main_arg0 (by decide)
    _ = B1 m c (Proc.devRef .tc main_arg0) := StableHlo.after_of_forall_not_mem (b := Proc.devRef .tc main_arg0) _ _ (List.forall_iff_forall_mem.mp (by
          simp only [hostOps1, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = B0 m c (Proc.devRef .tc main_arg0) := B1_of_ne m c main_arg0 (by decide)
    _ = m ((c : Thread nD τ).loc main_arg0) := rfl
/-- `main_arg1` ends as launched: no host operation writes it and no region may change it. -/
theorem B4_main_arg1 (c : Dev nD) : B4 m c (Proc.devRef .tc main_arg1) = m ((c : Thread nD τ).loc main_arg1) :=
  calc B4 m c (Proc.devRef .tc main_arg1)
    _ = B3 m c (Proc.devRef .tc main_arg1) := StableHlo.after_of_forall_not_mem (b := Proc.devRef .tc main_arg1) _ _ (List.forall_iff_forall_mem.mp (by
          simp only [hostOps2, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = B2 m c (Proc.devRef .tc main_arg1) := B3_of_ne m c main_arg1 (by decide)
    _ = B1 m c (Proc.devRef .tc main_arg1) := StableHlo.after_of_forall_not_mem (b := Proc.devRef .tc main_arg1) _ _ (List.forall_iff_forall_mem.mp (by
          simp only [hostOps1, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = B0 m c (Proc.devRef .tc main_arg1) := (B1_arr m c 0).trans (((dqDat (E0 m) c).arrAt_in 0 rfl _).trans (dq_A (E0 m) c 0))
    _ = m ((c : Thread nD τ).loc main_arg1) := rfl
/-- `main_arg2` ends as launched: no host operation writes it and no region may change it. -/
theorem B4_main_arg2 (c : Dev nD) : B4 m c (Proc.devRef .tc main_arg2) = m ((c : Thread nD τ).loc main_arg2) :=
  calc B4 m c (Proc.devRef .tc main_arg2)
    _ = B3 m c (Proc.devRef .tc main_arg2) := StableHlo.after_of_forall_not_mem (b := Proc.devRef .tc main_arg2) _ _ (List.forall_iff_forall_mem.mp (by
          simp only [hostOps2, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = B2 m c (Proc.devRef .tc main_arg2) := B3_of_ne m c main_arg2 (by decide)
    _ = B1 m c (Proc.devRef .tc main_arg2) := StableHlo.after_of_forall_not_mem (b := Proc.devRef .tc main_arg2) _ _ (List.forall_iff_forall_mem.mp (by
          simp only [hostOps1, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = B0 m c (Proc.devRef .tc main_arg2) := (B1_arr m c 1).trans (((dqDat (E0 m) c).arrAt_in 1 rfl _).trans (dq_A (E0 m) c 1))
    _ = m ((c : Thread nD τ).loc main_arg2) := rfl
/-- `main_arg3` ends as launched: no host operation writes it and no region may change it. -/
theorem B4_main_arg3 (c : Dev nD) : B4 m c (Proc.devRef .tc main_arg3) = m ((c : Thread nD τ).loc main_arg3) :=
  calc B4 m c (Proc.devRef .tc main_arg3)
    _ = B3 m c (Proc.devRef .tc main_arg3) := StableHlo.after_of_forall_not_mem (b := Proc.devRef .tc main_arg3) _ _ (List.forall_iff_forall_mem.mp (by
          simp only [hostOps2, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = B2 m c (Proc.devRef .tc main_arg3) := B3_of_ne m c main_arg3 (by decide)
    _ = B1 m c (Proc.devRef .tc main_arg3) := StableHlo.after_of_forall_not_mem (b := Proc.devRef .tc main_arg3) _ _ (List.forall_iff_forall_mem.mp (by
          simp only [hostOps1, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = B0 m c (Proc.devRef .tc main_arg3) := (B1_arr m c 2).trans (((dqDat (E0 m) c).arrAt_in 2 rfl _).trans (dq_A (E0 m) c 2))
    _ = m ((c : Thread nD τ).loc main_arg3) := rfl
/-- `main_arg4` ends as launched: no host operation writes it and no region may change it. -/
theorem B4_main_arg4 (c : Dev nD) : B4 m c (Proc.devRef .tc main_arg4) = m ((c : Thread nD τ).loc main_arg4) :=
  calc B4 m c (Proc.devRef .tc main_arg4)
    _ = B3 m c (Proc.devRef .tc main_arg4) := StableHlo.after_of_forall_not_mem (b := Proc.devRef .tc main_arg4) _ _ (List.forall_iff_forall_mem.mp (by
          simp only [hostOps2, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = B2 m c (Proc.devRef .tc main_arg4) := B3_of_ne m c main_arg4 (by decide)
    _ = B1 m c (Proc.devRef .tc main_arg4) := StableHlo.after_of_forall_not_mem (b := Proc.devRef .tc main_arg4) _ _ (List.forall_iff_forall_mem.mp (by
          simp only [hostOps1, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = B0 m c (Proc.devRef .tc main_arg4) := (B1_arr m c 3).trans (((dqDat (E0 m) c).arrAt_in 3 rfl _).trans (dq_A (E0 m) c 3))
    _ = m ((c : Thread nD τ).loc main_arg4) := rfl
/-- `main_arg5` ends as launched: no host operation writes it and no region may change it. -/
theorem B4_main_arg5 (c : Dev nD) : B4 m c (Proc.devRef .tc main_arg5) = m ((c : Thread nD τ).loc main_arg5) :=
  calc B4 m c (Proc.devRef .tc main_arg5)
    _ = B3 m c (Proc.devRef .tc main_arg5) := StableHlo.after_of_forall_not_mem (b := Proc.devRef .tc main_arg5) _ _ (List.forall_iff_forall_mem.mp (by
          simp only [hostOps2, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = B2 m c (Proc.devRef .tc main_arg5) := B3_of_ne m c main_arg5 (by decide)
    _ = B1 m c (Proc.devRef .tc main_arg5) := StableHlo.after_of_forall_not_mem (b := Proc.devRef .tc main_arg5) _ _ (List.forall_iff_forall_mem.mp (by
          simp only [hostOps1, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = B0 m c (Proc.devRef .tc main_arg5) := B1_of_ne m c main_arg5 (by decide)
    _ = m ((c : Thread nD τ).loc main_arg5) := rfl

/-! ## The proof data family and what rides beside the buffers -/

/-- No pallas_call has a prefetched table. -/
abbrev adm : (p : Fin 2) → (pcfgs (F := F) p).Adm := fun p => (cfgs p).toPCfg_adm
/-- Both pipelines' proof data, each at its region's entry contents. -/
def pdats : (p : Fin 2) → (c : Dev nD) → Dat τ (Elt F) Unit ℕ (UR sig nD τ) ℕ (Pipeline.pin (pcfgs (F := F)) adm p) c
  | ⟨0, _⟩ => fun c => dqDat (E0 m) c
  | ⟨1, _⟩ => fun c => mmDat (E2 m) c
abbrev 𝒱₀ : Variants := Variants.none
/-- No core owes another anything: no level is assigned. -/
abbrev L : GSem nD τ sig → Finset Unit := fun _ => ∅
abbrev lv : GSem nD τ sig → Unit → ℕ := fun _ _ => 0
/-- Beside the buffers, through every item: the generator register at some state and the core owing nothing. -/
abbrev Beside (c : Dev nD) : sProp 𝕄 := iprop((∃ r, prngReg c r) ∗ ∃ W, owes (c : Thread nD τ) (0 : CellTallies nD τ sig Unit) W)

/-- A host stretch as a segment over every unscoped buffer, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Beside

theorem hostOps1_fresh : (hostOps1 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The last thread state without the `owes`. -/
abbrev Tₙ (c : Dev nD) : sProp 𝕄 := iprop(StableHlo.held (c : Thread nD τ) (Pipeline.ucRefs τ sig) (B4 m c) ∗ ∃ r, prngReg c r)

/-! ## The two regions as segments -/

set_option backward.isDefEq.respectTransparency.types false in
/-- The dequantization region: entered with every unscoped buffer at the launch contents, left with its output
    array at what the write-backs leave. Its arrays are split out of the unscoped buffers and put back; the
    generator register goes into the invariant and comes out; nothing is owed. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (dq_obligation (E0 m) c).loose
  hwaits := Pipeline.hwaits_of_owed_zero _ _ _ _ L lv 0 fun _ _ => rfl
  pre c := iprop(StableHlo.held (c : Thread nD τ) (Pipeline.ucRefs τ sig) (B0 m c) ∗ Beside c)
  post c := iprop(StableHlo.held (c : Thread nD τ) (Pipeline.ucRefs τ sig) (B1 m c) ∗ Beside c)
  X c := iprop(∃ r, prngReg c r)
  Y c := iprop(∃ r, prngReg c r)
  Z c := Pipeline.unscopedRest (Ix := Unit) (Name := ℕ) (U := UR sig nD τ) (Lvl := ℕ) spec0 c (E0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E0 m c) (E1 m c) ((pdats m 0 c).arrAt · cfg0.N) (exit0_arr m c) (exit0_rest m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The matmul region: entered with every unscoped buffer at the contents after the two reshapes, left with its
    output array at what the write-backs leave. The invariant starts as the class's and ends as it
    (the accumulator's contents forgotten). -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (mm_obligation (E2 m) c).loose
  hwaits := Pipeline.hwaits_of_owed_zero _ _ _ _ L lv 1 fun _ _ => rfl
  pre c := iprop(StableHlo.held (c : Thread nD τ) (Pipeline.ucRefs τ sig) (B2 m c) ∗ Beside c)
  post c := iprop(StableHlo.held (c : Thread nD τ) (Pipeline.ucRefs τ sig) (B3 m c) ∗ Beside c)
  X c := iprop(∃ r, prngReg c r)
  Y c := iprop(∃ r, prngReg c r)
  Z c := Pipeline.unscopedRest (Ix := Unit) (Name := ℕ) (U := UR sig nD τ) (Lvl := ℕ) spec1 c (E2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (E2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none]
    have hgive : (Pipeline.ΦA spec1 c : sProp 𝕄) ⊢ iprop((∃ r, prngReg c r) ∗ BI.emp ∗ Pipeline.scopedRest spec1 c) := by
      unfold Pipeline.ΦA
      iintro ⟨Hr, Hp⟩
      isplitl [Hp]; · iexact Hp
      isplitr; · iempintro
      iexact Hr
    exact (mm_out (E2 m) c).trans hgive
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E2 m c) (E3 m c) ((pdats m 1 c).arrAt · cfg1.N) (exit1_arr m c) (exit1_rest m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as four segments, and the launch -/

abbrev segs : List (Pipeline.Seg (pcfgs (F := F)) adm (pdats m) () defs₀ 𝒱₀ L lv) :=
  [ .region (reg0 m),
    .host (hseg hostOps1 hostOps1_sub hostOps1_fresh (B1 m)),
    .region (reg1 m),
    .host (hseg hostOps2 hostOps2_sub hostOps2_fresh (B3 m)) ]

theorem main_run (c : Dev nD) : main (F := F) c = Pipeline.Seg.run (segs m) := (main_chain c).trans (by chain_rfl)

set_option backward.isDefEq.respectTransparency.types false in
/-- THE RUN. From any memory with zero counters every weakly fair execution of @main terminates, nothing
    faulting, and every unscoped buffer of every core ends at the last boundary's contents. -/
theorem run : θ_run defs (onTc (τ := τ) (main (F := F))) ⟨m, fun _ => 0, ρ⟩ (fun r => ∀ c : Dev nD,
      ∀ b ∈ Pipeline.ucRefs τ sig, r.2.mem (((c : Thread nD τ)).1, b) = B4 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m c) ∗ Beside c)) (Tₙ := Tₙ m)
    (hch := ⟨fun _ => .rfl, fun _ => .rfl, fun _ => .rfl, fun _ => .rfl, fun c => by
      show iprop(StableHlo.held (c : Thread nD τ) (Pipeline.ucRefs τ sig) (B4 m c) ∗ Beside c)
        ⊢ iprop(Tₙ m c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (B0 m c)
        from Pipeline.unscopedBufs_held c (B0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B4 m c b)
    (hfin := fun c s' => by
      iintro ⟨⟨Hh, -⟩, HSI⟩
      unfold StableHlo.held
      imodintro
      iapply (pointsTo_read_all (Pipeline.ucRefs τ sig) (fun b => (((c : Thread nD τ)).1, b)) (B4 m c) s')
      isplitl [Hh] <;> iassumption)
    (hQ := fun s h c => h c)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨(h c _ (mem_uc main_arg0 (by decide))).trans (B4_main_arg0 m c),
     (h c _ (mem_uc main_arg1 (by decide))).trans (B4_main_arg1 m c),
     (h c _ (mem_uc main_arg2 (by decide))).trans (B4_main_arg2 m c),
     (h c _ (mem_uc main_arg3 (by decide))).trans (B4_main_arg3 m c),
     (h c _ (mem_uc main_arg4 (by decide))).trans (B4_main_arg4 m c),
     (h c _ (mem_uc main_arg5 (by decide))).trans (B4_main_arg5 m c)⟩) (run m ρ)

end Cert.Kernel.Hand

end
-- ==== Proof.Spec.lean ====
/-
  The mathematics both programs compute, over the extended reals, stated once over literal shapes.

  A quantized linear layer: the weight is a 4-bit code matrix `q` (signed by the zero point 8), scaled per
  output row and per group of 128 input columns by `sc`, plus a rank-32 correction `U · Vm`:

      weight o i = (q[o, i] − 8) · sc[o, i / 128] + Σ_{r < 32} U[o, r] · Vm[r, i]

  and the layer is `x · weightᵀ + bias`:

      result b s o = Σ_{i < 4096} x[b, s, i] · weight o i + bias[o].

  The integer-to-float conversion and the literal 8.0 are kept as the float interface's own terms, the same
  on both sides, so neither is ever evaluated.
-/
import Idealize.ShloMosaic.PureOps.Ideal
import Idealize.ShloMosaic.Lib.ValueIdx

noncomputable section

open scoped BigOperators

namespace Cert.Spec

open Idealize.ShloMosaic Idealize.ShloMosaic.ValueIdx

/-- The group of 128 input columns that column `i` lies in. -/
def grp (i : Fin 4096) : Fin 32 := ⟨i.val / 128, by have := i.isLt; omega⟩

/-- Entry `(o, i)` of the dequantized weight with its low-rank correction. -/
def weight (q : Vec Ideal ⟨2, ![4096, 4096]⟩ .i32) (sc U : FVec Ideal ⟨2, ![4096, 32]⟩ .f32)
    (Vm : FVec Ideal ⟨2, ![32, 4096]⟩ .f32) (o i : Fin 4096) : EReal :=
  (FloatOps.sitofp (F := Ideal) .f32 (q (ix2 o i)) - FloatOps.ofBits (F := Ideal) .f32 0x41000000#32) * sc (ix2 o (grp i))
    + ∑ r : Fin 32, U (ix2 o r) * Vm (ix2 r i)

/-- Entry `(b, s, o)` of the layer's output. -/
def result (x : FVec Ideal ⟨3, ![4, 2048, 4096]⟩ .f32) (q : Vec Ideal ⟨2, ![4096, 4096]⟩ .i32)
    (sc U : FVec Ideal ⟨2, ![4096, 32]⟩ .f32) (Vm : FVec Ideal ⟨2, ![32, 4096]⟩ .f32)
    (bias : FVec Ideal ⟨1, ![4096]⟩ .f32) (b : Fin 4) (s : Fin 2048) (o : Fin 4096) : EReal :=
  (∑ i : Fin 4096, x (ix3 b s i) * weight q sc U Vm o i) + bias (ix1 o)

/-- The whole output array. -/
def G (x : FVec Ideal ⟨3, ![4, 2048, 4096]⟩ .f32) (q : Vec Ideal ⟨2, ![4096, 4096]⟩ .i32)
    (sc U : FVec Ideal ⟨2, ![4096, 32]⟩ .f32) (Vm : FVec Ideal ⟨2, ![32, 4096]⟩ .f32)
    (bias : FVec Ideal ⟨1, ![4096]⟩ .f32) : FVec Ideal ⟨3, ![4, 2048, 4096]⟩ .f32 :=
  fun j => result x q sc U Vm bias (j 0) (j 1) (j 2)

/-- The weight as a whole array. -/
def Wt (q : Vec Ideal ⟨2, ![4096, 4096]⟩ .i32) (sc U : FVec Ideal ⟨2, ![4096, 32]⟩ .f32)
    (Vm : FVec Ideal ⟨2, ![32, 4096]⟩ .f32) : FVec Ideal ⟨2, ![4096, 4096]⟩ .f32 :=
  fun j => weight q sc U Vm (j 0) (j 1)

end Cert.Spec

end
-- ==== Proof.RefValue.lean ====
/-
  The reference's result, read index by index, is the specification.

  The reference dequantizes the 4-bit codes as a [4096, 32, 128] array (row, group of 128 columns, column
  inside the group), multiplies by the per-row, per-group scale, flattens back to [4096, 4096], adds the
  rank-32 correction, contracts with the activations over the 4096 input columns and adds the bias.

  Read at one output element (b, s, o) this is a sum over the input column i of x[b, s, i] times the
  weight entry (o, i). The only arithmetic in the identification is on indices: the flat position
  o * 4096 + i of the pair (o, i) has row o, group i / 128 and offset i % 128 in the three-axis
  arrangement, and unflattening that triple gives (o, i) back. Everything else is the same term on both
  sides: the integer-to-float conversion of the code and the literal 8.0 are never evaluated.
-/
import proofs.«114712_j11579231830187_1_alg».proof.Proof.Gen.ReferenceIdeal.Read
import proofs.«114712_j11579231830187_1_alg».proof.Proof.Spec
import Idealize.ShloMosaic.PureOps.Ideal
import Idealize.ShloMosaic.Lib.ValueIdx
import Mathlib.Algebra.BigOperators.Group.Finset.Basic

noncomputable section

open scoped BigOperators

namespace Cert.ReferenceIdeal.RefValue

open Cert.ReferenceIdeal Idealize.ShloMosaic Idealize.ShloMosaic.ValueIdx

/-! ## The composed index maps, at explicit coordinates -/

/-- Flattening the pair (o, i) to o * 4096 + i, reading it as (row, group, offset) and flattening that
    triple again returns the pair: the two reshapes of the dequantization undo each other. -/
theorem unflatten_flatten (o i : Fin 4096) :
    Read.idx_main_v3 (Read.idx_main_v7 (ix2 o i)) = ix2 o i := by
  have ho := o.isLt
  have hi := i.isLt
  funext a
  match a with
  | ⟨0, _⟩ =>
    refine Fin.ext ?_
    show (((o.val * 4096 + i.val) / 4096 * 32 + (o.val * 4096 + i.val) / 128 % 32) * 128
      + (o.val * 4096 + i.val) % 128) / 4096 = o.val
    omega
  | ⟨1, _⟩ =>
    refine Fin.ext ?_
    show (((o.val * 4096 + i.val) / 4096 * 32 + (o.val * 4096 + i.val) / 128 % 32) * 128
      + (o.val * 4096 + i.val) % 128) % 4096 = i.val
    omega

/-- The scale that multiplies the entry (o, i) is the one of row o and of the group i / 128: the flat
    position o * 4096 + i has row (o * 4096 + i) / 4096 = o and group (o * 4096 + i) / 128 % 32 = i / 128,
    and the two broadcasts drop the offset inside the group. -/
theorem scale_index (o i : Fin 4096) :
    Read.idx_main_v4 (Read.idx_main_v5 (Read.idx_main_v7 (ix2 o i))) = ix2 o (Cert.Spec.grp i) := by
  have ho := o.isLt
  have hi := i.isLt
  funext a
  match a with
  | ⟨0, _⟩ =>
    refine Fin.ext ?_
    show (o.val * 4096 + i.val) / 4096 = o.val
    omega
  | ⟨1, _⟩ =>
    refine Fin.ext ?_
    show (o.val * 4096 + i.val) / 128 % 32 = i.val / 128
    omega

/-- The correction's left factor at (o, i), term r: row o, column r. -/
theorem corr_left (o i : Fin 4096) (r : Fin 32) : Read.lidx_main_v8 (ix2 o i) r = ix2 o r := by
  funext a
  match a with
  | ⟨0, _⟩ => rfl
  | ⟨1, _⟩ => rfl

/-- The correction's right factor at (o, i), term r: row r, column i. -/
theorem corr_right (o i : Fin 4096) (r : Fin 32) : Read.ridx_main_v8 (ix2 o i) r = ix2 r i := by
  funext a
  match a with
  | ⟨0, _⟩ => rfl
  | ⟨1, _⟩ => rfl

/-- The layer's left factor at (b, s, o), term i: the activation (b, s, i). -/
theorem layer_left (b : Fin 4) (s : Fin 2048) (o i : Fin 4096) :
    Read.lidx_main_v10 (ix3 b s o) i = ix3 b s i := by
  funext a
  match a with
  | ⟨0, _⟩ => rfl
  | ⟨1, _⟩ => rfl
  | ⟨2, _⟩ => rfl

/-- The layer's right factor at (b, s, o), term i: the weight entry (o, i) (the contraction is with
    the weight's second axis, so the weight is read transposed). -/
theorem layer_right (b : Fin 4) (s : Fin 2048) (o i : Fin 4096) :
    Read.ridx_main_v10 (ix3 b s o) i = ix2 o i := by
  funext a
  match a with
  | ⟨0, _⟩ => rfl
  | ⟨1, _⟩ => rfl

/-- The bias added at (b, s, o) is the one of output column o. -/
theorem bias_index (b : Fin 4) (s : Fin 2048) (o : Fin 4096) :
    Read.idx_main_v11 (Read.idx_main_v12 (ix3 b s o)) = ix1 o := by
  funext a
  match a with
  | ⟨0, _⟩ => rfl

/-! ## The weight, then the layer -/

/-- The array the reference contracts the activations with is the specification's weight, entry by entry:
    (code − 8) times the scale of the entry's row and group, plus the rank-32 correction. -/
theorem weight_at (x1 : (⟨S4096x4096, .i32⟩ : BufTy).Contents (Elt Ideal))
    (x2 x3 : (⟨S4096x32, .f32⟩ : BufTy).Contents (Elt Ideal)) (x4 : (⟨S32x4096, .f32⟩ : BufTy).Contents (Elt Ideal))
    (o i : Fin 4096) :
    Read.val_main_v9 (F := Ideal) x1 x2 x3 x4 (ix2 o i) = Cert.Spec.weight x1 x2 x3 x4 o i := by
  rw [Read.val_main_v9_apply, Read.val_main_v7_apply, Read.val_main_v6_apply, Read.val_main_v3_apply,
    Read.val_main_v2_apply, Read.val_main_v0_apply, Read.val_main_v1_apply, Read.val_main_cst_apply,
    Read.val_main_v5_apply, Read.val_main_v4_apply, Read.val_main_v8_apply,
    unflatten_flatten, scale_index, Ideal.addf_def, Ideal.mulf_def, Ideal.subf_def]
  unfold Cert.Spec.weight
  refine congrArg _ (Finset.sum_congr rfl fun r _ => ?_)
  rw [corr_left, corr_right]

theorem ref_is_G (x0 : (⟨S4x2048x4096, .f32⟩ : BufTy).Contents (Elt Ideal)) (x1 : (⟨S4096x4096, .i32⟩ : BufTy).Contents (Elt Ideal))
    (x2 x3 : (⟨S4096x32, .f32⟩ : BufTy).Contents (Elt Ideal)) (x4 : (⟨S32x4096, .f32⟩ : BufTy).Contents (Elt Ideal))
    (x5 : (⟨S4096, .f32⟩ : BufTy).Contents (Elt Ideal)) :
    Cert.ReferenceIdeal.Read.val_main_v13 (F := Ideal) x0 x1 x2 x3 x4 x5 = Cert.Spec.G x0 x1 x2 x3 x4 x5 := by
  funext j
  obtain ⟨b, s, o, rfl⟩ : ∃ (b : Fin 4) (s : Fin 2048) (o : Fin 4096), j = ix3 b s o :=
    ⟨j 0, j 1, j 2, eq_ix3 j⟩
  rw [Read.val_main_v13_apply, Read.val_main_v10_apply, Read.val_main_v12_apply, Read.val_main_v11_apply,
    bias_index, Ideal.addf_def]
  show _ = Cert.Spec.result x0 x1 x2 x3 x4 x5 b s o
  unfold Cert.Spec.result
  refine congrArg (· + _) (Finset.sum_congr rfl fun i _ => ?_)
  rw [layer_left, layer_right, weight_at]

end Cert.ReferenceIdeal.RefValue

end
-- ==== Proof.PayValue.lean ====
/-
  The four payloads of the quantized linear layer's two kernels, each read at one index, over the extended reals.

  The dequantization kernel writes, at row `p` and column `i` of its block,
      (q[p, i] − 8) · sc[p, i / 128] + Σ_{r < 32} U[p, r] · Vm[r, i],
  where the scale is applied by viewing the row of 4096 columns as 32 groups of 128 lanes: column `i` is lane
  `i % 128` of group `i / 128`, and that view and its inverse keep the row-major position. The product kernel
  clears its accumulator, adds to it at each step the product of a block of the activations with a block of the
  weight, both contracted along their second axis (the weight is stored output-row by input-column), and at the last
  step adds the bias row, broadcast down the rows.

  Every format change is the identity on extended reals, so none is left in the right-hand sides.
-/
import proofs.«114712_j11579231830187_1_alg».proof.Proof.Gen.KernelIdeal.Skeleton
import proofs.«114712_j11579231830187_1_alg».proof.Proof.Spec
import Idealize.ShloMosaic.Lib.Pipeline.Value
import Idealize.ShloMosaic.Lib.ValueIdx
import Idealize.ShloMosaic.PureOps.Ideal.Laws

noncomputable section

open scoped BigOperators

namespace Cert.KernelIdeal.PayValue

open Cert.KernelIdeal Cert.KernelIdeal.Gen Idealize.ShloMosaic Idealize.ShloMosaic.ValueIdx

/-! ## Columns as groups of lanes -/

/-- The lane of column `i` inside its group of 128. -/
def lane (i : Fin 4096) : Fin 128 := ⟨i.val % 128, Nat.mod_lt _ (by decide)⟩

section Layout
variable {α : Type}

/-- The row of 4096 columns viewed as 32 groups of 128 lanes: lane `i % 128` of group `i / 128` is column `i`,
    because `p · 4096 + i = (p · 32 + i / 128) · 128 + i % 128`. -/
theorem groups_view_apply (x : S128x4096.Idx → α) (h : S128x4096.ShapeCasts S128x32x128) (p : Fin 128) (i : Fin 4096) :
    shapeCast S128x32x128 x h (ix3 p (Cert.Spec.grp i) (lane i)) = x (ix2 p i) :=
  shapeCast_apply x h (ix3 p (Cert.Spec.grp i) (lane i)) (ix2 p i) (by
    rw [Shape.rowMajor_val_two, Shape.rowMajor_val_three]
    show p.val * 4096 + i.val = (p.val * 32 + i.val / 128) * 128 + i.val % 128
    omega)

/-- The inverse view: column `i` of the flat row is lane `i % 128` of group `i / 128`. -/
theorem flat_view_apply (x : S128x32x128.Idx → α) (h : S128x32x128.ShapeCasts S128x4096) (p : Fin 128) (i : Fin 4096) :
    shapeCast S128x4096 x h (ix2 p i) = x (ix3 p (Cert.Spec.grp i) (lane i)) :=
  shapeCast_apply x h (ix2 p i) (ix3 p (Cert.Spec.grp i) (lane i)) (by
    rw [Shape.rowMajor_val_two, Shape.rowMajor_val_three]
    show (p.val * 32 + i.val / 128) * 128 + i.val % 128 = p.val * 4096 + i.val
    omega)

/-- The per-group scales given a trailing axis of one lane: the same entry, `(p · 32 + g) · 1 + 0 = p · 32 + g`. -/
theorem unit_lane_apply (x : S128x32.Idx → α) (h : S128x32.ShapeCasts S128x32x1) (p : Fin 128) (g : Fin 32) :
    shapeCast S128x32x1 x h (ix3 p g (0 : Fin 1)) = x (ix2 p g) :=
  shapeCast_apply x h (ix3 p g (0 : Fin 1)) (ix2 p g) (by
    rw [Shape.rowMajor_val_two, Shape.rowMajor_val_three]
    show p.val * 32 + g.val = (p.val * 32 + g.val) * 1 + 0
    omega)

/-- A scale with one lane, repeated along the 128 lanes of its group. -/
theorem lanes_bcast_apply (x : S128x32x1.Idx → α) (h : S128x32x1.Broadcasts S128x32x128) (p : Fin 128) (g : Fin 32) (l : Fin 128) :
    broadcastTo S128x32x128 x h (ix3 p g l) = x (ix3 p g (0 : Fin 1)) :=
  broadcastTo_apply x h (ix3 p g l) (ix3 p g (0 : Fin 1)) (fun a => match a with
    | ⟨0, _⟩ => by show p.val = if (128 : Nat) = 1 then 0 else p.val; rw [if_neg (by decide)]
    | ⟨1, _⟩ => by show g.val = if (32 : Nat) = 1 then 0 else g.val; rw [if_neg (by decide)]
    | ⟨2, _⟩ => by show 0 = if (1 : Nat) = 1 then 0 else l.val; rw [if_pos rfl])

/-- The bias row repeated down the 1024 rows of a block. -/
theorem rows_bcast_apply (x : S1x1024.Idx → α) (h : S1x1024.Broadcasts S1024x1024) (p q : Fin 1024) :
    broadcastTo S1024x1024 x h (ix2 p q) = x (ix2 (0 : Fin 1) q) :=
  broadcastTo_apply x h (ix2 p q) (ix2 (0 : Fin 1) q) (fun a => match a with
    | ⟨0, _⟩ => by show 0 = if (1 : Nat) = 1 then 0 else p.val; rw [if_pos rfl]
    | ⟨1, _⟩ => by show q.val = if (1024 : Nat) = 1 then 0 else q.val; rw [if_neg (by decide)])

end Layout

/-! ## The low-rank correction's product: rows of `U` against columns of `Vm`

The kernel's first product contracts axis 1 of the left operand with axis 0 of the right one. Each operand index at an
output index and a contraction position is read one axis at a time. -/

theorem lowrank_lhs_0 (j : S128x4096.Idx) (c : dot_S128x32_S32x4096_S128x4096_1_0_0_1_n_n.contr.Idx) :
    (dot_S128x32_S32x4096_S128x4096_1_0_0_1_n_n.lhsIdx j c 0).val = (j 0).val := by
  unfold DotDims.lhsIdx
  rw [dif_neg (show ¬(0 : Fin S128x32.rank) ∈ dot_S128x32_S32x4096_S128x4096_1_0_0_1_n_n.lhsBatch by decide), dif_pos (show (0 : Fin S128x32.rank) ∈ dot_S128x32_S32x4096_S128x4096_1_0_0_1_n_n.lhsNonContracting by decide)]
  rfl
theorem lowrank_lhs_1 (j : S128x4096.Idx) (c : dot_S128x32_S32x4096_S128x4096_1_0_0_1_n_n.contr.Idx) :
    (dot_S128x32_S32x4096_S128x4096_1_0_0_1_n_n.lhsIdx j c 1).val = (c ⟨0, by decide⟩).val :=
  dot_S128x32_S32x4096_S128x4096_1_0_0_1_n_n.lhsIdx_val_of_single rfl j c
theorem lowrank_rhs_0 (j : S128x4096.Idx) (c : dot_S128x32_S32x4096_S128x4096_1_0_0_1_n_n.contr.Idx) :
    (dot_S128x32_S32x4096_S128x4096_1_0_0_1_n_n.rhsIdx j c 0).val = (c ⟨0, by decide⟩).val :=
  dot_S128x32_S32x4096_S128x4096_1_0_0_1_n_n.rhsIdx_val_of_single rfl j c
theorem lowrank_rhs_1 (j : S128x4096.Idx) (c : dot_S128x32_S32x4096_S128x4096_1_0_0_1_n_n.contr.Idx) :
    (dot_S128x32_S32x4096_S128x4096_1_0_0_1_n_n.rhsIdx j c 1).val = (j 1).val := by
  unfold DotDims.rhsIdx
  rw [dif_neg (show ¬(1 : Fin S32x4096.rank) ∈ dot_S128x32_S32x4096_S128x4096_1_0_0_1_n_n.rhsBatch by decide), dif_pos (show (1 : Fin S32x4096.rank) ∈ dot_S128x32_S32x4096_S128x4096_1_0_0_1_n_n.rhsNonContracting by decide)]
  rfl

/-- Into a zero accumulator the product at `(p, i)` is `Σ_r a[p, r] · b[r, i]`: the sum over the one contraction
    axis, re-indexed by its coordinate. -/
theorem lowrank_apply (a : FVec Ideal S128x32 .bf16) (b : FVec Ideal S32x4096 .bf16) (p : Fin 128) (i : Fin 4096) :
    matmul dot_S128x32_S32x4096_S128x4096_1_0_0_1_n_n none a b (constant (F := Ideal) S128x4096 .f32 0x00000000#32) (ix2 p i)
      = ∑ r : Fin 32, a (ix2 p r) * b (ix2 r i) := by
  simp only [matmul]
  rw [Ideal.matmul_constant_zero_apply, ← Equiv.sum_comp (contrEquiv1 dot_S128x32_S32x4096_S128x4096_1_0_0_1_n_n 32 rfl rfl).symm]
  refine Finset.sum_congr rfl fun r _ => ?_
  have hr := contrEquiv1_symm_val dot_S128x32_S32x4096_S128x4096_1_0_0_1_n_n 32 rfl rfl r
  have el : dot_S128x32_S32x4096_S128x4096_1_0_0_1_n_n.lhsIdx (ix2 p i) ((contrEquiv1 dot_S128x32_S32x4096_S128x4096_1_0_0_1_n_n 32 rfl rfl).symm r) = ix2 p r := funext fun d => Fin.ext (by
    match d with
    | ⟨0, _⟩ => exact lowrank_lhs_0 _ _
    | ⟨1, _⟩ => exact (lowrank_lhs_1 _ _).trans hr)
  have er : dot_S128x32_S32x4096_S128x4096_1_0_0_1_n_n.rhsIdx (ix2 p i) ((contrEquiv1 dot_S128x32_S32x4096_S128x4096_1_0_0_1_n_n 32 rfl rfl).symm r) = ix2 r i := funext fun d => Fin.ext (by
    match d with
    | ⟨0, _⟩ => exact (lowrank_rhs_0 _ _).trans hr
    | ⟨1, _⟩ => exact lowrank_rhs_1 _ _)
  rw [el, er]

/-! ## The layer's block product: rows of the activations against ROWS of the weight

The second product contracts axis 1 of both operands: the weight block is stored output row by input column, so entry
`(p, q)` of the product pairs row `p` of the left block with row `q` of the right one. -/

theorem block_lhs_0 (j : S1024x1024.Idx) (c : dot_S1024x1024_S1024x1024_S1024x1024_1_1_0_0_n_n.contr.Idx) :
    (dot_S1024x1024_S1024x1024_S1024x1024_1_1_0_0_n_n.lhsIdx j c 0).val = (j 0).val := by
  unfold DotDims.lhsIdx
  rw [dif_neg (show ¬(0 : Fin S1024x1024.rank) ∈ dot_S1024x1024_S1024x1024_S1024x1024_1_1_0_0_n_n.lhsBatch by decide), dif_pos (show (0 : Fin S1024x1024.rank) ∈ dot_S1024x1024_S1024x1024_S1024x1024_1_1_0_0_n_n.lhsNonContracting by decide)]
  rfl
theorem block_lhs_1 (j : S1024x1024.Idx) (c : dot_S1024x1024_S1024x1024_S1024x1024_1_1_0_0_n_n.contr.Idx) :
    (dot_S1024x1024_S1024x1024_S1024x1024_1_1_0_0_n_n.lhsIdx j c 1).val = (c ⟨0, by decide⟩).val :=
  dot_S1024x1024_S1024x1024_S1024x1024_1_1_0_0_n_n.lhsIdx_val_of_single rfl j c
theorem block_rhs_0 (j : S1024x1024.Idx) (c : dot_S1024x1024_S1024x1024_S1024x1024_1_1_0_0_n_n.contr.Idx) :
    (dot_S1024x1024_S1024x1024_S1024x1024_1_1_0_0_n_n.rhsIdx j c 0).val = (j 1).val := by
  unfold DotDims.rhsIdx
  rw [dif_neg (show ¬(0 : Fin S1024x1024.rank) ∈ dot_S1024x1024_S1024x1024_S1024x1024_1_1_0_0_n_n.rhsBatch by decide), dif_pos (show (0 : Fin S1024x1024.rank) ∈ dot_S1024x1024_S1024x1024_S1024x1024_1_1_0_0_n_n.rhsNonContracting by decide)]
  rfl
theorem block_rhs_1 (j : S1024x1024.Idx) (c : dot_S1024x1024_S1024x1024_S1024x1024_1_1_0_0_n_n.contr.Idx) :
    (dot_S1024x1024_S1024x1024_S1024x1024_1_1_0_0_n_n.rhsIdx j c 1).val = (c ⟨0, by decide⟩).val :=
  dot_S1024x1024_S1024x1024_S1024x1024_1_1_0_0_n_n.rhsIdx_val_of_single rfl j c

/-- Into a zero accumulator the block product at `(p, q)` is `Σ_k a[p, k] · b[q, k]`. -/
theorem block_apply (a b : FVec Ideal S1024x1024 .bf16) (p q : Fin 1024) :
    matmul dot_S1024x1024_S1024x1024_S1024x1024_1_1_0_0_n_n none a b (constant (F := Ideal) S1024x1024 .f32 0x00000000#32) (ix2 p q)
      = ∑ k : Fin 1024, a (ix2 p k) * b (ix2 q k) := by
  simp only [matmul]
  rw [Ideal.matmul_constant_zero_apply, ← Equiv.sum_comp (contrEquiv1 dot_S1024x1024_S1024x1024_S1024x1024_1_1_0_0_n_n 1024 rfl rfl).symm]
  refine Finset.sum_congr rfl fun k _ => ?_
  have hk := contrEquiv1_symm_val dot_S1024x1024_S1024x1024_S1024x1024_1_1_0_0_n_n 1024 rfl rfl k
  have el : dot_S1024x1024_S1024x1024_S1024x1024_1_1_0_0_n_n.lhsIdx (ix2 p q) ((contrEquiv1 dot_S1024x1024_S1024x1024_S1024x1024_1_1_0_0_n_n 1024 rfl rfl).symm k) = ix2 p k := funext fun d => Fin.ext (by
    match d with
    | ⟨0, _⟩ => exact block_lhs_0 _ _
    | ⟨1, _⟩ => exact (block_lhs_1 _ _).trans hk)
  have er : dot_S1024x1024_S1024x1024_S1024x1024_1_1_0_0_n_n.rhsIdx (ix2 p q) ((contrEquiv1 dot_S1024x1024_S1024x1024_S1024x1024_1_1_0_0_n_n 1024 rfl rfl).symm k) = ix2 q k := funext fun d => Fin.ext (by
    match d with
    | ⟨0, _⟩ => exact block_rhs_0 _ _
    | ⟨1, _⟩ => exact (block_rhs_1 _ _).trans hk)
  rw [el, er]

/-! ## The four payloads at an index -/

/-- The dequantization kernel's block at `(p, i)`: the signed code times its group's scale, plus the low-rank
    correction. The integer-to-float conversion and the literal 8 stay as the float interface's own terms. -/
theorem dequant_pay_apply (v0 : Vec Ideal S128x4096 .i32) (v5 v10 : Vec Ideal S128x32 .f32) (v12 : Vec Ideal S32x4096 .f32) (p : Fin 128) (i : Fin 4096) :
    k0_pay1 (F := Ideal) v0 v5 v10 v12 (ix2 p i)
      = (FloatOps.sitofp (F := Ideal) .f32 (v0 (ix2 p i)) - FloatOps.ofBits (F := Ideal) .f32 0x41000000#32) * v5 (ix2 p (Cert.Spec.grp i))
        + ∑ r : Fin 32, v10 (ix2 p r) * v12 (ix2 r i) := by
  unfold k0_pay1
  simp only [truncf_apply, addf_apply]
  rw [flat_view_apply, mulf_apply, groups_view_apply, lanes_bcast_apply, unit_lane_apply, lowrank_apply]
  rfl

/-- The cleared accumulator is zero everywhere. -/
theorem acc_zero_apply (p q : Fin 1024) : k1_pay1 (F := Ideal) (ix2 p q) = 0 := by
  unfold k1_pay1
  rw [shapeCast_self]
  exact Ideal.ofBits_zero_f32

/-- One accumulation step at `(p, q)`: the accumulator plus the block product. -/
theorem acc_step_apply (v3 : Vec Ideal S1024x1024 .f32) (v6 : Vec Ideal S1024x1024 .bf16) (v9 : Vec Ideal S1024x1024 .f32) (p q : Fin 1024) :
    k1_pay2 (F := Ideal) v3 v6 v9 (ix2 p q) = v9 (ix2 p q) + ∑ k : Fin 1024, v3 (ix2 p k) * v6 (ix2 q k) := by
  unfold k1_pay2
  simp only [shapeCast_self]
  rw [addf_apply, block_apply]
  rfl

/-- The output block at `(p, q)`: the accumulator plus the bias of column `q`. -/
theorem out_apply (v17 : Vec Ideal S1x1024 .f32) (v21 : Vec Ideal S1024x1024 .f32) (p q : Fin 1024) :
    k1_pay3 (F := Ideal) v17 v21 (ix2 p q) = v21 (ix2 p q) + v17 (ix2 (0 : Fin 1) q) := by
  unfold k1_pay3
  simp only [shapeCast_self]
  rw [addf_apply, rows_bcast_apply]

end Cert.KernelIdeal.PayValue

end
-- ==== Proof.DequantValue.lean ====
/-
  The array the dequantization kernel leaves, over the extended reals.

  The grid has 32 points; point t stores the tile of output rows 128·t … 128·t+127 and all 4096 columns. Entry
  (p, i) of that tile is the weight formula over the point's four input blocks, and each input block is a
  rectangle of its array: rows 128·t + p of the codes, of the scales and of the left factor, and the whole right
  factor. So the tile is rows 128·t … 128·t+127 of the specification's weight, and since every row o lies in the
  tile of point o / 128, the array ends holding the specification's weight.
-/
import proofs.«114712_j11579231830187_1_alg».proof.Proof.DequantBody
import proofs.«114712_j11579231830187_1_alg».proof.Proof.PayValue
import proofs.«114712_j11579231830187_1_alg».proof.Proof.Spec
import Idealize.ShloMosaic.Lib.Pipeline.Value
import Idealize.ShloMosaic.Lib.ValueIdx

set_option maxRecDepth 16384

noncomputable section

open scoped BigOperators

namespace Cert.KernelIdeal.DequantValue

open Cert.KernelIdeal Cert.KernelIdeal.Gen Cert.KernelIdeal.Hand
open Idealize.ShloMosaic Idealize.ShloMosaic.TcCoe Idealize.ShloMosaic.ValueIdx
open Idealize.ShloMosaic.Pipeline (Dat Cfg Window)

variable (V : (c : Dev nD) → (b : Ref sig .tc) → Buf (Elt Ideal) ((c : Thread nD τ).loc b))

/-- The zero offsets of a whole-buffer access. -/
theorem zero_offsets : (![0, 0] : Fin 2 → Nat) = fun _ => 0 := funext fun a => by fin_cases a <;> rfl

/-! ## Where each window's block sits at a grid point -/

/-- Decided over the 32 points: the codes', the scales', the left factor's and the output's block at point t is
    block row t, block column 0; the right factor's is always block (0, 0). -/
theorem block_index : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-! ## Each input block as a rectangle of its array -/

/-- The code block at point t is rows 128·t … 128·t+127 of the code matrix. -/
theorem code_block_apply (c : Dev nD) (t : Fin cfg0.N) (y : S128x4096.Idx) (k : S4096x4096.Idx)
    (hk0 : (k 0).val = t.val * 128 + (y 0).val) (hk1 : (k 1).val = (y 1).val) :
    (blk0 V c 0 t : Vec Ideal S128x4096 .i32) y = (V c main_arg1 : S4096x4096.Idx → Elt Ideal .i32) k := by
  obtain ⟨h0, h1, -⟩ := block_index t
  unfold blk0
  rw [View.read_apply]
  show V c main_arg1 _ = V c main_arg1 _
  congr 1
  funext a
  apply Fin.ext
  match a with
  | ⟨0, _⟩ => show win0_0.index t 0 * 128 + 1 * (y 0).val = (k 0).val; rw [h0, hk0]; omega
  | ⟨1, _⟩ => show win0_0.index t 1 * 4096 + 1 * (y 1).val = (k 1).val; rw [h1, hk1]; omega

/-- The scale block at point t is rows 128·t … 128·t+127 of the scales. -/
theorem scale_block_apply (c : Dev nD) (t : Fin cfg0.N) (y : S128x32.Idx) (k : S4096x32.Idx)
    (hk0 : (k 0).val = t.val * 128 + (y 0).val) (hk1 : (k 1).val = (y 1).val) :
    (blk0 V c 1 t : Vec Ideal S128x32 .f32) y = (V c main_arg2 : S4096x32.Idx → Elt Ideal .f32) k := by
  obtain ⟨-, -, h0, h1, -⟩ := block_index t
  unfold blk0
  rw [View.read_apply]
  show V c main_arg2 _ = V c main_arg2 _
  congr 1
  funext a
  apply Fin.ext
  match a with
  | ⟨0, _⟩ => show win0_1.index t 0 * 128 + 1 * (y 0).val = (k 0).val; rw [h0, hk0]; omega
  | ⟨1, _⟩ => show win0_1.index t 1 * 32 + 1 * (y 1).val = (k 1).val; rw [h1, hk1]; omega

/-- The left factor's block at point t is its rows 128·t … 128·t+127. -/
theorem left_block_apply (c : Dev nD) (t : Fin cfg0.N) (y : S128x32.Idx) (k : S4096x32.Idx)
    (hk0 : (k 0).val = t.val * 128 + (y 0).val) (hk1 : (k 1).val = (y 1).val) :
    (blk0 V c 2 t : Vec Ideal S128x32 .f32) y = (V c main_arg3 : S4096x32.Idx → Elt Ideal .f32) k := by
  obtain ⟨-, -, -, -, h0, h1, -⟩ := block_index t
  unfold blk0
  rw [View.read_apply]
  show V c main_arg3 _ = V c main_arg3 _
  congr 1
  funext a
  apply Fin.ext
  match a with
  | ⟨0, _⟩ => show win0_2.index t 0 * 128 + 1 * (y 0).val = (k 0).val; rw [h0, hk0]; omega
  | ⟨1, _⟩ => show win0_2.index t 1 * 32 + 1 * (y 1).val = (k 1).val; rw [h1, hk1]; omega

/-- The right factor's block is, at every point, the whole right factor. -/
theorem right_block_apply (c : Dev nD) (t : Fin cfg0.N) (y : S32x4096.Idx) (k : S32x4096.Idx)
    (hk0 : (k 0).val = (y 0).val) (hk1 : (k 1).val = (y 1).val) :
    (blk0 V c 3 t : Vec Ideal S32x4096 .f32) y = (V c main_arg4 : S32x4096.Idx → Elt Ideal .f32) k := by
  obtain ⟨-, -, -, -, -, -, h0, h1, -⟩ := block_index t
  unfold blk0
  rw [View.read_apply]
  show V c main_arg4 _ = V c main_arg4 _
  congr 1
  funext a
  apply Fin.ext
  match a with
  | ⟨0, _⟩ => show win0_3.index t 0 * 32 + 1 * (y 0).val = (k 0).val; rw [h0, hk0]; omega
  | ⟨1, _⟩ => show win0_3.index t 1 * 4096 + 1 * (y 1).val = (k 1).val; rw [h1, hk1]; omega

/-! ## What a point writes back -/

/-- Row 128·t + p of the arrays, for a row p of point t's blocks. -/
def row (t : Fin cfg0.N) (p : Fin 128) : Fin 4096 :=
  ⟨t.val * 128 + p.val, by have := t.isLt; have hN : cfg0.N = 32 := N_0; have := p.isLt; omega⟩

/-- The tile over point t's four input blocks, at (p, i), is the specification's weight at (128·t + p, i). -/
theorem tile_apply (c : Dev nD) (t : Fin cfg0.N) (p : Fin 128) (i : Fin 4096) :
    k0_pay1 (F := Ideal) (blk0 V c 0 t) (blk0 V c 1 t) (blk0 V c 2 t) (blk0 V c 3 t) (ix2 p i)
      = Cert.Spec.weight (V c main_arg1) (V c main_arg2) (V c main_arg3) (V c main_arg4) (row t p) i := by
  rw [PayValue.dequant_pay_apply]
  unfold Cert.Spec.weight
  rw [code_block_apply V c t (ix2 p i) (ix2 (row t p) i) rfl rfl,
    scale_block_apply V c t (ix2 p (Cert.Spec.grp i)) (ix2 (row t p) (Cert.Spec.grp i)) rfl rfl]
  congr 1
  refine Finset.sum_congr rfl fun r _ => ?_
  rw [left_block_apply V c t (ix2 p r) (ix2 (row t p) r) rfl rfl,
    right_block_apply V c t (ix2 r i) (ix2 r i) rfl rfl]

/-- The tile over point t's four input blocks, at a block index y, is the specification's weight array at the array
    index k whose row is 128·t + (row of y) and whose column is y's. -/
theorem tile_at (c : Dev nD) (t : Fin cfg0.N) (y : S128x4096.Idx) (k : S4096x4096.Idx)
    (hk0 : (k 0).val = t.val * 128 + (y 0).val) (hk1 : (k 1).val = (y 1).val) :
    k0_pay1 (F := Ideal) (blk0 V c 0 t) (blk0 V c 1 t) (blk0 V c 2 t) (blk0 V c 3 t) y
      = Cert.Spec.Wt (V c main_arg1) (V c main_arg2) (V c main_arg3) (V c main_arg4) k := by
  obtain ⟨p, i, rfl⟩ : ∃ (p : Fin 128) (i : Fin 4096), y = ix2 p i := ⟨y 0, y 1, eq_ix2 y⟩
  rw [tile_apply V c t p i]
  show Cert.Spec.weight _ _ _ _ (row t p) i = Cert.Spec.weight _ _ _ _ (k 0) (k 1)
  have e0 : row t p = k 0 := Fin.ext hk0.symm
  have e1 : i = k 1 := Fin.ext hk1.symm
  rw [e0, e1]

/-- What point t writes back is block t of the specification's weight: the output window is never cut, so the
    write-back is the whole tile, and the output's rectangle at t places entry (p, i) of the tile at row
    128·t + p, column i. -/
theorem flushed_eq (c : Dev nD) (t : Fin cfg0.N) :
    (dqDat (F := Ideal) V c).flushed 4 t
      = ((cfg0.win 4).blk t).view.read (Elt Ideal)
          (Cert.Spec.Wt (V c main_arg1) (V c main_arg2) (V c main_arg3) (V c main_arg4)) := by
  show (cfg0.win 4).cut (grid0.coords t) ((dqDat (F := Ideal) V c).after 4 t) = _
  rw [dq_after4]
  unfold wtile
  rw [View.canon_unit_zero zero_offsets]
  simp only [View.ld_unit_zero (S := S128x4096) zero_offsets, View.ld_unit_zero (S := S128x32) zero_offsets,
    View.ld_unit_zero (S := S32x4096) zero_offsets]
  obtain ⟨-, -, -, -, -, -, -, -, h0, h1⟩ := block_index t
  funext j
  rw [View.read_apply]
  refine tile_at V c t j _ ?_ ?_
  · show win0_4.index t 0 * 128 + 1 * (j 0).val = t.val * 128 + (j 0).val
    rw [h0]; omega
  · show win0_4.index t 1 * 4096 + 1 * (j 1).val = (j 1).val
    rw [h1]; omega

/-! ## The blocks tile the array -/

/-- An index of the array is in point t's block iff each coordinate is in the block's range on its axis. -/
theorem mem_block (t : Fin cfg0.N) (i : S4096x4096.Idx) :
    i ∈ ((cfg0.win 4).blk t).view.set
      ↔ ∀ a : Fin 2, win0_4.index t a * S128x4096.size a ≤ (i a).val
          ∧ (i a).val < win0_4.index t a * S128x4096.size a + S128x4096.size a := by
  show i ∈ ((View.whole main_v0).slice (win0_4.rect t)).set ↔ _
  rw [View.set_slice_whole, Rect.mem_set_unit]
  exact Iff.rfl

/-- Row o of the array lies in the block of point o / 128, which is written back. -/
theorem cover (i : S4096x4096.Idx) :
    ∃ t : Fin cfg0.N, (cfg0.win 4).flush t = true ∧ i ∈ ((cfg0.win 4).blk t).view.set := by
  have hi0 : (i 0).val < 4096 := (i 0).isLt
  have hi1 : (i 1).val < 4096 := (i 1).isLt
  have hN : cfg0.N = 32 := N_0
  let t : Fin cfg0.N := ⟨(i 0).val / 128, by rw [hN]; omega⟩
  obtain ⟨-, -, -, -, -, -, -, -, h0, h1⟩ := block_index t
  have ht : t.val = (i 0).val / 128 := rfl
  refine ⟨t, flush0_4 t, ?_⟩
  rw [mem_block]
  intro a
  match a with
  | ⟨0, _⟩ =>
    show win0_4.index t 0 * 128 ≤ (i 0).val ∧ (i 0).val < win0_4.index t 0 * 128 + 128
    rw [h0, ht]; omega
  | ⟨1, _⟩ =>
    show win0_4.index t 1 * 4096 ≤ (i 1).val ∧ (i 1).val < win0_4.index t 1 * 4096 + 4096
    rw [h1]; omega

/-! ## The array the region leaves -/

/-- After the region the weight array holds the specification's weight of the region's four input arrays. -/
theorem weight_array (V : (c : Dev nD) → (b : Ref sig .tc) → Buf (Elt Ideal) ((c : Thread nD τ).loc b)) (c : Dev nD) :
    (dqDat (F := Ideal) V c).arrAt 4 cfg0.N = Cert.Spec.Wt (V c main_arg1) (V c main_arg2) (V c main_arg3) (V c main_arg4) :=
  (dqDat (F := Ideal) V c).arrAt_eq_of_cover 4 _ (fun t _ => flushed_eq V c t) cover

end Cert.KernelIdeal.DequantValue

end
-- ==== Proof.MatmulValue.lean ====
/-
  What the matmul kernel leaves in the output array, over the extended reals, as a plain sum.

  Point t of the 8 × 4 × 4 grid (row block t / 16, column block t / 4 % 4, K block t % 4) reads rows
  1024·(t / 16) … of the activations and rows 1024·(t / 4 % 4) … of the weight, both at columns 1024·(t % 4) …,
  and adds to the accumulator, entry by entry, the products along those 1024 columns. By induction on the point the
  accumulator after point t holds, at (p, q), the sum over the K blocks 0 … t % 4 of those partial sums; where
  t % 4 = 3 the four blocks are the whole row of 4096 columns, and the block stored there is that sum plus the bias.
  The 32 blocks written back (at the points t % 4 = 3) tile the 8192 × 4096 output, so the array ends as the
  function (r, n) ↦ Σ_i x[r, i] · w[n, i] + b[0, n].

  Only associativity of addition on the extended reals and re-indexing of finite sums are used.
-/
import proofs.«114712_j11579231830187_1_alg».proof.Proof.MatmulBody
import proofs.«114712_j11579231830187_1_alg».proof.Proof.PayValue
import Idealize.ShloMosaic.Lib.Pipeline.Value
import Idealize.ShloMosaic.Lib.ValueIdx
import Mathlib.Algebra.BigOperators.Group.Finset.Defs
import Mathlib.Algebra.BigOperators.Group.Finset.Basic
import Mathlib.Algebra.BigOperators.Fin
import Mathlib.Data.Fintype.BigOperators
import Mathlib.Logic.Equiv.Fin.Basic

set_option maxRecDepth 16384

noncomputable section

open scoped BigOperators

namespace Cert.KernelIdeal.MatmulValue

open Cert.KernelIdeal Cert.KernelIdeal.Gen Cert.KernelIdeal.Hand Cert.KernelIdeal.PayValue
open Idealize.ShloMosaic Idealize.ShloMosaic.TcCoe Idealize.ShloMosaic.ValueIdx
open Idealize.ShloMosaic.Pipeline (Dat Cfg Window)

/-! ## The arrays as the region finds them, and the function the output ends at -/

/-- The activations, the weight and the bias row as the region finds them, at their literal types. -/
abbrev xArr (V : (c : Dev nD) → (b : Ref sig .tc) → Buf (Elt Ideal) ((c : Thread nD τ).loc b)) (c : Dev nD) : Vec Ideal S8192x4096 .f32 := V c main_v1
abbrev wArr (V : (c : Dev nD) → (b : Ref sig .tc) → Buf (Elt Ideal) ((c : Thread nD τ).loc b)) (c : Dev nD) : Vec Ideal S4096x4096 .bf16 := V c main_v0
abbrev bArr (V : (c : Dev nD) → (b : Ref sig .tc) → Buf (Elt Ideal) ((c : Thread nD τ).loc b)) (c : Dev nD) : Vec Ideal S1x4096 .f32 := V c main_v2

/-- Row r of the activations against row n of the weight, plus the bias. -/
def Yfun (V : (c : Dev nD) → (b : Ref sig .tc) → Buf (Elt Ideal) ((c : Thread nD τ).loc b)) (c : Dev nD) : FVec Ideal S8192x4096 .f32 :=
  fun j => (∑ i : Fin 4096, xArr V c (ix2 (j 0) i) * wArr V c (ix2 (j 1) i)) + bArr V c (ix2 (0 : Fin 1) (j 1))

/-- The function at explicit coordinates. -/
theorem Yfun_apply (V : (c : Dev nD) → (b : Ref sig .tc) → Buf (Elt Ideal) ((c : Thread nD τ).loc b)) (c : Dev nD)
    (r : Fin 8192) (n : Fin 4096) :
    Yfun V c (ix2 r n) = (∑ i : Fin 4096, xArr V c (ix2 r i) * wArr V c (ix2 n i)) + bArr V c (ix2 (0 : Fin 1) n) := rfl

section Points

variable (V : (c : Dev nD) → (b : Ref sig .tc) → Buf (Elt Ideal) ((c : Thread nD τ).loc b))

/-! ## The windows' block indices, decided once over the grid -/

theorem index0 : ∀ t : Fin cfg1.N, (cfg1.win 0).index t 0 = t.val / 16 ∧ (cfg1.win 0).index t 1 = t.val % 4 :=
  (by decide +kernel : ∀ t : Fin grid1.N, win1_0.index t 0 = t.val / 16 ∧ win1_0.index t 1 = t.val % 4)
theorem index1 : ∀ t : Fin cfg1.N, (cfg1.win 1).index t 0 = t.val / 4 % 4 ∧ (cfg1.win 1).index t 1 = t.val % 4 :=
  (by decide +kernel : ∀ t : Fin grid1.N, win1_1.index t 0 = t.val / 4 % 4 ∧ win1_1.index t 1 = t.val % 4)
theorem index2 : ∀ t : Fin cfg1.N, (cfg1.win 2).index t 0 = 0 ∧ (cfg1.win 2).index t 1 = t.val / 4 % 4 :=
  (by decide +kernel : ∀ t : Fin grid1.N, win1_2.index t 0 = 0 ∧ win1_2.index t 1 = t.val / 4 % 4)
theorem index3 : ∀ t : Fin cfg1.N, (cfg1.win 3).index t 0 = t.val / 16 ∧ (cfg1.win 3).index t 1 = t.val / 4 % 4 :=
  (by decide +kernel : ∀ t : Fin grid1.N, win1_3.index t 0 = t.val / 16 ∧ win1_3.index t 1 = t.val / 4 % 4)

/-! ## The input blocks read at an index

A block's coordinate in its array is the block index times the block's size plus the coordinate inside the block. -/

theorem xblk_apply (c : Dev nD) (t : Fin cfg1.N) (p k : Fin 1024) (r : Fin 8192) (i : Fin 4096)
    (hr : r.val = 1024 * (t.val / 16) + p.val) (hi : i.val = 1024 * (t.val % 4) + k.val) :
    xblk V c t (ix2 p k) = xArr V c (ix2 r i) := by
  unfold xblk blk1 xArr
  rw [View.read_apply]
  show V c main_v1 _ = V c main_v1 _
  congr 1
  funext a
  apply Fin.ext
  match a with
  | ⟨0, _⟩ => show win1_0.index t 0 * 1024 + 1 * p.val = r.val; rw [(index0 t).1, hr]; omega
  | ⟨1, _⟩ => show win1_0.index t 1 * 1024 + 1 * k.val = i.val; rw [(index0 t).2, hi]; omega

theorem wblk_apply (c : Dev nD) (t : Fin cfg1.N) (q k : Fin 1024) (n i : Fin 4096)
    (hn : n.val = 1024 * (t.val / 4 % 4) + q.val) (hi : i.val = 1024 * (t.val % 4) + k.val) :
    wblk V c t (ix2 q k) = wArr V c (ix2 n i) := by
  unfold wblk blk1 wArr
  rw [View.read_apply]
  show V c main_v0 _ = V c main_v0 _
  congr 1
  funext a
  apply Fin.ext
  match a with
  | ⟨0, _⟩ => show win1_1.index t 0 * 1024 + 1 * q.val = n.val; rw [(index1 t).1, hn]; omega
  | ⟨1, _⟩ => show win1_1.index t 1 * 1024 + 1 * k.val = i.val; rw [(index1 t).2, hi]; omega

theorem bblk_apply (c : Dev nD) (t : Fin cfg1.N) (q : Fin 1024) (n : Fin 4096)
    (hn : n.val = 1024 * (t.val / 4 % 4) + q.val) :
    bblk V c t (ix2 (0 : Fin 1) q) = bArr V c (ix2 (0 : Fin 1) n) := by
  unfold bblk blk1 bArr
  rw [View.read_apply]
  show V c main_v2 _ = V c main_v2 _
  congr 1
  funext a
  apply Fin.ext
  match a with
  | ⟨0, _⟩ => show win1_2.index t 0 * 1 + 1 * 0 = 0; rw [(index2 t).1]
  | ⟨1, _⟩ => show win1_2.index t 1 * 1024 + 1 * q.val = n.val; rw [(index2 t).2, hn]; omega

/-! ## The accumulator after each point -/

/-- One column's product in entry (r, n). -/
def prodAt (c : Dev nD) (r : Fin 8192) (n : Fin 4096) (i : Fin 4096) : Ideal .f32 :=
  xArr V c (ix2 r i) * wArr V c (ix2 n i)

/-- Column `1024·kb + kk` of a row; the number is kept below 4096 so that it names a column for every `kb`. -/
def colOf (kb : ℕ) (kk : Fin 1024) : Fin 4096 := ⟨(1024 * kb + kk.val) % 4096, Nat.mod_lt _ (by decide)⟩

/-- K block `kb`'s share of entry (r, n): the products along columns 1024·kb … 1024·kb + 1023. -/
def partOf (c : Dev nD) (r : Fin 8192) (n : Fin 4096) (kb : ℕ) : Ideal .f32 :=
  ∑ kk : Fin 1024, prodAt V c r n (colOf kb kk)

/-- The product of the two blocks held at point `t`, at (p, q), is K block `t % 4`'s share of entry
    (1024·(t / 16) + p, 1024·(t / 4 % 4) + q). -/
theorem step_sum (c : Dev nD) (t : Fin cfg1.N) (p q : Fin 1024) (r : Fin 8192) (n : Fin 4096) (kb : ℕ)
    (hr : r.val = 1024 * (t.val / 16) + p.val) (hn : n.val = 1024 * (t.val / 4 % 4) + q.val) (hk : kb = t.val % 4) :
    ∑ k : Fin 1024, xblk V c t (ix2 p k) * wblk V c t (ix2 q k) = partOf V c r n kb := by
  unfold partOf prodAt
  refine Finset.sum_congr rfl fun k _ => ?_
  have hk' : (colOf kb k).val = 1024 * (t.val % 4) + k.val := by
    show (1024 * kb + k.val) % 4096 = _
    have := k.isLt
    omega
  rw [xblk_apply V c t p k r (colOf kb k) hr hk', wblk_apply V c t q k n (colOf kb k) hn hk']

/-- THE INVARIANT: after point `n` the accumulator holds, at (p, q), the shares of K blocks 0 … n % 4 of the entry
    under it. Where the reduction starts it is the first block's share added to zero; elsewhere the point before has the same
    row and column block and one K block fewer. -/
theorem accAt_apply (c : Dev nD) : ∀ (n : ℕ) (hn : n < cfg1.N) (p q : Fin 1024) (r : Fin 8192) (m : Fin 4096),
    r.val = 1024 * (n / 16) + p.val → m.val = 1024 * (n / 4 % 4) + q.val →
    accAt V c n hn (ix2 p q) = ∑ kb ∈ Finset.range (n % 4 + 1), partOf V c r m kb := by
  intro n
  induction n using Nat.strong_induction_on with
  | _ n ih =>
    intro hn p q r m hr hm
    by_cases h : n % 4 = 0
    · have e : accAt V c n hn = k1_pay2 (xblk V c ⟨n, hn⟩) (wblk V c ⟨n, hn⟩) (k1_pay1 (F := Ideal)) :=
        accAt_first V c ⟨n, hn⟩ h
      rw [e, acc_step_apply, acc_zero_apply, zero_add, h, Nat.zero_add, Finset.sum_range_one]
      exact step_sum V c ⟨n, hn⟩ p q r m 0 hr hm h.symm
    · have e : accAt V c n hn
          = k1_pay2 (xblk V c ⟨n, hn⟩) (wblk V c ⟨n, hn⟩) (accAt V c (n - 1) (Nat.lt_of_le_of_lt (Nat.sub_le _ _) hn)) :=
        accAt_next V c ⟨n, hn⟩ h
      have h1 : n % 4 + 1 = ((n - 1) % 4 + 1) + 1 := by omega
      rw [e, acc_step_apply, ih (n - 1) (by omega) _ p q r m (by omega) (by omega), h1,
        Finset.sum_range_succ _ ((n - 1) % 4 + 1)]
      congr 1
      exact step_sum V c ⟨n, hn⟩ p q r m _ hr hm (by show (n - 1) % 4 + 1 = n % 4; omega)

/-! ## Four K blocks are the whole row -/

/-- Column `1024·kb + kk` is where the pair (kb, kk) goes when the 4 × 1024 pairs are laid along the row. -/
theorem colOf_eq (kb : Fin 4) (kk : Fin 1024) : colOf kb.val kk = finProdFinEquiv (kb, kk) := Fin.ext (by
  show (1024 * kb.val + kk.val) % 4096 = kk.val + 1024 * kb.val
  have := kb.isLt
  have := kk.isLt
  omega)

theorem parts_eq_row (c : Dev nD) (r : Fin 8192) (n : Fin 4096) :
    ∑ kb ∈ Finset.range 4, partOf V c r n kb = ∑ i : Fin 4096, prodAt V c r n i := by
  rw [Finset.sum_range]
  refine Eq.trans ?_ (Equiv.sum_comp (finProdFinEquiv (m := 4) (n := 1024)) (prodAt V c r n))
  refine Eq.trans ?_ (Fintype.sum_prod_type (fun x : Fin 4 × Fin 1024 => prodAt V c r n (finProdFinEquiv x))).symm
  refine Finset.sum_congr rfl fun kb _ => ?_
  unfold partOf
  refine Finset.sum_congr rfl fun kk _ => ?_
  rw [colOf_eq kb kk]

/-! ## The block stored where the reduction ends -/

/-- Where t % 4 = 3 the stored block is, at (p, q), the function at the array index under it. -/
theorem outAt_apply (c : Dev nD) (t : Fin cfg1.N) (h3 : t.val % 4 = 3) (p q : Fin 1024) (r : Fin 8192) (n : Fin 4096)
    (hr : r.val = 1024 * (t.val / 16) + p.val) (hn : n.val = 1024 * (t.val / 4 % 4) + q.val) :
    outAt V c t (ix2 p q) = Yfun V c (ix2 r n) := by
  unfold outAt
  rw [out_apply, accAt_apply V c t.val t.isLt p q r n hr hn, h3, bblk_apply V c t q n hn]
  show (∑ kb ∈ Finset.range 4, partOf V c r n kb) + _ = _
  rw [parts_eq_row]
  rfl

/-- What a point that writes back writes is its block of the function. -/
theorem flushed_eq (c : Dev nD) (t : Fin cfg1.N) (hf : (cfg1.win 3).flush t = true) :
    (mmDat (F := Ideal) V c).flushed 3 t = ((cfg1.win 3).blk t).view.read (Elt Ideal) (Yfun V c) := by
  have h3 : t.val % 4 = 3 := (flush1_3 t).mp hf
  have hN : t.val < 128 := lt_of_lt_of_eq t.isLt (show cfg1.N = 128 from N_1)
  show (cfg1.win 3).cut (grid1.coords t) ((mmDat (F := Ideal) V c).after 3 t) = _
  rw [mm_after3]
  funext j
  have hj0 : (j 0).val < 1024 := (j 0).isLt
  have hj1 : (j 1).val < 1024 := (j 1).isLt
  rw [View.read_apply]
  show outAt V c t ((cfg1.win 3).xinj (grid1.coords t) j) = Yfun V c (((cfg1.win 3).blk t).view.emb j)
  have e1 : (cfg1.win 3).xinj (grid1.coords t) j = ix2 (⟨(j 0).val, hj0⟩ : Fin 1024) (⟨(j 1).val, hj1⟩ : Fin 1024) := by
    funext a
    match a with
    | ⟨0, _⟩ => rfl
    | ⟨1, _⟩ => rfl
  have e2 : ((cfg1.win 3).blk t).view.emb j
      = ix2 (⟨1024 * (t.val / 16) + (j 0).val, by omega⟩ : Fin 8192) (⟨1024 * (t.val / 4 % 4) + (j 1).val, by omega⟩ : Fin 4096) := by
    funext a
    apply Fin.ext
    match a with
    | ⟨0, _⟩ => show win1_3.index t 0 * 1024 + 1 * (j 0).val = 1024 * (t.val / 16) + (j 0).val; rw [(index3 t).1]; omega
    | ⟨1, _⟩ => show win1_3.index t 1 * 1024 + 1 * (j 1).val = 1024 * (t.val / 4 % 4) + (j 1).val; rw [(index3 t).2]; omega
  rw [e1, e2]
  exact outAt_apply V c t h3 _ _ _ _ rfl rfl

end Points

/-! ## The output array after the region -/

/-- The 32 blocks written back tile the output, each its block of the function: the array ends at the function. -/
theorem product_array (V : (c : Dev nD) → (b : Ref sig .tc) → Buf (Elt Ideal) ((c : Thread nD τ).loc b)) (c : Dev nD) :
    (mmDat (F := Ideal) V c).arrAt 3 cfg1.N = Yfun V c :=
  (mmDat (F := Ideal) V c).arrAt_eq_of_cover 3 (Yfun V c) (flushed_eq V c) fun i => by
    have hN : cfg1.N = 128 := N_1
    have h0 : (i 0 : ℕ) < 8192 := (i 0).isLt
    have h1 : (i 1 : ℕ) < 4096 := (i 1).isLt
    obtain ⟨t, ht⟩ : ∃ t : Fin cfg1.N, t.val = ((i 0 : ℕ) / 1024 * 4 + (i 1 : ℕ) / 1024) * 4 + 3 :=
      ⟨⟨((i 0 : ℕ) / 1024 * 4 + (i 1 : ℕ) / 1024) * 4 + 3, by rw [hN]; omega⟩, rfl⟩
    refine ⟨t, (flush1_3 t).mpr (by omega), ?_⟩
    show i ∈ ((View.whole main_v3).slice (win1_3.rect t)).set
    rw [View.set_slice_whole, Rect.mem_set_unit]
    intro a
    match a with
    | ⟨0, _⟩ =>
      show win1_3.index t 0 * 1024 ≤ (i 0 : ℕ) ∧ (i 0 : ℕ) < win1_3.index t 0 * 1024 + 1024
      rw [(index3 t).1]
      omega
    | ⟨1, _⟩ =>
      show win1_3.index t 1 * 1024 ≤ (i 1 : ℕ) ∧ (i 1 : ℕ) < win1_3.index t 1 * 1024 + 1024
      rw [(index3 t).2]
      omega

end Cert.KernelIdeal.MatmulValue

end
-- ==== Proof.FinalValue.lean ====
/-
  The result buffer holds the specification, at the ideal instance.

  @main is the dequantization region, two reshapes (the activations 4 × 2048 × 4096 → 8192 × 4096, the bias
  4096 → 1 × 4096), the matmul region, and one reshape of its output 8192 × 4096 → 4 × 2048 × 4096. A reshape keeps
  the row-major position of every entry, so

      result (b, s, o)        = matmul output (b·2048 + s, o)
      activations (r, i)      = x (r / 2048, r % 2048, i),   that is   activations (b·2048 + s, i) = x (b, s, i)
      bias row (0, n)         = bias n.

  Given that the dequantization region leaves the specification's weight, and that the matmul region leaves
  row r of its activations against row n of its weight plus entry n of its bias row, the result at (b, s, o) is
  Σ_i x (b, s, i) · weight o i + bias o: the specification, term by term.

  The buffers' contents at the boundaries are read off the run's fold: the last reshape over the matmul region's
  exit; the matmul region's three input arrays over the dequantization region's exit, where the launch's
  activations and bias are no array of that region and the weight is its output array.
-/
import proofs.«114712_j11579231830187_1_alg».proof.Proof.Run
import proofs.«114712_j11579231830187_1_alg».proof.Proof.Spec
import Idealize.ShloMosaic.Lib.Pipeline.Value
import Idealize.ShloMosaic.Lib.ValueIdx
import Idealize.ShloMosaic.Lib.StableHlo.Run
import Mathlib.Algebra.BigOperators.Group.Finset.Basic

set_option maxRecDepth 16384

noncomputable section

open scoped BigOperators

namespace Cert.KernelIdeal.FinalValue

open Cert.KernelIdeal Cert.KernelIdeal.Gen Cert.KernelIdeal.Hand
open Idealize.ShloMosaic Idealize.ShloMosaic.TcCoe Idealize.ShloMosaic.ValueIdx Idealize.ShloMosaic.StableHlo

section

variable (m : (ℓ : Loc nD τ sig) → Buf (Elt Ideal) ℓ) (c : Dev nD)

/-! ## The three reshapes read at an index, over any array of the literal type -/

/-- An 8192 × 4096 array read as 4 × 2048 × 4096: entry (b, s, o) is entry (b·2048 + s, o). -/
theorem unflatten_apply (Y : FVec Ideal S8192x4096 .f32) (b : Fin 4) (s : Fin 2048) (o : Fin 4096) (r : Fin 8192)
    (hr : r.val = b.val * 2048 + s.val) :
    shapeCast S4x2048x4096 Y shapeCasts_S8192x4096_S4x2048x4096 (ix3 b s o) = Y (ix2 r o) :=
  shapeCast_apply Y shapeCasts_S8192x4096_S4x2048x4096 (ix3 b s o) (ix2 r o) (by
    rw [Shape.rowMajor_val_two, Shape.rowMajor_val_three]
    show r.val * 4096 + o.val = (b.val * 2048 + s.val) * 4096 + o.val
    rw [hr])

/-- A 4 × 2048 × 4096 array read as 8192 × 4096: entry (b·2048 + s, i) is entry (b, s, i). -/
theorem flatten_apply (X : FVec Ideal S4x2048x4096 .f32) (b : Fin 4) (s : Fin 2048) (i : Fin 4096) (r : Fin 8192)
    (hr : r.val = b.val * 2048 + s.val) :
    shapeCast S8192x4096 X shapeCasts_S4x2048x4096_S8192x4096 (ix2 r i) = X (ix3 b s i) :=
  shapeCast_apply X shapeCasts_S4x2048x4096_S8192x4096 (ix2 r i) (ix3 b s i) (by
    rw [Shape.rowMajor_val_two, Shape.rowMajor_val_three]
    show (b.val * 2048 + s.val) * 4096 + i.val = r.val * 4096 + i.val
    rw [hr])

/-- A vector of 4096 entries read as one row: entry (0, n) is entry n. -/
theorem row_apply (v : FVec Ideal S4096 .f32) (n : Fin 4096) :
    shapeCast S1x4096 v shapeCasts_S4096_S1x4096 (ix2 (0 : Fin 1) n) = v (ix1 n) :=
  shapeCast_apply v shapeCasts_S4096_S1x4096 (ix2 (0 : Fin 1) n) (ix1 n) (by
    rw [Shape.rowMajor_val_one, Shape.rowMajor_val_two]
    show n.val = (0 : Fin 1).val * 4096 + n.val
    simp)

/-! ## What the buffers hold at the boundaries of the run -/

/-- The activations, the weight and the bias row as the matmul region finds them, at their literal types. -/
abbrev xIn : Vec Ideal S8192x4096 .f32 := E2 (F := Ideal) m c main_v1
abbrev wIn : Vec Ideal S4096x4096 .bf16 := E2 (F := Ideal) m c main_v0
abbrev bIn : Vec Ideal S1x4096 .f32 := E2 (F := Ideal) m c main_v2

/-- The result is the reshape of the matmul region's output array. -/
theorem B4_main_v4 :
    (B4 (F := Ideal) m c (Proc.devRef .tc main_v4) : FVec Ideal S4x2048x4096 .f32)
      = shapeCast S4x2048x4096 ((mmDat (F := Ideal) (E2 m) c).arrAt 3 cfg1.N : FVec Ideal S8192x4096 .f32) shapeCasts_S8192x4096_S4x2048x4096 := by
  rw [← B3_arr m c 3]
  show StableHlo.after hostOps2 (B3 m c) (Proc.devRef .tc main_v4) = _
  after_results
  rfl

/-- At the matmul region's entry the activations are the launch's, reshaped: the first reshape writes them, the second
    leaves them, and the dequantization region does not own the launch's activations. -/
theorem xIn_eq :
    xIn m c = shapeCast S8192x4096 (m ((c : Thread nD τ).loc main_arg0) : FVec Ideal S4x2048x4096 .f32) shapeCasts_S4x2048x4096_S8192x4096 := by
  rw [show m ((c : Thread nD τ).loc main_arg0) = B1 m c (Proc.devRef .tc main_arg0) from (B1_of_ne m c main_arg0 (by decide)).symm]
  show StableHlo.after hostOps1 (B1 m c) (Proc.devRef .tc main_v1) = _
  after_results
  rfl

/-- At the matmul region's entry the bias row is the launch's bias, reshaped. -/
theorem bIn_eq :
    bIn m c = shapeCast S1x4096 (m ((c : Thread nD τ).loc main_arg5) : FVec Ideal S4096 .f32) shapeCasts_S4096_S1x4096 := by
  rw [show m ((c : Thread nD τ).loc main_arg5) = B1 m c (Proc.devRef .tc main_arg5) from (B1_of_ne m c main_arg5 (by decide)).symm]
  show StableHlo.after hostOps1 (B1 m c) (Proc.devRef .tc main_v2) = _
  after_results
  rfl

/-- At the matmul region's entry the weight is what the dequantization region left: neither reshape writes it. -/
theorem wIn_eq :
    wIn m c = (dqDat (F := Ideal) (E0 m) c).arrAt 4 cfg0.N := by
  rw [← B1_arr m c 4]
  show StableHlo.after hostOps1 (B1 m c) (Proc.devRef .tc main_v0) = _
  after_results

/-! ## The mathematics: reshape, contract against the weight's rows, add the bias, reshape back -/

/-- The specification at an index given by its coordinates. -/
theorem G_apply (x : FVec Ideal S4x2048x4096 .f32) (q : Vec Ideal S4096x4096 .i32) (sc U : FVec Ideal S4096x32 .f32)
    (Vm : FVec Ideal S32x4096 .f32) (bias : FVec Ideal S4096 .f32) (b : Fin 4) (s : Fin 2048) (o : Fin 4096) :
    Cert.Spec.G x q sc U Vm bias (ix3 b s o)
      = (∑ i : Fin 4096, x (ix3 b s i) * Cert.Spec.weight q sc U Vm o i) + bias (ix1 o) := rfl

/-- If X is x flattened to 8192 rows, W the specification's weight, Bv the bias as one row, and Y is row r of X against
    row n of W plus entry n of Bv, then Y unflattened is the specification: entry (b, s, o) of the result is entry
    (b·2048 + s, o) of Y, row b·2048 + s of X is row (b, s) of x, and entry (0, o) of Bv is entry o of the bias. -/
theorem assemble (x : FVec Ideal S4x2048x4096 .f32) (q : Vec Ideal S4096x4096 .i32) (sc U : FVec Ideal S4096x32 .f32)
    (Vm : FVec Ideal S32x4096 .f32) (bias : FVec Ideal S4096 .f32)
    (X : Vec Ideal S8192x4096 .f32) (W : Vec Ideal S4096x4096 .bf16) (Bv : Vec Ideal S1x4096 .f32) (Y : FVec Ideal S8192x4096 .f32)
    (hX : X = shapeCast S8192x4096 x shapeCasts_S4x2048x4096_S8192x4096)
    (hW : W = Cert.Spec.Wt q sc U Vm)
    (hB : Bv = shapeCast S1x4096 bias shapeCasts_S4096_S1x4096)
    (hY : Y = fun (j : S8192x4096.Idx) => (∑ i : Fin 4096, X (ix2 (j 0) i) * W (ix2 (j 1) i)) + Bv (ix2 (0 : Fin 1) (j 1))) :
    shapeCast S4x2048x4096 Y shapeCasts_S8192x4096_S4x2048x4096 = Cert.Spec.G x q sc U Vm bias := by
  funext j
  obtain ⟨b, s, o, rfl⟩ : ∃ (b : Fin 4) (s : Fin 2048) (o : Fin 4096), j = ix3 b s o := ⟨j 0, j 1, j 2, eq_ix3 j⟩
  have hlt : b.val * 2048 + s.val < 8192 := by have := b.isLt; have := s.isLt; omega
  refine (unflatten_apply Y b s o ⟨b.val * 2048 + s.val, hlt⟩ rfl).trans ?_
  rw [G_apply, hY]
  subst hX hW hB
  show (∑ i : Fin 4096, shapeCast S8192x4096 x shapeCasts_S4x2048x4096_S8192x4096 (ix2 (⟨b.val * 2048 + s.val, hlt⟩ : Fin 8192) i)
            * Cert.Spec.Wt q sc U Vm (ix2 o i))
        + shapeCast S1x4096 bias shapeCasts_S4096_S1x4096 (ix2 (0 : Fin 1) o) = _
  rw [row_apply bias o]
  refine congrArg (· + bias (ix1 o)) (Finset.sum_congr rfl fun i _ => ?_)
  exact congrArg (· * Cert.Spec.weight q sc U Vm o i) (flatten_apply x b s i ⟨b.val * 2048 + s.val, hlt⟩ rfl)

end

/-! ## The result buffer holds the specification -/

/-- From the two regions' arrays — the dequantization region's output the specification's weight, the matmul region's
    output each row of its activations against each row of its weight plus the bias row — the buffer @main returns
    holds the layer's output at the launch's six arguments. -/
theorem result_value (m : (ℓ : Loc nD τ sig) → Buf (Elt Ideal) ℓ) (c : Dev nD)
    (hW : (dqDat (F := Ideal) (E0 m) c).arrAt 4 cfg0.N
            = Cert.Spec.Wt (E0 m c main_arg1) (E0 m c main_arg2) (E0 m c main_arg3) (E0 m c main_arg4))
    (hY : (mmDat (F := Ideal) (E2 m) c).arrAt 3 cfg1.N
            = fun (j : S8192x4096.Idx) => (∑ i : Fin 4096, xIn m c (ix2 (j 0) i) * wIn m c (ix2 (j 1) i)) + bIn m c (ix2 (0 : Fin 1) (j 1))) :
    B4 (F := Ideal) m c (Proc.devRef .tc main_v4)
      = Cert.Spec.G (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) :=
  (B4_main_v4 m c).trans
    (assemble (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5))
      (xIn m c) (wIn m c) (bIn m c) ((mmDat (F := Ideal) (E2 m) c).arrAt 3 cfg1.N)
      (xIn_eq m c) ((wIn_eq m c).trans hW) (bIn_eq m c) hY)

end Cert.KernelIdeal.FinalValue

end
-- ==== Proof.lean ====
/-
  The certificate of a quantized linear layer.

  The kernel program computes y = x · Wᵀ + bias in two pallas_calls: the first materializes the weight
  W[o, i] = (q[o, i] − 8) · scales[o, i / 128] + Σ_{r < 32} U[o, r] · V[r, i] in bf16, 128 output rows per grid point;
  the second multiplies 1024 × 1024 blocks of the activations and of W into a scratch accumulator over four K blocks
  and stores the accumulator plus the bias row when the last K block is done. The reference computes the same weight
  with host operations and contracts the whole K axis at once.

  At the ideal instance a change of float format is the identity and a matrix product into a zero accumulator is a
  plain sum, so the two programs differ only in how the sum over the 4096 input columns is grouped: the kernel's is
  four partial sums of 1024 terms, added in order onto zero. Addition on the extended reals is associative and
  commutative, which is all the regrouping needs; nothing is distributed, cancelled or moved across a sum, and the
  precondition (every float input finite) is never opened.

  The frames of the two kernel programs are proved once, for any float instance (Proof/DequantBody, Proof/MatmulBody,
  Proof/Run, and the same text in the word-level program's namespace): the dequantization body keeps nothing between
  grid points; the matmul body's region invariant names the accumulator's contents after each point, by recursion
  on the point. The run ends with every unscoped buffer at contents named by a fold through @main, so one run gives
  both that the arguments end as launched and what the result buffer holds. The reference's frame is its generated
  run with the result dropped. The ideal pass rewrote nothing, so `preserves` is `True`.
-/
import proofs.«114712_j11579231830187_1_alg».proof.Defs
import proofs.«114712_j11579231830187_1_alg».proof.Proof.Gen.Kernel
import proofs.«114712_j11579231830187_1_alg».proof.Proof.Gen.KernelIdeal
import proofs.«114712_j11579231830187_1_alg».proof.Proof.Gen.ReferenceIdeal
import proofs.«114712_j11579231830187_1_alg».proof.Proof.Gen.Pre_finite_inputs
import proofs.«114712_j11579231830187_1_alg».proof.Proof.Gen.ReferenceIdeal.Run
import proofs.«114712_j11579231830187_1_alg».proof.Proof.Gen.ReferenceIdeal.Read
import proofs.«114712_j11579231830187_1_alg».proof.Proof.Run
import proofs.«114712_j11579231830187_1_alg».proof.Proof.RunBits
import proofs.«114712_j11579231830187_1_alg».proof.Proof.RefValue
import proofs.«114712_j11579231830187_1_alg».proof.Proof.DequantValue
import proofs.«114712_j11579231830187_1_alg».proof.Proof.MatmulValue
import proofs.«114712_j11579231830187_1_alg».proof.Proof.FinalValue
import Idealize.ShloMosaic.Adequacy
import Idealize.ShloMosaic.Init

noncomputable section

namespace Cert.Proof

open Idealize.ShloMosaic Idealize.ShloMosaic.TcCoe Idealize.SL.Sem

/-- The word-level kernel runs and leaves its arguments as launched. -/
theorem frame_kernel : Cert.frame_Kernel := fun m ρ _ => Cert.Kernel.Hand.frame m ρ

/-- So does the idealized kernel. -/
theorem frame_kernelIdeal : Cert.frame_KernelIdeal := fun m ρ _ => Cert.KernelIdeal.Hand.frame m ρ

/-- The reference is host operations only: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- Both idealized programs end with the result buffer at the specification of the arguments: the kernel's by the
    two regions' arrays read through the reshapes around them, the reference's by its run read one operation at a
    time. -/
theorem algebraic : Cert.algebraic_KernelIdeal_ReferenceIdeal := by
  intro m ρ m' ρ' _ hagree
  refine ⟨fun c => Cert.Spec.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · refine (θ_run Cert.KernelIdeal.defs _ _).mono (fun _ h c => ⟨?_, ?_, ?_, ?_, ?_, ?_, ?_⟩) (Cert.KernelIdeal.Hand.run (F := Ideal) m ρ)
    · exact (h c _ (Cert.KernelIdeal.Hand.mem_uc Cert.KernelIdeal.main_v4 (by decide))).trans
        (Cert.KernelIdeal.FinalValue.result_value m c
          (Cert.KernelIdeal.DequantValue.weight_array (Cert.KernelIdeal.Hand.E0 m) c)
          (Cert.KernelIdeal.MatmulValue.product_array (Cert.KernelIdeal.Hand.E2 m) c))
    · exact (h c _ (Cert.KernelIdeal.Hand.mem_uc Cert.KernelIdeal.main_arg0 (by decide))).trans (Cert.KernelIdeal.Hand.B4_main_arg0 m c)
    · exact (h c _ (Cert.KernelIdeal.Hand.mem_uc Cert.KernelIdeal.main_arg1 (by decide))).trans (Cert.KernelIdeal.Hand.B4_main_arg1 m c)
    · exact (h c _ (Cert.KernelIdeal.Hand.mem_uc Cert.KernelIdeal.main_arg2 (by decide))).trans (Cert.KernelIdeal.Hand.B4_main_arg2 m c)
    · exact (h c _ (Cert.KernelIdeal.Hand.mem_uc Cert.KernelIdeal.main_arg3 (by decide))).trans (Cert.KernelIdeal.Hand.B4_main_arg3 m c)
    · exact (h c _ (Cert.KernelIdeal.Hand.mem_uc Cert.KernelIdeal.main_arg4 (by decide))).trans (Cert.KernelIdeal.Hand.B4_main_arg4 m c)
    · exact (h c _ (Cert.KernelIdeal.Hand.mem_uc Cert.KernelIdeal.main_arg5 (by decide))).trans (Cert.KernelIdeal.Hand.B4_main_arg5 m c)
  · refine (θ_run Cert.ReferenceIdeal.defs _ _).mono (fun _ h c => ⟨?_, (h c).2⟩) (Cert.ReferenceIdeal.Value.run (F := Ideal) m' ρ')
    rw [(h c).1, Cert.ReferenceIdeal.Read.val_main_v13_eq, Cert.ReferenceIdeal.RefValue.ref_is_G,
      (hagree c).1, (hagree c).2.1, (hagree c).2.2.1, (hagree c).2.2.2.1, (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
